-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x32x32 : Shape := ⟨4, ![64, 512, 32, 32]⟩
abbrev S_ : Shape := ⟨0, ![]⟩

class Facts : Prop where
  bcast_S_S64x512x32x32 : S_.BroadcastsInDim S64x512x32x32 (![] : Fin 0 → Fin S64x512x32x32.rank)
  reducesTo_S64x512x32x32_S_d0_1_2_3 : S64x512x32x32.ReducesTo [0, 1, 2, 3] S_
  h_S_ : 0 < S_.numel

variable [Facts]

def fn {F : FTy → Type} [FloatOps F] (main_arg0 : FVec F S64x512x32x32 .f32) : IVec S_ 1 :=
  let main_v0 : FVec F S64x512x32x32 .f32 := Host.absf main_arg0
  let main_cst : FVec F S_ .f32 := constant S_ .f32 0x7F800000#32
  let main_v1 : FVec F S64x512x32x32 .f32 := broadcastInDim S64x512x32x32 ![] bcast_S_S64x512x32x32 main_cst
  let main_v2 : IVec S64x512x32x32 1 := cmpf .olt main_v0 main_v1
  let main_c : IVec S_ 1 := constantI S_ 1 1#1
  let main_v3 : IVec S_ 1 := (fun x v => Host.reduce IntOp.andi x v reducesTo_S64x512x32x32_S_d0_1_2_3 h_S_) main_v2 main_c
  main_v3
-- ==== Kernel.lean ====
abbrev S64x512x32x32 : Shape := ⟨4, ![64, 512, 32, 32]⟩
abbrev S64x512x1024 : Shape := ⟨3, ![64, 512, 1024]⟩
abbrev S512x512 : Shape := ⟨2, ![512, 512]⟩
abbrev S512x1 : Shape := ⟨2, ![512, 1]⟩
abbrev S1x512x1024 : Shape := ⟨3, ![1, 512, 1024]⟩
abbrev S512x1024 : Shape := ⟨2, ![512, 1024]⟩
abbrev S512 : Shape := ⟨1, ![512]⟩
abbrev S1x512 : Shape := ⟨2, ![1, 512]⟩
abbrev S1x1 : Shape := ⟨2, ![1, 1]⟩

abbrev nBuf : Space → Nat
  | .hbm => 8
  | .vmem => 14
  | .smem => 0
  | _ => 0

abbrev bufTy : (tb : Table) → Fin (tcTables nBuf tb) → BufTy
  | .hbm, ⟨0, _⟩ => ⟨S64x512x32x32, .f32⟩
  | .hbm, ⟨1, _⟩ => ⟨S64x512x1024, .f32⟩
  | .hbm, ⟨2, _⟩ => ⟨S512x512, .f32⟩
  | .hbm, ⟨3, _⟩ => ⟨S512x1, .f32⟩
  | .hbm, ⟨4, _⟩ => ⟨S512x512, .f32⟩
  | .hbm, ⟨5, _⟩ => ⟨S512x1, .f32⟩
  | .hbm, ⟨6, _⟩ => ⟨S64x512x1024, .f32⟩
  | .hbm, ⟨7, _⟩ => ⟨S64x512x32x32, .f32⟩
  | .local _ .vmem, ⟨0, _⟩ => ⟨S1x512x1024, .f32⟩
  | .local _ .vmem, ⟨1, _⟩ => ⟨S1x512x1024, .f32⟩
  | .local _ .vmem, ⟨2, _⟩ => ⟨S512x512, .f32⟩
  | .local _ .vmem, ⟨3, _⟩ => ⟨S512x1, .f32⟩
  | .local _ .vmem, ⟨4, _⟩ => ⟨S512x512, .f32⟩
  | .local _ .vmem, ⟨5, _⟩ => ⟨S512x1, .f32⟩
  | .local _ .vmem, ⟨6, _⟩ => ⟨S512x512, .f32⟩
  | .local _ .vmem, ⟨7, _⟩ => ⟨S512x1, .f32⟩
  | .local _ .vmem, ⟨8, _⟩ => ⟨S1x512x1024, .f32⟩
  | .local _ .vmem, ⟨9, _⟩ => ⟨S1x512x1024, .f32⟩
  | .local _ .vmem, ⟨10, _⟩ => ⟨S512x512, .f32⟩
  | .local _ .vmem, ⟨11, _⟩ => ⟨S512x1, .f32⟩
  | .local _ .vmem, ⟨12, _⟩ => ⟨S1x512x1024, .f32⟩
  | .local _ .vmem, ⟨13, _⟩ => ⟨S1x512x1024, .f32⟩
  | _, _ => ⟨S64x512x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg3_0 : Ref sig .tc := ⟨.vmem, 12, rfl⟩
abbrev cc2_stg3_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc1_sem0_0 : DmaSem sig := 4
abbrev cc1_sem1_0 : DmaSem sig := 5
abbrev cc1_sem2_0 : DmaSem sig := 6
abbrev cc1_sem3_0 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem3_0 : DmaSem sig := 12
abbrev cc2_sem3_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := .none

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S512x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev grid2 : Pipeline.Grid := ⟨1, ![64], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S512x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S64x512x32x32_S64x512x1024 : S64x512x32x32.ShapeCasts S64x512x1024
  inb_S512x512_S512x512_0_0 : ∀ a, (![0, 0] : Fin 2 → Nat) a + S512x512.size a ≤ S512x512.size a
  h_S512x512 : 0 < S512x512.numel
  inb_S512x1_S512x1_0_0 : ∀ a, (![0, 0] : Fin 2 → Nat) a + S512x1.size a ≤ S512x1.size a
  h_S512x1 : 0 < S512x1.numel
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  bitsLt_bf16_f32 : FTy.bits .bf16 < FTy.bits .f32
  shapeCasts_S512x512_S512x512 : S512x512.ShapeCasts S512x512
  shapeCasts_S512x1_S512x1 : S512x1.ShapeCasts S512x1
  reduces_S512x1024_S512 : S512x1024.Reduces [1] S512
  shapeCasts_S512_S512x1 : S512.ShapeCasts S512x1
  transposes_S512x1_p1_0_S1x512 : S512x1.Transposes [1, 0] S1x512
  iota_S512x512_d0_w32 : S512x512.Iotas .tc 32 [0]
  iota_S512x512_d1_w32 : S512x512.Iotas .tc 32 [1]
  natLt_1_32 : 1 < 32
  reduces_S512x512_S512 : S512x512.Reduces [1] S512
  broadcasts_S1x1_S512x512 : S1x1.Broadcasts S512x512
  broadcasts_S512x1_S512x1024 : S512x1.Broadcasts S512x1024
  shapeCasts_S512x1024_S1x512x1024 : S512x1024.ShapeCasts S1x512x1024
  shapeCasts_S64x512x1024_S64x512x32x32 : S64x512x1024.ShapeCasts S64x512x32x32
  dot_S512x1024_S512x1024_S512x512_1_1_0_0_n_n_wf : DotDims.WF S512x1024 S512x1024 S512x512 [1] [1] [0] [0] [] []
  dot_S512x1_S1x512_S512x512_1_0_0_1_n_n_wf : DotDims.WF S512x1 S1x512 S512x512 [1] [0] [0] [1] [] []
  dot_S1x512_S512x1_S1x1_1_0_0_1_n_n_wf : DotDims.WF S1x512 S512x1 S1x1 [1] [0] [0] [1] [] []
  dot_S512x512_S512x512_S512x512_1_0_0_1_n_n_wf : DotDims.WF S512x512 S512x512 S512x512 [1] [0] [0] [1] [] []
  dot_S512x512_S512x1_S512x1_1_0_0_1_n_n_wf : DotDims.WF S512x512 S512x1 S512x1 [1] [0] [0] [1] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage1_0 : ∀ j, (stage1_0 j).IsWhole
  hstage1_1 : ∀ j, (stage1_1 j).IsWhole
  hstage1_2 : ∀ j, (stage1_2 j).IsWhole
  hstage1_3 : ∀ j, (stage1_3 j).IsWhole
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x512x1024.size a ≤ S64x512x1024.size a
  hwx2_0 : ∀ i : grid2.Coords, EltTy.bits .f32 = 32 ∨ (Rect.block (s := S64x512x1024) S1x512x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S512x512.size a
  hwx2_1 : ∀ i : grid2.Coords, EltTy.bits .f32 = 32 ∨ (Rect.block (s := S512x512) S512x512.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S512x1.size a
  hwx2_2 : ∀ i : grid2.Coords, EltTy.bits .f32 = 32 ∨ (Rect.block (s := S512x1) S512x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x512x1024.size a ≤ S64x512x1024.size a
  hwx2_3 : ∀ i : grid2.Coords, EltTy.bits .f32 = 32 ∨ (Rect.block (s := S64x512x1024) S1x512x1024.size (cc2_transform_3 i) (hinb2_3 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x1_S1x512_S512x512_1_0_0_1_n_n : DotDims S512x1 S1x512 S512x512 where
  lhsContracting := [1]
  rhsContracting := [0]
  lhsNonContracting := [0]
  rhsNonContracting := [1]
  lhsBatch := []
  rhsBatch := []
  wf := dot_S512x1_S1x512_S512x512_1_0_0_1_n_n_wf
def dot_S1x512_S512x1_S1x1_1_0_0_1_n_n : DotDims S1x512 S512x1 S1x1 where
  lhsContracting := [1]
  rhsContracting := [0]
  lhsNonContracting := [0]
  rhsNonContracting := [1]
  lhsBatch := []
  rhsBatch := []
  wf := dot_S1x512_S512x1_S1x1_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x1_S512x1_1_0_0_1_n_n : DotDims S512x512 S512x1 S512x1 where
  lhsContracting := [1]
  rhsContracting := [0]
  lhsNonContracting := [0]
  rhsNonContracting := [1]
  lhsBatch := []
  rhsBatch := []
  wf := dot_S512x512_S512x1_S512x1_1_0_0_1_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1_0) S512x512.size cc0_transform_1 reads0_1 true true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_1) S512x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.whole (Memref.whole main_v1_0) false false (stage1_0 0) (sem1_0 0) (Memref.isWhole_whole _) (hstage1_0 0)

abbrev win1_1 : Pipeline.Window sig grid1 :=
  Pipeline.Window.whole (Memref.whole main_v1_1) false false (stage1_1 0) (sem1_1 0) (Memref.isWhole_whole _) (hstage1_1 0)

abbrev win1_2 : Pipeline.Window sig grid1 :=
  Pipeline.Window.whole (Memref.whole main_v2_0) true false (stage1_2 0) (sem1_2 0) (Memref.isWhole_whole _) (hstage1_2 0)

abbrev win1_3 : Pipeline.Window sig grid1 :=
  Pipeline.Window.whole (Memref.whole main_v2_1) true false (stage1_3 0) (sem1_3 0) (Memref.isWhole_whole _) (hstage1_3 0)

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v0) S1x512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2_0) S512x512.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2_1) S512x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v3) S1x512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S64x512x32x32 : Shape := ⟨4, ![64, 512, 32, 32]⟩
abbrev S512x64x32x32 : Shape := ⟨4, ![512, 64, 32, 32]⟩
abbrev S512x65536 : Shape := ⟨2, ![512, 65536]⟩
abbrev S_ : Shape := ⟨0, ![]⟩
abbrev S512 : Shape := ⟨1, ![512]⟩
abbrev S512x1 : Shape := ⟨2, ![512, 1]⟩
abbrev S512x512 : Shape := ⟨2, ![512, 512]⟩
abbrev S65536x512 : Shape := ⟨2, ![65536, 512]⟩

abbrev nBuf : Space → Nat
  | .hbm => 98
  | .vmem => 0
  | .smem => 0
  | _ => 0

abbrev bufTy : (tb : Table) → Fin (tcTables nBuf tb) → BufTy
  | .hbm, ⟨0, _⟩ => ⟨S64x512x32x32, .f32⟩
  | .hbm, ⟨1, _⟩ => ⟨S512x64x32x32, .f32⟩
  | .hbm, ⟨2, _⟩ => ⟨S512x65536, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S512x65536, .f32⟩
  | .hbm, ⟨10, _⟩ => ⟨S512x65536, .f32⟩
  | .hbm, ⟨11, _⟩ => ⟨S512x512, .i32⟩
  | .hbm, ⟨12, _⟩ => ⟨S512x512, .i32⟩
  | .hbm, ⟨13, _⟩ => ⟨S_, .i32⟩
  | .hbm, ⟨14, _⟩ => ⟨S512x512, .i32⟩
  | .hbm, ⟨15, _⟩ => ⟨S512x512, .i32⟩
  | .hbm, ⟨16, _⟩ => ⟨S512x512, .i1⟩
  | .hbm, ⟨17, _⟩ => ⟨S512x512, .f32⟩
  | .hbm, ⟨18, _⟩ => ⟨S_, .f32⟩
  | .hbm, ⟨19, _⟩ => ⟨S512x512, .f32⟩
  | .hbm, ⟨20, _⟩ => ⟨S512x512, .f32⟩
  | .hbm, ⟨21, _⟩ => ⟨S65536x512, .f32⟩
  | .hbm, ⟨22, _⟩ => ⟨S512x512, .f32⟩
  | .hbm, ⟨23, _⟩ => ⟨S_, .f32⟩
  | .hbm, ⟨24, _⟩ => ⟨S512x512, .f32⟩
  | .hbm, ⟨25, _⟩ => ⟨S512x512, .f32⟩
  | .hbm, ⟨26, _⟩ => ⟨S512x512, .f32⟩
  | .hbm, ⟨27, _⟩ => ⟨S512x512, .i32⟩
  | .hbm, ⟨28, _⟩ => ⟨S512x512, .i32⟩
  | .hbm, ⟨29, _⟩ => ⟨S_, .i32⟩
  | .hbm, ⟨30, _⟩ => ⟨S512x512, .i32⟩
  | .hbm, ⟨31, _⟩ => ⟨S512x512, .i32⟩
  | .hbm, ⟨32, _⟩ => ⟨S512x512, .i1⟩
  | .hbm, ⟨33, _⟩ => ⟨S_, .f32⟩
  | .hbm, ⟨34, _⟩ => ⟨S512x512, .f32⟩
  | .hbm, ⟨35, _⟩ => ⟨S512x512, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S512x512, .f32⟩
  | .hbm, ⟨41, _⟩ => ⟨S512x512, .f32⟩
  | .hbm, ⟨42, _⟩ => ⟨S_, .f32⟩
  | .hbm, ⟨43, _⟩ => ⟨S512x512, .f32⟩
  | .hbm, ⟨44, _⟩ => ⟨S512x512, .f32⟩
  | .hbm, ⟨45, _⟩ => ⟨S512x512, .f32⟩
  | .hbm, ⟨46, _⟩ => ⟨S512x512, .f32⟩
  | .hbm, ⟨47, _⟩ => ⟨S_, .f32⟩
  | .hbm, ⟨48, _⟩ => ⟨S512x512, .f32⟩
  | .hbm, ⟨49, _⟩ => ⟨S512x512, .f32⟩
  | .hbm, ⟨50, _⟩ => ⟨S512x512, .f32⟩
  | .hbm, ⟨51, _⟩ => ⟨S512x512, .f32⟩
  | .hbm, ⟨52, _⟩ => ⟨S_, .f32⟩
  | .hbm, ⟨53, _⟩ => ⟨S512x512, .f32⟩
  | .hbm, ⟨54, _⟩ => ⟨S512x512, .f32⟩
  | .hbm, ⟨55, _⟩ => ⟨S512x512, .f32⟩
  | .hbm, ⟨56, _⟩ => ⟨S512x512, .f32⟩
  | .hbm, ⟨57, _⟩ => ⟨S_, .f32⟩
  | .hbm, ⟨58, _⟩ => ⟨S512x512, .f32⟩
  | .hbm, ⟨59, _⟩ => ⟨S512x512, .f32⟩
  | .hbm, ⟨60, _⟩ => ⟨S512x512, .f32⟩
  | .hbm, ⟨61, _⟩ => ⟨S512x512, .f32⟩
  | .hbm, ⟨62, _⟩ => ⟨S_, .f32⟩
  | .hbm, ⟨63, _⟩ => ⟨S512x512, .f32⟩
  | .hbm, ⟨64, _⟩ => ⟨S512x512, .f32⟩
  | .hbm, ⟨65, _⟩ => ⟨S512x512, .f32⟩
  | .hbm, ⟨66, _⟩ => ⟨S512x512, .f32⟩
  | .hbm, ⟨67, _⟩ => ⟨S_, .f32⟩
  | .hbm, ⟨68, _⟩ => ⟨S512x512, .f32⟩
  | .hbm, ⟨69, _⟩ => ⟨S512x512, .f32⟩
  | .hbm, ⟨70, _⟩ => ⟨S512x512, .f32⟩
  | .hbm, ⟨71, _⟩ => ⟨S512x512, .f32⟩
  | .hbm, ⟨72, _⟩ => ⟨S_, .f32⟩
  | .hbm, ⟨73, _⟩ => ⟨S512x512, .f32⟩
  | .hbm, ⟨74, _⟩ => ⟨S512x512, .f32⟩
  | .hbm, ⟨75, _⟩ => ⟨S512x512, .f32⟩
  | .hbm, ⟨76, _⟩ => ⟨S512x512, .f32⟩
  | .hbm, ⟨77, _⟩ => ⟨S_, .f32⟩
  | .hbm, ⟨78, _⟩ => ⟨S512x512, .f32⟩
  | .hbm, ⟨79, _⟩ => ⟨S512x512, .f32⟩
  | .hbm, ⟨80, _⟩ => ⟨S512x512, .f32⟩
  | .hbm, ⟨81, _⟩ => ⟨S512x512, .f32⟩
  | .hbm, ⟨82, _⟩ => ⟨S_, .f32⟩
  | .hbm, ⟨83, _⟩ => ⟨S512x512, .f32⟩
  | .hbm, ⟨84, _⟩ => ⟨S512x512, .f32⟩
  | .hbm, ⟨85, _⟩ => ⟨S512x512, .f32⟩
  | .hbm, ⟨86, _⟩ => ⟨S512x512, .f32⟩
  | .hbm, ⟨87, _⟩ => ⟨S_, .f32⟩
  | .hbm, ⟨88, _⟩ => ⟨S512x512, .f32⟩
  | .hbm, ⟨89, _⟩ => ⟨S512x512, .f32⟩
  | .hbm, ⟨90, _⟩ => ⟨S512x512, .f32⟩
  | .hbm, ⟨91, _⟩ => ⟨S512x512, .f32⟩
  | .hbm, ⟨92, _⟩ => ⟨S_, .f32⟩
  | .hbm, ⟨93, _⟩ => ⟨S512x512, .f32⟩
  | .hbm, ⟨94, _⟩ => ⟨S512x512, .f32⟩
  | .hbm, ⟨95, _⟩ => ⟨S512x65536, .f32⟩
  | .hbm, ⟨96, _⟩ => ⟨S512x64x32x32, .f32⟩
  | .hbm, ⟨97, _⟩ => ⟨S64x512x32x32, .f32⟩
  | _, _ => ⟨S64x512x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_call0_v0 : Ref sig .tc := ⟨.hbm, 27, rfl⟩
abbrev main_call0_v1 : Ref sig .tc := ⟨.hbm, 28, rfl⟩
abbrev main_call0_c : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_cst : Ref sig .tc := ⟨.hbm, 33, rfl⟩
abbrev main_call0_v5 : Ref sig .tc := ⟨.hbm, 34, rfl⟩
abbrev main_call0_v6 : Ref sig .tc := ⟨.hbm, 35, rfl⟩
abbrev main_call0_cst_0 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_13 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩

abbrev nD : Nat := 1
abbrev τ : Topo := Topo.v7x

variable {F : FTy → Type} [FloatOps F]

class Facts₀ : Prop where
  transposes_S64x512x32x32_S512x64x32x32_1_0_2_3 : S64x512x32x32.Transposes [1, 0, 2, 3] S512x64x32x32
  shapeCasts_S512x64x32x32_S512x65536 : S512x64x32x32.ShapeCasts S512x65536
  reducesTo_S512x65536_S512_d1 : S512x65536.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x65536_0_1 : S512x1.BroadcastsInDim S512x65536 (![0, 1] : Fin 2 → Fin S512x65536.rank)
  bcast_S_S512x512 : S_.BroadcastsInDim S512x512 (![] : Fin 0 → Fin S512x512.rank)
  transposes_S512x65536_S65536x512_1_0 : S512x65536.Transposes [1, 0] S65536x512
  reducesTo_S512x512_S_d0_1 : S512x512.ReducesTo [0, 1] S_
  shapeCasts_S512x65536_S512x64x32x32 : S512x65536.ShapeCasts S512x64x32x32
  transposes_S512x64x32x32_S64x512x32x32_1_0_2_3 : S512x64x32x32.Transposes [1, 0, 2, 3] S64x512x32x32
  dot_S512x65536_S65536x512_S512x512_1_0_0_1_n_n_wf : DotDims.WF S512x65536 S65536x512 S512x512 [1] [0] [0] [1] [] []
  dot_S512x512_S512x512_S512x512_1_0_0_1_n_n_wf : DotDims.WF S512x512 S512x512 S512x512 [1] [0] [0] [1] [] []
  dot_S512x512_S512x65536_S512x65536_1_0_0_1_n_n_wf : DotDims.WF S512x512 S512x65536 S512x65536 [1] [0] [0] [1] [] []

variable [Facts₀]

def dot_S512x65536_S65536x512_S512x512_1_0_0_1_n_n : DotDims S512x65536 S65536x512 S512x512 where
  lhsContracting := [1]
  rhsContracting := [0]
  lhsNonContracting := [0]
  rhsNonContracting := [1]
  lhsBatch := []
  rhsBatch := []
  wf := dot_S512x65536_S65536x512_S512x512_1_0_0_1_n_n_wf
def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x65536_S512x65536_1_0_0_1_n_n : DotDims S512x512 S512x65536 S512x65536 where
  lhsContracting := [1]
  rhsContracting := [0]
  lhsNonContracting := [0]
  rhsNonContracting := [1]
  lhsBatch := []
  rhsBatch := []
  wf := dot_S512x512_S512x65536_S512x65536_1_0_0_1_n_n_wf

class Facts : Prop extends Facts₀ where

variable [Facts]
-- ==== Proof.RealSpec.lean ====
/-
  The two programs over the real numbers.

  Both programs whiten the channels of x : 64 x 512 x 1024 (batch, channel, position) by five Newton-Schulz
  steps on the normalised covariance.  The kernel accumulates the raw Gram matrix A = sum_n x_n x_n^T and the raw
  row sums s, forms Sigma = A/m - mean mean^T + eps I, and applies wm to the uncentred x, subtracting wm mean;
  the reference centres x first, forms Sigma = eps I + xc xc^T / m, and applies wm to xc.  Everything here is a
  plain real function, the sums Finset sums over Fin; the statements about the printed programs say that their
  arrays hold exactly these reals.
-/
import Idealize.ShloMosaic.PureOps.Ideal

noncomputable section

namespace Cert.NS

/-- An a x b real matrix. -/
abbrev Mat (a b : ℕ) := Fin a → Fin b → ℝ

/-- The matrix product. -/
def mm {a b c : ℕ} (A : Mat a b) (B : Mat b c) : Mat a c := fun i j => ∑ k, A i k * B k j

/-- The identity matrix. -/
def idm (n : ℕ) : Mat n n := fun i j => if i = j then 1 else 0

/-- The ridge: the single-precision number nearest 1e-5, exactly 10995116 / 2^40. -/
def epsR : ℝ := 10995116 / 2 ^ 40

/-- The number of samples per channel, 64 * 1024. -/
def r65536 : ℝ := 65536

/-- Its reciprocal, the dyadic 2^-16 the kernel multiplies by. -/
def inv65536 : ℝ := 1 / 65536

/-- One Newton-Schulz step in the kernel's grouping: 1.5 P - 0.5 (((P P) P) S). -/
def stepK (S P : Mat 512 512) : Mat 512 512 := fun i j => 1.5 * P i j - 0.5 * mm (mm (mm P P) P) S i j

/-- One Newton-Schulz step in the reference's grouping: 1.5 P - (0.5 ((P P) P)) S. -/
def stepR (S P : Mat 512 512) : Mat 512 512 := fun i j => 1.5 * P i j - mm (fun i j => 0.5 * mm (mm P P) P i j) S i j

/-! ## The kernel, from the accumulated Gram matrix A and the row sums s (a column) -/

/-- The channel means: the row sums times 2^-16. -/
def meanK (s : Mat 512 1) : Mat 512 1 := fun i z => s i z * inv65536

/-- Sigma = A 2^-16 - mean mean^T + eps I. -/
def sigK (A : Mat 512 512) (s : Mat 512 1) : Mat 512 512 :=
  fun i j => (A i j * inv65536 - mm (meanK s) (fun z j => meanK s j z) i j) + epsR * idm 512 i j

/-- The diagonal of Sigma as a column: row sums of Sigma masked by the identity. -/
def diagK (A : Mat 512 512) (s : Mat 512 1) : Mat 512 1 := fun i _ => ∑ j, sigK A s i j * idm 512 i j

/-- The trace: a row of ones times the diagonal column. -/
def trK (A : Mat 512 512) (s : Mat 512 1) : ℝ := mm (fun (_ : Fin 1) (_ : Fin 512) => (1 : ℝ)) (diagK A s) 0 0

/-- Sigma / trace. -/
def snK (A : Mat 512 512) (s : Mat 512 1) : Mat 512 512 := fun i j => sigK A s i j * (1 / trK A s)

/-- The whitening matrix: five steps from the identity, times sqrt (1 / trace). -/
def wmK (A : Mat 512 512) (s : Mat 512 1) : Mat 512 512 :=
  fun i j => (stepK (snK A s))^[5] (idm 512) i j * Real.sqrt (1 / trK A s)

/-- wm mean, a column. -/
def wmmK (A : Mat 512 512) (s : Mat 512 1) : Mat 512 1 := mm (wmK A s) (meanK s)

/-- The raw Gram matrix: over batches and positions. -/
def gram (x : Fin 64 → Fin 512 → Fin 1024 → ℝ) : Mat 512 512 := fun i j => ∑ n, ∑ p, x n i p * x n j p

/-- The raw row sums, as a column. -/
def rsum (x : Fin 64 → Fin 512 → Fin 1024 → ℝ) : Mat 512 1 := fun i _ => ∑ n, ∑ p, x n i p

/-- The kernel's result at batch n, channel c, position p. -/
def outK (x : Fin 64 → Fin 512 → Fin 1024 → ℝ) (n : Fin 64) (c : Fin 512) (p : Fin 1024) : ℝ :=
  (∑ k, wmK (gram x) (rsum x) c k * x n k p) - wmmK (gram x) (rsum x) c 0

/-! ## The reference, on the channels-by-samples matrix -/

/-- Sample k of the 65536 is batch k / 1024, position k % 1024. -/
def xr (x : Fin 64 → Fin 512 → Fin 1024 → ℝ) : Mat 512 65536 :=
  fun c k => x ⟨k.val / 1024, by have := k.isLt; omega⟩ c ⟨k.val % 1024, Nat.mod_lt _ (by norm_num)⟩

/-- The channel means, a column: (0 + the row sum) / 65536. -/
def meanR (x : Fin 64 → Fin 512 → Fin 1024 → ℝ) : Mat 512 1 := fun c _ => (0 + ∑ k, xr x c k) / r65536

/-- The centred samples. -/
def xcR (x : Fin 64 → Fin 512 → Fin 1024 → ℝ) : Mat 512 65536 := fun c k => xr x c k - meanR x c 0

/-- Sigma = eps I + xc xc^T / 65536. -/
def sigR (x : Fin 64 → Fin 512 → Fin 1024 → ℝ) : Mat 512 512 :=
  fun i j => epsR * idm 512 i j + mm (xcR x) (fun k j => xcR x j k) i j / r65536

/-- The trace: 0 + the sum over all entries of Sigma kept on the diagonal. -/
def trR (x : Fin 64 → Fin 512 → Fin 1024 → ℝ) : ℝ := 0 + ∑ i, ∑ j, (if i = j then sigR x i j else 0)

/-- Sigma / trace. -/
def snR (x : Fin 64 → Fin 512 → Fin 1024 → ℝ) : Mat 512 512 := fun i j => sigR x i j * (1 / trR x)

/-- The whitening matrix. -/
def wmR (x : Fin 64 → Fin 512 → Fin 1024 → ℝ) : Mat 512 512 :=
  fun i j => (stepR (snR x))^[5] (idm 512) i j * Real.sqrt (1 / trR x)

/-- The reference's result at channel c, sample k. -/
def outR (x : Fin 64 → Fin 512 → Fin 1024 → ℝ) : Mat 512 65536 := mm (wmR x) (xcR x)

/-- The input as both programs index it: position p of a 32 x 32 image is row p / 32, column p % 32. -/
def xOf (x4 : Fin 64 → Fin 512 → Fin 32 → Fin 32 → ℝ) : Fin 64 → Fin 512 → Fin 1024 → ℝ :=
  fun n c p => x4 n c ⟨p.val / 32, by have := p.isLt; omega⟩ ⟨p.val % 32, Nat.mod_lt _ (by norm_num)⟩

end Cert.NS

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.Lift.lean ====
/-
  Reading extended-real vectors as real matrices.

  A rank-two vector of extended reals "holds" a real matrix when every entry is the coercion of the matrix's
  entry.  The exact operations of the ideal instance act on such vectors as the real operations act on the
  matrices: sums of finitely many reals are real, products are real, the product of two matrices (whatever
  precision the instruction names) is the real matrix product.  The single-precision literals the programs spell are
  dyadic rationals.
-/
import Idealize.ShloMosaic.Lib.Pipeline.Value
import Idealize.ShloMosaic.Lib.ValueIdx
import Idealize.ShloMosaic.Lib.ValueLayout
import Idealize.ShloMosaic.PureOps.Ideal.Laws
import proofs.«129160_j16527034155453_1_alg».proof.Proof.RealSpec
import proofs.«129160_j16527034155453_1_alg».proof.Proof.LibPlainDot

noncomputable section

namespace Cert.Lift

open Idealize.ShloMosaic Idealize.ShloMosaic.ValueIdx Cert.NS

/-- The rank-two vector v holds the real matrix A. -/
def IsM {M N : ℕ} (v : (⟨2, ![M, N]⟩ : Shape).Idx → EReal) (A : Mat M N) : Prop :=
  ∀ i j, v (ix2 i j) = ((A i j : ℝ) : EReal)

/-- The rank-one vector v holds the real vector a. -/
def IsV {N : ℕ} (v : (⟨1, ![N]⟩ : Shape).Idx → EReal) (a : Fin N → ℝ) : Prop :=
  ∀ i, v (ix1 i) = ((a i : ℝ) : EReal)

/-- The rank-zero vector v holds the real a. -/
def IsS (v : (⟨0, ![]⟩ : Shape).Idx → EReal) (a : ℝ) : Prop := v ix0 = ((a : ℝ) : EReal)

/-- The rank-three vector v holds the reals f. -/
def Is3 {A B C : ℕ} (v : (⟨3, ![A, B, C]⟩ : Shape).Idx → EReal) (f : Fin A → Fin B → Fin C → ℝ) : Prop :=
  ∀ a b c, v (ix3 a b c) = ((f a b c : ℝ) : EReal)

/-- The rank-four vector v holds the reals f. -/
def Is4 {A B C D : ℕ} (v : (⟨4, ![A, B, C, D]⟩ : Shape).Idx → EReal) (f : Fin A → Fin B → Fin C → Fin D → ℝ) : Prop :=
  ∀ a b c d, v (ix4 a b c d) = ((f a b c d : ℝ) : EReal)

/-- A finite sum of coerced reals is the coerced sum. -/
theorem coe_sum {ι : Type*} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-! ## The literals -/

theorem lit_zero : Ideal.ofBits .f32 0x00000000#32 = ((0 : ℝ) : EReal) := by
  simp [Ideal.ofBits, Ideal.ieee]
theorem lit_inv65536 : Ideal.ofBits .f32 0x37800000#32 = ((inv65536 : ℝ) : EReal) := by
  simp [Ideal.ofBits, Ideal.ieee, inv65536, -EReal.coe_mul]; norm_num
theorem lit_eps : Ideal.ofBits .f32 0x3727C5AC#32 = ((epsR : ℝ) : EReal) := by
  simp [Ideal.ofBits, Ideal.ieee, epsR, -EReal.coe_mul]; norm_num
theorem lit_one : Ideal.ofBits .f32 0x3F800000#32 = ((1 : ℝ) : EReal) := by
  simp [Ideal.ofBits, Ideal.ieee, -EReal.coe_mul]; norm_num
theorem lit_1p5 : Ideal.ofBits .f32 0x3FC00000#32 = ((1.5 : ℝ) : EReal) := by
  simp [Ideal.ofBits, Ideal.ieee, -EReal.coe_mul]; norm_num
theorem lit_half : Ideal.ofBits .f32 0x3F000000#32 = ((0.5 : ℝ) : EReal) := by
  simp [Ideal.ofBits, Ideal.ieee, -EReal.coe_mul]; norm_num
theorem lit_65536 : Ideal.ofBits .f32 0x47800000#32 = ((r65536 : ℝ) : EReal) := by
  simp [Ideal.ofBits, Ideal.ieee, r65536, -EReal.coe_mul]; norm_num

/-- A scalar literal in a kernel body is the same extended real as the vector constant's. -/
theorem scalar_ofBits (b : BitVec 32) : (Scalar.ofBits (F := Ideal) .f32 b : Ideal .f32) = Ideal.ofBits .f32 b := rfl

/-! ## Division and square root on coerced reals -/

/-- The quotient of two coerced reals, the divisor nonzero, is the coerced quotient. -/
private theorem div_coe_coe {x y : ℝ} (hy : y ≠ 0) : Ideal.div ((x : ℝ) : EReal) ((y : ℝ) : EReal) = ((x / y : ℝ) : EReal) := by
  rw [Ideal.div, if_neg (by exact_mod_cast hy), ← EReal.coe_inv, ← EReal.coe_mul, div_eq_mul_inv]

/-- The square root of a coerced nonnegative real is the coerced square root. -/
private theorem sqrt_coe_nonneg {x : ℝ} (hx : 0 ≤ x) : Ideal.sqrt ((x : ℝ) : EReal) = ((Real.sqrt x : ℝ) : EReal) := by
  show (if x < 0 then (⊥ : EReal) else ((Real.sqrt x : ℝ) : EReal)) = _
  rw [if_neg (not_lt.mpr hx)]

/-! ## Pointwise operations, rank two -/

section
variable {M N : ℕ} {u v : FVec Ideal ⟨2, ![M, N]⟩ .f32} {A B : Mat M N}

theorem IsM.mulf (hu : IsM u A) (hv : IsM v B) : IsM (mulf u v) (fun i j => A i j * B i j) := by
  intro i j
  show u (ix2 i j) * v (ix2 i j) = _
  rw [hu i j, hv i j, ← EReal.coe_mul]
theorem IsM.addf (hu : IsM u A) (hv : IsM v B) : IsM (addf u v) (fun i j => A i j + B i j) := by
  intro i j
  show u (ix2 i j) + v (ix2 i j) = _
  rw [hu i j, hv i j, ← EReal.coe_add]
theorem IsM.subf (hu : IsM u A) (hv : IsM v B) : IsM (subf u v) (fun i j => A i j - B i j) := by
  intro i j
  show u (ix2 i j) - v (ix2 i j) = _
  rw [hu i j, hv i j, ← EReal.coe_sub]

/-- A scalar splat. -/
theorem IsM.splat {c : Ideal .f32} {r : ℝ} (hc : c = ((r : ℝ) : EReal)) :
    IsM (broadcast (⟨2, ![M, N]⟩ : Shape) c : FVec Ideal ⟨2, ![M, N]⟩ .f32) (fun _ _ => r) := by
  intro i j
  exact hc

/-- Division by a nonzero-everywhere matrix (the kernel's divf). -/
theorem IsM.divf (hu : IsM u A) (hv : IsM v B) (hB : ∀ i j, B i j ≠ 0) : IsM (divf u v) (fun i j => A i j / B i j) := by
  intro i j
  show Ideal.div (u (ix2 i j)) (v (ix2 i j)) = _
  rw [hu i j, hv i j]
  exact div_coe_coe (hB i j)

/-- The host's division. -/
theorem IsM.hostDivf (hu : IsM u A) (hv : IsM v B) (hB : ∀ i j, B i j ≠ 0) : IsM (Host.divf u v) (fun i j => A i j / B i j) := by
  intro i j
  show Ideal.div (u (ix2 i j)) (v (ix2 i j)) = _
  rw [hu i j, hv i j]
  exact div_coe_coe (hB i j)

/-- The square root of a nonnegative-everywhere matrix (the kernel's sqrt). -/
theorem IsM.sqrt (hu : IsM u A) (hA : ∀ i j, 0 ≤ A i j) : IsM (sqrt u) (fun i j => Real.sqrt (A i j)) := by
  intro i j
  show Ideal.sqrt (u (ix2 i j)) = _
  rw [hu i j]
  exact sqrt_coe_nonneg (hA i j)

/-- A change of format is the identity. -/
theorem IsM.truncf (hu : IsM u A) : IsM (truncf .bf16 u (by decide) : FVec Ideal ⟨2, ![M, N]⟩ .bf16) A := by
  intro i j
  exact hu i j
end

/-! ## Rank zero (the reference's scalars) -/

section
variable {u v : FVec Ideal ⟨0, ![]⟩ .f32} {a b : ℝ}
theorem IsS.const {bits : BitVec 32} {r : ℝ} (h : Ideal.ofBits .f32 bits = ((r : ℝ) : EReal)) :
    IsS (constant (F := Ideal) ⟨0, ![]⟩ .f32 bits) r := by
  show Ideal.ofBits .f32 bits = _
  exact h
theorem IsS.hostDivf (hu : IsS u a) (hv : IsS v b) (hb : b ≠ 0) : IsS (Host.divf u v) (a / b) := by
  have hu' : u ix0 = ((a : ℝ) : EReal) := hu
  have hv' : v ix0 = ((b : ℝ) : EReal) := hv
  show Ideal.div (u ix0) (v ix0) = _
  rw [hu', hv']
  exact div_coe_coe hb
theorem IsS.hostSqrt (hu : IsS u a) (ha : 0 ≤ a) : IsS (Host.sqrt u) (Real.sqrt a) := by
  have hu' : u ix0 = ((a : ℝ) : EReal) := hu
  show Ideal.sqrt (u ix0) = _
  rw [hu']
  exact sqrt_coe_nonneg ha
end

/-! ## Matrix products -/

/-- The sum over the contraction index of a plain product at (r, c) is the sum over k of f (r, k) * g (k, c). -/
private theorem plain_sum {M K N : ℕ} (f : (⟨2, ![M, K]⟩ : Shape).Idx → EReal) (g : (⟨2, ![K, N]⟩ : Shape).Idx → EReal)
    (r : Fin M) (c : Fin N) :
    (∑ k : (DotDims.plain M K N).contr.Idx,
        f ((DotDims.plain M K N).lhsIdx (ix2 r c) k) * g ((DotDims.plain M K N).rhsIdx (ix2 r c) k))
      = ∑ k : Fin K, f (ix2 r k) * g (ix2 k c) := by
  exact (Ideal.matmul_constant_zero_apply (φ₁ := .f32) (φ₂ := .f32) (DotDims.plain M K N) none f g (ix2 r c)).symm.trans
    (Cert.LibPlainDot.matmul_plain_apply M K N f g r c)

/-- The sum of products of held entries is the held matrix product's entry. -/
private theorem sum_mm {M K N : ℕ} {u : (⟨2, ![M, K]⟩ : Shape).Idx → EReal} {v : (⟨2, ![K, N]⟩ : Shape).Idx → EReal}
    {A : Mat M K} {B : Mat K N} (hu : IsM u A) (hv : IsM v B) (i : Fin M) (j : Fin N) :
    (∑ k : Fin K, u (ix2 i k) * v (ix2 k j)) = ((mm A B i j : ℝ) : EReal) := by
  have h : ∀ k ∈ (Finset.univ : Finset (Fin K)), u (ix2 i k) * v (ix2 k j) = ((A i k * B k j : ℝ) : EReal) := by
    intro k _
    rw [hu i k, hv k j, ← EReal.coe_mul]
  rw [Finset.sum_congr rfl h, coe_sum]
  rfl

/-- A plain M x K by K x N kernel product into the zero accumulator, at any precision. -/
theorem IsM.matmul_plain {M K N : ℕ} (prec : Option ContractPrecision) {φ₁ φ₂ : FTy}
    {u : FVec Ideal ⟨2, ![M, K]⟩ φ₁} {v : FVec Ideal ⟨2, ![K, N]⟩ φ₂} {A : Mat M K} {B : Mat K N}
    (hu : IsM u A) (hv : IsM v B) :
    IsM (matmul (DotDims.plain M K N) prec u v (constant ⟨2, ![M, N]⟩ .f32 0x00000000#32)) (mm A B) := by
  intro i j
  show FloatOps.matmul (DotDims.plain M K N) prec u v (constant ⟨2, ![M, N]⟩ .f32 0x00000000#32) (ix2 i j) = _
  rw [Ideal.matmul_constant_zero_apply, plain_sum]
  exact sum_mm hu hv i j

/-- The host's plain product. -/
theorem IsM.dotGeneral_plain {M K N : ℕ} {u : FVec Ideal ⟨2, ![M, K]⟩ .f32} {v : FVec Ideal ⟨2, ![K, N]⟩ .f32}
    {A : Mat M K} {B : Mat K N} (hu : IsM u A) (hv : IsM v B) :
    IsM (Host.dotGeneral (DotDims.plain M K N) none u v) (mm A B) := by
  intro i j
  show FloatOps.dotGeneral (DotDims.plain M K N) none .single u v (ix2 i j) = _
  rw [Ideal.dotGeneral_apply, plain_sum]
  exact sum_mm hu hv i j

end Cert.Lift

end
-- ==== Proof.KReg0.lean ====
/-
  Region 0: the Gram matrix and the row sums, accumulated over the 64 batches.
  At the first grid point both outputs are reset to zero and then take x_0 x_0^T and the row sums of x_0; at every
  later point they take what the point before left plus x_n x_n^T and the row sums of x_n.  Neither output is written
  back before the last point, so the arrays after the region hold the sums over all 64 batches.
-/
import proofs.«129160_j16527034155453_1_alg».proof.Proof.Gen.KernelIdeal.Frame
import proofs.«129160_j16527034155453_1_alg».proof.Proof.Lift

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Cert.NS Cert.Lift

variable (V : (c : Dev nD) → (b : Ref sig .tc) → Buf (Elt Ideal) ((c : Thread nD τ).loc b))

section Pieces
variable {F : FTy → Type} [FloatOps F]

/-- The zero offsets of a store or load of a whole buffer. -/
theorem hz2 : (![0, 0] : Fin 2 → Nat) = fun _ => 0 := funext fun a => by fin_cases a <;> rfl
theorem hz3 : (![0, 0, 0] : Fin 3 → Nat) = fun _ => 0 := funext fun a => by fin_cases a <;> rfl

/-- At a later point the Gram buffer is left holding the update of what it held. -/
theorem pieceB1 (c : Dev nD) (i : grid0.Coords) (a1 : Memref sig .tc .vmem S1x512x1024 .f32) (h1 : a1.IsWhole)
    (a2 : Memref sig .tc .vmem S512x512 .f32) (h2 : a2.IsWhole) (a3 : Memref sig .tc .vmem S512x1 .f32) (h3 : a3.IsWhole)
    (hc : ¬cond0_0 i) (x0 : Vec F S1x512x1024 .f32) (xo1 : Vec F S512x512 .f32) (xo2 : Vec F S512x1 .f32) :
    out0_B_1 c i a1 h1 a2 h2 a3 h3 hc x0 xo1 xo2 = k0_pay4 x0 xo1 := by
  unfold out0_B_1
  rw [View.read_writes_eq_canon _ _ _ (cover0_B_1 c i a1 h1 a2 h2 a3 h3 hc x0 xo1 xo2)]
  unfold kernelRun0_B
  dsimp only
  sl_unfold_words
  rw [View.canon_unit_zero hz2]
  simp only [View.readAt_eq_ld, h1.read_unread, h2.read_unread, h3.read_unread, View.ld_unit_zero (S := S512x512) hz2,
    View.ld_unit_zero (S := S1x512x1024) hz3]

/-- At a later point the row-sum buffer is left holding the update of what it held. -/
theorem pieceB2 (c : Dev nD) (i : grid0.Coords) (a1 : Memref sig .tc .vmem S1x512x1024 .f32) (h1 : a1.IsWhole)
    (a2 : Memref sig .tc .vmem S512x512 .f32) (h2 : a2.IsWhole) (a3 : Memref sig .tc .vmem S512x1 .f32) (h3 : a3.IsWhole)
    (hc : ¬cond0_0 i) (x0 : Vec F S1x512x1024 .f32) (xo1 : Vec F S512x512 .f32) (xo2 : Vec F S512x1 .f32) :
    out0_B_2 c i a1 h1 a2 h2 a3 h3 hc x0 xo1 xo2 = k0_pay5 x0 xo2 := by
  unfold out0_B_2
  rw [View.read_writes_eq_canon _ _ _ (cover0_B_2 c i a1 h1 a2 h2 a3 h3 hc x0 xo1 xo2)]
  unfold kernelRun0_B
  dsimp only
  sl_unfold_words
  rw [View.canon_unit_zero hz2]
  simp only [View.readAt_eq_ld, h1.read_unread, h2.read_unread, h3.read_unread, View.ld_unit_zero (S := S512x1) hz2,
    View.ld_unit_zero (S := S1x512x1024) hz3]

/-- At the first point the Gram buffer is reset to the zero block, read back, and left holding its update. -/
theorem pieceA1 (c : Dev nD) (i : grid0.Coords) (a1 : Memref sig .tc .vmem S1x512x1024 .f32) (h1 : a1.IsWhole)
    (a2 : Memref sig .tc .vmem S512x512 .f32) (h2 : a2.IsWhole) (a3 : Memref sig .tc .vmem S512x1 .f32) (h3 : a3.IsWhole)
    (hc : cond0_0 i) (x0 : Vec F S1x512x1024 .f32) :
    out0_A_1 c i a1 h1 a2 h2 a3 h3 hc x0 = k0_pay4 x0 (k0_pay1 (F := F)) := by
  unfold out0_A_1
  rw [View.read_writes_eq_canon _ _ _ (cover0_A_1 c i a1 h1 a2 h2 a3 h3 hc x0)]
  unfold kernelRun0_A
  dsimp only
  sl_unfold_words
  rw [View.canon_cons_unit_zero (S := S512x512) hz2, View.readCov_unit_zero (S := S512x512) _ hz2]
  simp only [View.readAt_eq_ld, h1.read_unread, View.ld_unit_zero (S := S512x512) hz2,
    View.ld_unit_zero (S := S1x512x1024) hz3]

/-- At the first point the row-sum buffer is reset to the zero column, read back, and left holding its update. -/
theorem pieceA2 (c : Dev nD) (i : grid0.Coords) (a1 : Memref sig .tc .vmem S1x512x1024 .f32) (h1 : a1.IsWhole)
    (a2 : Memref sig .tc .vmem S512x512 .f32) (h2 : a2.IsWhole) (a3 : Memref sig .tc .vmem S512x1 .f32) (h3 : a3.IsWhole)
    (hc : cond0_0 i) (x0 : Vec F S1x512x1024 .f32) :
    out0_A_2 c i a1 h1 a2 h2 a3 h3 hc x0 = k0_pay5 x0 (k0_pay2 (F := F)) := by
  unfold out0_A_2
  rw [View.read_writes_eq_canon _ _ _ (cover0_A_2 c i a1 h1 a2 h2 a3 h3 hc x0)]
  unfold kernelRun0_A
  dsimp only
  sl_unfold_words
  rw [View.canon_cons_unit_zero (S := S512x1) hz2, View.readCov_unit_zero (S := S512x1) _ hz2]
  simp only [View.readAt_eq_ld, h1.read_unread, View.ld_unit_zero (S := S512x1) hz2,
    View.ld_unit_zero (S := S1x512x1024) hz3]
end Pieces

section Payloads

/-- The Gram product: both operands contract their second axis, so the entry (r, c) is the sum over k of
    u (r, k) * v (c, k). -/
theorem matmul_gram_apply {φ₁ φ₂ : FTy} (lhs : FVec Ideal S512x1024 φ₁) (rhs : FVec Ideal S512x1024 φ₂)
    (r c : Fin 512) :
    matmul dot_S512x1024_S512x1024_S512x512_1_1_0_0_n_n none lhs rhs (constant S512x512 .f32 0x00000000#32) (ix2 r c)
      = ∑ k : Fin 1024, lhs (ix2 r k) * rhs (ix2 c k) := by
  show FloatOps.matmul dot_S512x1024_S512x1024_S512x512_1_1_0_0_n_n none lhs rhs (constant S512x512 .f32 0x00000000#32) (ix2 r c) = _
  rw [Ideal.matmul_constant_zero_apply,
    ← Equiv.sum_comp (ValueIdx.contrEquiv1 dot_S512x1024_S512x1024_S512x512_1_1_0_0_n_n 1024 rfl rfl).symm]
  refine Finset.sum_congr rfl fun k _ => ?_
  have hk := ValueIdx.contrEquiv1_symm_val dot_S512x1024_S512x1024_S512x512_1_1_0_0_n_n 1024 rfl rfl k
  have el : dot_S512x1024_S512x1024_S512x512_1_1_0_0_n_n.lhsIdx (ix2 r c)
      ((ValueIdx.contrEquiv1 dot_S512x1024_S512x1024_S512x512_1_1_0_0_n_n 1024 rfl rfl).symm k) = ix2 r k :=
    funext fun a => Fin.ext (by
      match a with
      | ⟨0, _⟩ => rfl
      | ⟨1, _⟩ => exact hk)
  have er : dot_S512x1024_S512x1024_S512x512_1_1_0_0_n_n.rhsIdx (ix2 r c)
      ((ValueIdx.contrEquiv1 dot_S512x1024_S512x1024_S512x512_1_1_0_0_n_n 1024 rfl rfl).symm k) = ix2 c k :=
    funext fun a => Fin.ext (by
      match a with
      | ⟨0, _⟩ => rfl
      | ⟨1, _⟩ => exact hk)
  rw [el, er]

variable {x0 : Vec Ideal S1x512x1024 .f32} {X : Mat 512 1024}

/-- The block without its leading unit axis holds the same reals. -/
theorem pay3_isM (hx : Is3 (x0 : S1x512x1024.Idx → EReal) (fun _ i p => X i p)) : IsM (k0_pay3 x0 : S512x1024.Idx → EReal) X := by
  intro i p
  unfold k0_pay3
  exact (shapeCast_1ab_ab_apply x0 shapeCasts_S1x512x1024_S512x1024 i p).trans (hx 0 i p)

/-- The Gram update: what the accumulator held plus the block times its own transpose. -/
theorem pay4_isM (hx : Is3 (x0 : S1x512x1024.Idx → EReal) (fun _ i p => X i p)) {v6 : Vec Ideal S512x512 .f32} {B : Mat 512 512}
    (hv : IsM (v6 : S512x512.Idx → EReal) B) :
    IsM (k0_pay4 x0 v6 : S512x512.Idx → EReal) (fun i j => B i j + ∑ p, X i p * X j p) := by
  have h5 := IsM.truncf (pay3_isM hx)
  unfold k0_pay4
  refine IsM.addf ?_ ?_
  · rw [shapeCast_self]; exact hv
  · intro i j
    refine (matmul_gram_apply _ _ i j).trans ?_
    rw [← coe_sum]
    refine Finset.sum_congr rfl fun k _ => ?_
    rw [h5 i k, h5 j k, EReal.coe_mul]

/-- The row-sum update: what the accumulator held plus the block's row sums. -/
theorem pay5_isM (hx : Is3 (x0 : S1x512x1024.Idx → EReal) (fun _ i p => X i p)) {v11 : Vec Ideal S512x1 .f32} {b : Mat 512 1}
    (hv : IsM (v11 : S512x1.Idx → EReal) b) :
    IsM (k0_pay5 x0 v11 : S512x1.Idx → EReal) (fun i z => b i z + ∑ p, X i p) := by
  have h3 := pay3_isM hx
  unfold k0_pay5
  refine IsM.addf ?_ ?_
  · rw [shapeCast_self]; exact hv
  · intro i z
    refine (shapeCast_apply _ shapeCasts_S512_S512x1 (ix2 i z) (ix1 i) ?_).trans ?_
    · rw [Shape.rowMajor_val_two, Shape.rowMajor_val_one]
      have hz : z.val = 0 := by have := z.isLt; omega
      show i.val = i.val * 1 + z.val
      omega
    · refine (Ideal.multiReduction_add_single (k0_pay3 x0) 0x00000000#32 reduces_S512x1024_S512 (.inl rfl) rfl (ix1 i)).trans ?_
      rw [← coe_sum]
      refine Finset.sum_congr rfl fun k _ => ?_
      have e : reduces_S512x1024_S512.lift (ix1 i) k = ix2 i k :=
        funext fun a => Fin.ext (by
          match a with
          | ⟨0, _⟩ => rfl
          | ⟨1, _⟩ => rfl)
      rw [e]; exact h3 i k

/-- The reset values are zero. -/
theorem pay1_isM : IsM (k0_pay1 (F := Ideal) : S512x512.Idx → EReal) (fun _ _ => 0) := by
  unfold k0_pay1
  exact IsM.splat ((scalar_ofBits _).trans lit_zero)
theorem pay2_isM : IsM (k0_pay2 (F := Ideal) : S512x1.Idx → EReal) (fun _ _ => 0) := by
  unfold k0_pay2
  exact IsM.splat ((scalar_ofBits _).trans lit_zero)

end Payloads

section Blocks

/-- The batch window's block index at point t is (t, 0, 0); the two outputs' block index is (0, 0) at every point. -/
theorem idx_facts0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
theorem idx_facts1 : ∀ t : Fin cfg0.N, win0_1.index t 0 = 0 ∧ win0_1.index t 1 = 0 :=
  (by decide +kernel : ∀ t : Fin grid0.N, win0_1.index t 0 = 0 ∧ win0_1.index t 1 = 0)
theorem idx_facts2 : ∀ t : Fin cfg0.N, win0_2.index t 0 = 0 ∧ win0_2.index t 1 = 0 :=
  (by decide +kernel : ∀ t : Fin grid0.N, win0_2.index t 0 = 0 ∧ win0_2.index t 1 = 0)

/-- Entry (0, i, p) of the batch window's block at point t is entry (t, i, p) of the batch array. -/
theorem iblk0_apply (c : Dev nD) (t : Fin cfg0.N) (n : Fin 64) (hn : n.val = t.val) (i : Fin 512) (p : Fin 1024) :
    (iblk0 V c 0 t : S1x512x1024.Idx → EReal) (ix3 0 i p) = (V c main_v0 : S64x512x1024.Idx → EReal) (ix3 n i p) := by
  unfold iblk0
  rw [View.read_apply]
  show V c main_v0 _ = V c main_v0 _
  congr 1
  funext a
  apply Fin.ext
  match a with
  | ⟨0, _⟩ => show win0_0.index t 0 * 1 + 1 * 0 = n.val; rw [(idx_facts0 t).1]; omega
  | ⟨1, _⟩ => show win0_0.index t 1 * 512 + 1 * i.val = i.val; rw [(idx_facts0 t).2.1]; omega
  | ⟨2, _⟩ => show win0_0.index t 2 * 1024 + 1 * p.val = p.val; rw [(idx_facts0 t).2.2]; omega

end Blocks

section Accumulation

/-- Batch n of x as a function of a natural number (zero past the last batch). -/
def xs (x : Fin 64 → Fin 512 → Fin 1024 → ℝ) (n : ℕ) : Fin 512 → Fin 1024 → ℝ :=
  fun i p => if h : n < 64 then x ⟨n, h⟩ i p else 0

theorem xs_fin (x : Fin 64 → Fin 512 → Fin 1024 → ℝ) (n : Fin 64) : xs x n.val = x n := by
  funext i p; unfold xs; rw [dif_pos n.isLt]

/-- The Gram matrix and the row sums of the batches 0, …, t. -/
def gramTo (x : Fin 64 → Fin 512 → Fin 1024 → ℝ) (t : ℕ) : Mat 512 512 :=
  fun i j => ∑ s ∈ Finset.range (t + 1), ∑ p, xs x s i p * xs x s j p
def rsumTo (x : Fin 64 → Fin 512 → Fin 1024 → ℝ) (t : ℕ) : Mat 512 1 :=
  fun i _ => ∑ s ∈ Finset.range (t + 1), ∑ p, xs x s i p

theorem isM_of_eq {M N : ℕ} {u v : (⟨2, ![M, N]⟩ : Shape).Idx → EReal} {A B : Mat M N} (e : u = v) (h : IsM v A)
    (hAB : ∀ i j, A i j = B i j) : IsM u B := by
  intro i j; rw [e, h i j, hAB i j]

variable {x : Fin 64 → Fin 512 → Fin 1024 → ℝ}

/-- The batch window's block at point t holds batch t of x. -/
theorem iblk0_is3 (c : Dev nD) (hx : Is3 (V c main_v0 : S64x512x1024.Idx → EReal) x) (t : Fin cfg0.N) :
    Is3 (iblk0 V c 0 t : S1x512x1024.Idx → EReal) (fun _ i p => xs x t.val i p) := by
  intro a i p
  have hN : t.val < 64 := lt_of_lt_of_eq t.isLt (show cfg0.N = 64 from N_0)
  obtain rfl : a = 0 := Subsingleton.elim _ _
  show _ = ((xs x t.val i p : ℝ) : EReal)
  rw [show xs x t.val i p = x ⟨t.val, hN⟩ i p from dif_pos hN]
  exact (iblk0_apply V c t ⟨t.val, hN⟩ rfl i p).trans (hx ⟨t.val, hN⟩ i p)

/-- After point n the two outputs' buffers hold the Gram matrix and the row sums of the batches 0, …, n. -/
theorem outs_inv (c : Dev nD) (hx : Is3 (V c main_v0 : S64x512x1024.Idx → EReal) x) :
    ∀ (n : ℕ) (h : n < cfg0.N),
      IsM ((outsAt0 V c n h).1 : S512x512.Idx → EReal) (gramTo x n)
      ∧ IsM ((outsAt0 V c n h).2 : S512x1.Idx → EReal) (rsumTo x n)
  | 0, h => by
    have hb := iblk0_is3 V c hx ⟨0, h⟩
    rw [outsAt0_A V c ⟨0, h⟩ rfl]
    dsimp only
    refine ⟨?_, ?_⟩
    · refine isM_of_eq (pieceA1 (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) ((hcond0_0 ⟨0, h⟩).mpr (Nat.zero_mod _)) (iblk0 V c 0 ⟨0, h⟩)) (pay4_isM hb pay1_isM) ?_
      intro i j
      unfold gramTo
      rw [Finset.sum_range_one, zero_add]
    · refine isM_of_eq (pieceA2 (F := Ideal) c (grid0.coords ⟨0, h⟩) (ms0_0 ⟨0, h⟩) (hs0_0 ⟨0, h⟩) (ms0_1 ⟨0, h⟩) (hs0_1 ⟨0, h⟩)
        (ms0_2 ⟨0, h⟩) (hs0_2 ⟨0, h⟩) ((hcond0_0 ⟨0, h⟩).mpr (Nat.zero_mod _)) (iblk0 V c 0 ⟨0, h⟩)) (pay5_isM hb pay2_isM) ?_
      intro i j
      unfold rsumTo
      rw [Finset.sum_range_one, zero_add]
  | n + 1, h => by
    have hN : cfg0.N = 64 := N_0
    have hB : ¬(⟨n + 1, h⟩ : Fin cfg0.N).val % 64 = 0 := by dsimp only; omega
    have ih := outs_inv c hx n (Nat.lt_of_succ_lt h)
    have hb := iblk0_is3 V c hx ⟨n + 1, h⟩
    rw [outsAt0_B V c ⟨n + 1, h⟩ hB]
    dsimp only
    refine ⟨?_, ?_⟩
    · refine isM_of_eq (pieceB1 (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (fun hh => hB ((hcond0_0 ⟨n + 1, h⟩).mp hh)) (iblk0 V c 0 ⟨n + 1, h⟩)
        (outsAt0 V c n (Nat.lt_of_succ_lt h)).1 (outsAt0 V c n (Nat.lt_of_succ_lt h)).2) (pay4_isM hb ih.1) ?_
      intro i j
      unfold gramTo
      rw [Finset.sum_range_succ _ (n + 1)]
    · refine isM_of_eq (pieceB2 (F := Ideal) c (grid0.coords ⟨n + 1, h⟩) (ms0_0 ⟨n + 1, h⟩) (hs0_0 ⟨n + 1, h⟩) (ms0_1 ⟨n + 1, h⟩)
        (hs0_1 ⟨n + 1, h⟩) (ms0_2 ⟨n + 1, h⟩) (hs0_2 ⟨n + 1, h⟩) (fun hh => hB ((hcond0_0 ⟨n + 1, h⟩).mp hh)) (iblk0 V c 0 ⟨n + 1, h⟩)
        (outsAt0 V c n (Nat.lt_of_succ_lt h)).1 (outsAt0 V c n (Nat.lt_of_succ_lt h)).2) (pay5_isM hb ih.2) ?_
      intro i j
      unfold rsumTo
      rw [Finset.sum_range_succ _ (n + 1)]

theorem gramTo_last (x : Fin 64 → Fin 512 → Fin 1024 → ℝ) (i j : Fin 512) : gramTo x 63 i j = gram x i j := by
  unfold gramTo gram
  rw [Finset.sum_range (fun s => ∑ p, xs x s i p * xs x s j p)]
  exact Finset.sum_congr rfl fun n _ => by rw [xs_fin]

theorem rsumTo_last (x : Fin 64 → Fin 512 → Fin 1024 → ℝ) (i : Fin 512) (z : Fin 1) : rsumTo x 63 i z = rsum x i z := by
  unfold rsumTo rsum
  rw [Finset.sum_range (fun s => ∑ p, xs x s i p)]
  exact Finset.sum_congr rfl fun n _ => by rw [xs_fin]

end Accumulation

section WriteBack

/-- The last grid point. -/
abbrev tL : Fin cfg0.N := ⟨63, by rw [show cfg0.N = 64 from N_0]; decide⟩

theorem xsize_facts1 : ∀ t : Fin cfg0.N, win0_1.xsize (grid0.coords t) 0 = 512 ∧ win0_1.xsize (grid0.coords t) 1 = 512 :=
  (by decide +kernel : ∀ t : Fin grid0.N, win0_1.xsize (grid0.coords t) 0 = 512 ∧ win0_1.xsize (grid0.coords t) 1 = 512)
theorem xsize_facts2 : ∀ t : Fin cfg0.N, win0_2.xsize (grid0.coords t) 0 = 512 ∧ win0_2.xsize (grid0.coords t) 1 = 1 :=
  (by decide +kernel : ∀ t : Fin grid0.N, win0_2.xsize (grid0.coords t) 0 = 512 ∧ win0_2.xsize (grid0.coords t) 1 = 1)

/-- The Gram output is written back once, after the last point, and its one block is the whole array: the array
    ends holding what the last point left in the buffer. -/
theorem final1 (c : Dev nD) (G : Vec Ideal S512x512 .f32) (hG : (outsAt0 V c tL.val tL.isLt).1 = G) :
    (dat0 V c).arrAt 1 cfg0.N = G := by
  have hN : cfg0.N = 64 := N_0
  refine (dat0 V c).arrAt_eq_of_cover 1 G (fun t hf => ?_) (fun i => ⟨tL, (flush0_1 tL).mpr rfl, ?_⟩)
  · have h3 : t.val = 63 := by have := (flush0_1 t).mp hf; have := t.isLt; omega
    obtain rfl : t = tL := Fin.ext h3
    show (cfg0.win 1).cut (grid0.coords tL) ((dat0 V c).after 1 tL) = _
    rw [after0_1, hG]
    have hz' : (fun a => win0_1.index tL a * main_v1_0.ty.shape.size a) = fun _ => 0 := funext fun a => by
      match a with
      | ⟨0, _⟩ => show win0_1.index tL 0 * 512 = 0; rw [(idx_facts1 tL).1]
      | ⟨1, _⟩ => show win0_1.index tL 1 * 512 = 0; rw [(idx_facts1 tL).2]
    exact (Memref.read_access_unit_zero (Elt Ideal) main_v1_0 hz' (fun a => by rw [congrFun hz' a]; simp) G).symm
  · show i ∈ ((View.whole main_v1_0).slice (win0_1.rect tL)).set
    rw [View.set_slice_whole, Rect.mem_set_unit]
    intro a
    have h0 : (i 0 : Nat) < 512 := (i 0).isLt
    have h1 : (i 1 : Nat) < 512 := (i 1).isLt
    match a with
    | ⟨0, _⟩ =>
      show win0_1.index tL 0 * win0_1.size 0 ≤ (i 0 : Nat) ∧ (i 0 : Nat) < win0_1.index tL 0 * win0_1.size 0 + win0_1.xsize (grid0.coords tL) 0
      rw [(idx_facts1 tL).1, (xsize_facts1 tL).1]; omega
    | ⟨1, _⟩ =>
      show win0_1.index tL 1 * win0_1.size 1 ≤ (i 1 : Nat) ∧ (i 1 : Nat) < win0_1.index tL 1 * win0_1.size 1 + win0_1.xsize (grid0.coords tL) 1
      rw [(idx_facts1 tL).2, (xsize_facts1 tL).2]; omega

/-- The same for the row-sum output. -/
theorem final2 (c : Dev nD) (G : Vec Ideal S512x1 .f32) (hG : (outsAt0 V c tL.val tL.isLt).2 = G) :
    (dat0 V c).arrAt 2 cfg0.N = G := by
  have hN : cfg0.N = 64 := N_0
  refine (dat0 V c).arrAt_eq_of_cover 2 G (fun t hf => ?_) (fun i => ⟨tL, (flush0_2 tL).mpr rfl, ?_⟩)
  · have h3 : t.val = 63 := by have := (flush0_2 t).mp hf; have := t.isLt; omega
    obtain rfl : t = tL := Fin.ext h3
    show (cfg0.win 2).cut (grid0.coords tL) ((dat0 V c).after 2 tL) = _
    rw [after0_2, hG]
    have hz' : (fun a => win0_2.index tL a * main_v1_1.ty.shape.size a) = fun _ => 0 := funext fun a => by
      match a with
      | ⟨0, _⟩ => show win0_2.index tL 0 * 512 = 0; rw [(idx_facts2 tL).1]
      | ⟨1, _⟩ => show win0_2.index tL 1 * 1 = 0; rw [(idx_facts2 tL).2]
    exact (Memref.read_access_unit_zero (Elt Ideal) main_v1_1 hz' (fun a => by rw [congrFun hz' a]; simp) G).symm
  · show i ∈ ((View.whole main_v1_1).slice (win0_2.rect tL)).set
    rw [View.set_slice_whole, Rect.mem_set_unit]
    intro a
    have h0 : (i 0 : Nat) < 512 := (i 0).isLt
    have h1 : (i 1 : Nat) < 1 := (i 1).isLt
    match a with
    | ⟨0, _⟩ =>
      show win0_2.index tL 0 * win0_2.size 0 ≤ (i 0 : Nat) ∧ (i 0 : Nat) < win0_2.index tL 0 * win0_2.size 0 + win0_2.xsize (grid0.coords tL) 0
      rw [(idx_facts2 tL).1, (xsize_facts2 tL).1]; omega
    | ⟨1, _⟩ =>
      show win0_2.index tL 1 * win0_2.size 1 ≤ (i 1 : Nat) ∧ (i 1 : Nat) < win0_2.index tL 1 * win0_2.size 1 + win0_2.xsize (grid0.coords tL) 1
      rw [(idx_facts2 tL).2, (xsize_facts2 tL).2]; omega

end WriteBack

/-- If the batch array holds the reals x when the region is entered, the two output arrays hold the Gram matrix and
    the row sums of x when it is left. -/
theorem reg0_value (c : Dev nD) (x : Fin 64 → Fin 512 → Fin 1024 → ℝ)
    (hx : Is3 (V c main_v0 : S64x512x1024.Idx → EReal) x) :
    IsM ((dat0 V c).arrAt 1 cfg0.N : S512x512.Idx → EReal) (gram x)
    ∧ IsM ((dat0 V c).arrAt 2 cfg0.N : S512x1.Idx → EReal) (rsum x) := by
  have h := outs_inv V c hx tL.val tL.isLt
  exact ⟨isM_of_eq (final1 V c _ rfl) h.1 (gramTo_last x), isM_of_eq (final2 V c _ rfl) h.2 (rsumTo_last x)⟩

end Cert.KernelIdeal.Val

end
-- ==== Proof.KReg1.lean ====
/-
  Region 1: the whitening matrix from the Gram matrix and the row sums, in one gridless kernel.

  The kernel's body is read payload by payload over the reals: the means s 2^-16, the identity as a converted mask,
  Sigma = A 2^-16 - mean mean^T + eps I, its trace as a row of ones times the masked row sums, Sigma over the trace,
  five Newton-Schulz steps from the identity, and the scaling by the square root of the reciprocal trace.  The one
  grid point's blocks are the whole arrays, so the arrays after the region are the body's results.
-/
import proofs.«129160_j16527034155453_1_alg».proof.Proof.Gen.KernelIdeal.Frame
import proofs.«129160_j16527034155453_1_alg».proof.Proof.Lift

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Cert.NS Cert.Lift

variable (V : (c : Dev nD) → (b : Ref sig .tc) → Buf (Elt Ideal) ((c : Thread nD τ).loc b))

namespace Reg1

/-! ## The body's payloads over the reals -/

theorem isM_of_eq {M N : ℕ} {v : (⟨2, ![M, N]⟩ : Shape).Idx → EReal} {A B : Mat M N} (h : IsM v A) (e : A = B) : IsM v B := e ▸ h

/-- The row means: the row sums times 2^-16. -/
theorem pay3_isM (x1 : Vec Ideal S512x1 .f32) (s : Mat 512 1) (hs : IsM (x1 : S512x1.Idx → EReal) s) :
    IsM (k1_pay3 x1 : S512x1.Idx → EReal) (meanK s) := by
  unfold k1_pay3 meanK
  rw [shapeCast_self]
  exact IsM.mulf hs (IsM.splat ((scalar_ofBits _).trans lit_inv65536))

private theorem bit_toInt : ∀ b : BitVec 1, (b.setWidth 32).toInt = (b.toNat : ℤ) := by decide

/-- The mask "row index = column index", converted, is the identity matrix. -/
theorem pay4_isM : IsM (k1_pay4 (F := Ideal) : S512x512.Idx → EReal) (idm 512) := by
  intro i j
  unfold k1_pay4
  show ((((IntOp.cmpi .eq (iota .tc S512x512 32 [0] iota_S512x512_d0_w32 (ix2 i j)) (iota .tc S512x512 32 [1] iota_S512x512_d1_w32 (ix2 i j))).setWidth 32).toInt : ℝ) : EReal) = _
  rw [iota_single_apply, iota_single_apply, bit_toInt]
  show ((((BitVec.ofBool (BitVec.ofNat 32 i.val == BitVec.ofNat 32 j.val)).toNat : ℤ) : ℝ) : EReal) = ((idm 512 i j : ℝ) : EReal)
  unfold idm
  have hi := i.isLt
  have hj := j.isLt
  by_cases h : i = j
  · subst h
    rw [if_pos rfl, beq_self_eq_true]
    simp
  · rw [if_neg h]
    have hne : (BitVec.ofNat 32 i.val == BitVec.ofNat 32 j.val) = false := by
      rw [beq_eq_false_iff_ne]
      intro e
      have := congrArg BitVec.toNat e
      rw [BitVec.toNat_ofNat, BitVec.toNat_ofNat, Nat.mod_eq_of_lt (by omega), Nat.mod_eq_of_lt (by omega)] at this
      exact h (Fin.ext this)
    rw [hne]
    simp

/-- A matrix transposed holds the transposed reals. -/
theorem isM_transposed {a b : ℕ} {u : FVec Ideal ⟨2, ![a, b]⟩ .f32} {A : Mat a b}
    (h : (⟨2, ![a, b]⟩ : Shape).Transposes [1, 0] ⟨2, ![b, a]⟩) (hu : IsM u A) :
    IsM (transpose ⟨2, ![b, a]⟩ [1, 0] u h) (fun j i => A i j) := fun j i =>
  (transpose_ix2_apply u h j i).trans (hu i j)

/-- A one-by-one matrix broadcast to any size holds its one entry everywhere. -/
theorem isM_bcast11 {M N : ℕ} {u : FVec Ideal ⟨2, ![1, 1]⟩ .f32} {a : Mat 1 1}
    (h : (⟨2, ![1, 1]⟩ : Shape).Broadcasts ⟨2, ![M, N]⟩) (hu : IsM u a) :
    IsM (broadcastTo ⟨2, ![M, N]⟩ u h) (fun _ _ => a 0 0) := fun i j =>
  (broadcastTo_apply u h (ix2 i j) (ix2 (0 : Fin 1) (0 : Fin 1)) (fun c => match c with
    | ⟨0, _⟩ => by show (0 : Nat) = if (1 : Nat) = 1 then 0 else i.val; rw [if_pos rfl]
    | ⟨1, _⟩ => by show (0 : Nat) = if (1 : Nat) = 1 then 0 else j.val; rw [if_pos rfl])).trans (hu 0 0)

/-- Sigma = A 2^-16 - mean mean^T + eps I. -/
theorem pay5_isM (x0 : Vec Ideal S512x512 .f32) (x1 : Vec Ideal S512x1 .f32) (A : Mat 512 512) (s : Mat 512 1)
    (hA : IsM (x0 : S512x512.Idx → EReal) A) (hs : IsM (x1 : S512x1.Idx → EReal) s) :
    IsM (k1_pay5 x0 x1 : S512x512.Idx → EReal) (sigK A s) := by
  have h3 := pay3_isM x1 s hs
  unfold k1_pay5 sigK
  rw [shapeCast_self]
  exact IsM.addf (IsM.subf (IsM.mulf hA (IsM.splat ((scalar_ofBits _).trans lit_inv65536)))
      (IsM.matmul_plain _ h3 (isM_transposed _ h3)))
    (IsM.mulf (IsM.splat ((scalar_ofBits _).trans lit_eps)) pay4_isM)

/-- The diagonal of Sigma as a column: the row sums of Sigma masked by the identity. -/
theorem diag_isM (x0 : Vec Ideal S512x512 .f32) (x1 : Vec Ideal S512x1 .f32) (A : Mat 512 512) (s : Mat 512 1)
    (hA : IsM (x0 : S512x512.Idx → EReal) A) (hs : IsM (x1 : S512x1.Idx → EReal) s) :
    IsM (shapeCast S512x1 (multiReduction .add [1] S512 (mulf (k1_pay5 x0 x1) (k1_pay4 (F := Ideal))) 0x00000000#32
      reduces_S512x512_S512 (.inl rfl) rfl) shapeCasts_S512_S512x1 : S512x1.Idx → EReal) (diagK A s) := by
  have h19 := IsM.mulf (pay5_isM x0 x1 A s hA hs) pay4_isM
  intro i z
  refine (shapeCast_apply _ shapeCasts_S512_S512x1 (ix2 i z) (ix1 i) ?_).trans ?_
  · rw [Shape.rowMajor_val_one, Shape.rowMajor_val_two]
    show i.val = i.val * 1 + z.val
    have := z.isLt
    omega
  refine (Ideal.multiReduction_add_single _ 0x00000000#32 reduces_S512x512_S512 (.inl rfl) rfl (ix1 i)).trans ?_
  have hl : ∀ k : Fin 512, reduces_S512x512_S512.lift (ix1 i) k = ix2 i k := fun k =>
    funext fun c => Fin.ext (match c with | ⟨0, _⟩ => rfl | ⟨1, _⟩ => rfl)
  refine (Finset.sum_congr rfl fun k _ => (congrArg _ (hl k)).trans (h19 i k)).trans ?_
  exact coe_sum Finset.univ fun k => sigK A s i k * idm 512 i k

/-- The reciprocal of the trace, as a one-by-one matrix. -/
theorem pay6_isM (x0 : Vec Ideal S512x512 .f32) (x1 : Vec Ideal S512x1 .f32) (A : Mat 512 512) (s : Mat 512 1)
    (hA : IsM (x0 : S512x512.Idx → EReal) A) (hs : IsM (x1 : S512x1.Idx → EReal) s) (htr : 0 < trK A s) :
    IsM (k1_pay6 x0 x1 : S1x1.Idx → EReal) (fun _ _ => 1 / trK A s) := by
  have hd := diag_isM x0 x1 A s hA hs
  have h22 : IsM (broadcast S1x512 (Scalar.ofBits (F := Ideal) .f32 0x3F800000#32) : S1x512.Idx → EReal) (fun _ _ => (1 : ℝ)) :=
    IsM.splat ((scalar_ofBits _).trans lit_one)
  have h24 : IsM (broadcast S1x1 (Scalar.ofBits (F := Ideal) .f32 0x3F800000#32) : S1x1.Idx → EReal) (fun _ _ => (1 : ℝ)) :=
    IsM.splat ((scalar_ofBits _).trans lit_one)
  have h23 := IsM.matmul_plain (φ₁ := .f32) (φ₂ := .f32) (some .fp32) h22 hd
  have hne : ∀ i j : Fin 1, mm (fun (_ : Fin 1) (_ : Fin 512) => (1 : ℝ)) (diagK A s) i j ≠ 0 := by
    intro i j
    rw [Fin.fin_one_eq_zero i, Fin.fin_one_eq_zero j]
    exact ne_of_gt htr
  have h25 := isM_of_eq (B := fun _ _ => 1 / trK A s) (IsM.divf h24 h23 hne)
    (funext fun i => funext fun j => by rw [Fin.fin_one_eq_zero i, Fin.fin_one_eq_zero j]; rfl)
  unfold k1_pay6
  exact h25

/-- Sigma over its trace. -/
theorem pay7_isM (x0 : Vec Ideal S512x512 .f32) (x1 : Vec Ideal S512x1 .f32) (A : Mat 512 512) (s : Mat 512 1)
    (hA : IsM (x0 : S512x512.Idx → EReal) A) (hs : IsM (x1 : S512x1.Idx → EReal) s) (htr : 0 < trK A s) :
    IsM (k1_pay7 x0 x1 : S512x512.Idx → EReal) (snK A s) := by
  have h5 := pay5_isM x0 x1 A s hA hs
  have h6 := pay6_isM x0 x1 A s hA hs htr
  unfold k1_pay7 snK
  exact IsM.mulf h5 (isM_bcast11 broadcasts_S1x1_S512x512 h6)

/-- ((P P) P) S as the kernel forms it: three products into zero accumulators. -/
abbrev cubeV (P S : FVec Ideal S512x512 .f32) : FVec Ideal S512x512 .f32 :=
  matmul dot_S512x512_S512x512_S512x512_1_0_0_1_n_n (some .fp32)
    (matmul dot_S512x512_S512x512_S512x512_1_0_0_1_n_n (some .fp32)
      (matmul dot_S512x512_S512x512_S512x512_1_0_0_1_n_n (some .fp32) P P (constant S512x512 .f32 0x00000000#32))
      P (constant S512x512 .f32 0x00000000#32))
    S (constant S512x512 .f32 0x00000000#32)

/-- c P - 0.5 Q as the kernel forms it. -/
abbrev stepV (c : Ideal .f32) (P Q : FVec Ideal S512x512 .f32) : FVec Ideal S512x512 .f32 :=
  subf (mulf (broadcast S512x512 c) P) (mulf (broadcast S512x512 (Scalar.ofBits (F := Ideal) .f32 0x3F000000#32)) Q)

theorem cubeV_isM {P S : FVec Ideal S512x512 .f32} {p sg : Mat 512 512}
    (hP : IsM (P : S512x512.Idx → EReal) p) (hS : IsM (S : S512x512.Idx → EReal) sg) :
    IsM (cubeV P S : S512x512.Idx → EReal) (mm (mm (mm p p) p) sg) :=
  IsM.matmul_plain (φ₁ := .f32) (φ₂ := .f32) _ (IsM.matmul_plain (φ₁ := .f32) (φ₂ := .f32) _ (IsM.matmul_plain (φ₁ := .f32) (φ₂ := .f32) _ hP hP) hP) hS

/-- One Newton-Schulz step, the cube given. -/
theorem stepV_isM {c : Ideal .f32} {P Q : FVec Ideal S512x512 .f32} {p sg : Mat 512 512}
    (hc : c = (((1.5 : ℝ) : ℝ) : EReal)) (hP : IsM (P : S512x512.Idx → EReal) p)
    (hQ : IsM (Q : S512x512.Idx → EReal) (mm (mm (mm p p) p) sg)) :
    IsM (stepV c P Q : S512x512.Idx → EReal) (stepK sg p) :=
  IsM.subf (IsM.mulf (IsM.splat hc) hP) (IsM.mulf (IsM.splat ((scalar_ofBits _).trans lit_half)) hQ)

/-- The first step, from the identity. -/
theorem pay8_isM (x0 : Vec Ideal S512x512 .f32) (x1 : Vec Ideal S512x1 .f32) (A : Mat 512 512) (s : Mat 512 1)
    (hA : IsM (x0 : S512x512.Idx → EReal) A) (hs : IsM (x1 : S512x1.Idx → EReal) s) (htr : 0 < trK A s) :
    IsM (k1_pay8 x0 x1 : S512x512.Idx → EReal) (stepK (snK A s) (idm 512)) := by
  have h7 := pay7_isM x0 x1 A s hA hs htr
  have h := stepV_isM ((scalar_ofBits _).trans lit_1p5) pay4_isM (cubeV_isM pay4_isM h7)
  unfold k1_pay8
  exact h

/-- The cube of the first iterate, times Sigma over its trace. -/
theorem pay9_isM (x0 : Vec Ideal S512x512 .f32) (x1 : Vec Ideal S512x1 .f32) (A : Mat 512 512) (s : Mat 512 1)
    (hA : IsM (x0 : S512x512.Idx → EReal) A) (hs : IsM (x1 : S512x1.Idx → EReal) s) (htr : 0 < trK A s) :
    IsM (k1_pay9 x0 x1 : S512x512.Idx → EReal)
      (mm (mm (mm (stepK (snK A s) (idm 512)) (stepK (snK A s) (idm 512))) (stepK (snK A s) (idm 512))) (snK A s)) := by
  have h7 := pay7_isM x0 x1 A s hA hs htr
  have h8 := pay8_isM x0 x1 A s hA hs htr
  have h := cubeV_isM h8 h7
  unfold k1_pay9
  exact h

/-- Four more steps, then the scaling by the square root. -/
theorem pay1_isM (v25 : FVec Ideal S1x1 .f32) (v27 v35 v38 : FVec Ideal S512x512 .f32) (c18 : Ideal .f32)
    (r : ℝ) (sg p : Mat 512 512) (hr : 0 ≤ r) (h25 : IsM (v25 : S1x1.Idx → EReal) (fun _ _ => r))
    (h27 : IsM (v27 : S512x512.Idx → EReal) sg) (h35 : IsM (v35 : S512x512.Idx → EReal) p)
    (h38 : IsM (v38 : S512x512.Idx → EReal) (mm (mm (mm p p) p) sg)) (hc : c18 = (((1.5 : ℝ) : ℝ) : EReal)) :
    IsM (k1_pay1 v25 v27 v35 v38 c18 : S512x512.Idx → EReal)
      (fun i j => stepK sg (stepK sg (stepK sg (stepK sg p))) i j * Real.sqrt r) := by
  have h43 := stepV_isM hc h35 h38
  have h51 := stepV_isM ((scalar_ofBits _).trans lit_1p5) h43 (cubeV_isM h43 h27)
  have h59 := stepV_isM ((scalar_ofBits _).trans lit_1p5) h51 (cubeV_isM h51 h27)
  have h67 := stepV_isM ((scalar_ofBits _).trans lit_1p5) h59 (cubeV_isM h59 h27)
  have h69 := isM_bcast11 broadcasts_S1x1_S512x512 (IsM.sqrt h25 (fun _ _ => hr))
  have h := IsM.mulf h67 h69
  unfold k1_pay1
  exact h

/-- The whitening matrix times the means. -/
theorem pay2_isM (v5 : FVec Ideal S512x1 .f32) (v25 : FVec Ideal S1x1 .f32) (v27 v35 v38 : FVec Ideal S512x512 .f32) (c18 : Ideal .f32)
    (W : Mat 512 512) (mn : Mat 512 1) (h5 : IsM (v5 : S512x1.Idx → EReal) mn)
    (h1 : IsM (k1_pay1 v25 v27 v35 v38 c18 : S512x512.Idx → EReal) W) :
    IsM (k1_pay2 v5 v25 v27 v35 v38 c18 : S512x1.Idx → EReal) (mm W mn) := by
  have h := IsM.matmul_plain (φ₁ := .f32) (φ₂ := .f32) (some .fp32) h1 h5
  unfold k1_pay2
  exact h

/-! ## From the one point's blocks to the arrays -/

theorem offsets_zero : (![0, 0] : Fin 2 → Nat) = fun _ => 0 := funext fun a => by fin_cases a <;> rfl

/-- Input window 0's block at the one point is the whole array: each coordinate is read at block index zero. -/
theorem blk_read0 (c : Dev nD) (t : Fin cfg1.N) : iblk1 V c 0 t = (V c main_v1_0 : S512x512.Idx → EReal) := by
  funext y
  show (V c main_v1_0) (((cfg1.win 0).blk t).view.emb y) = V c main_v1_0 y
  refine congrArg _ ?_
  funext a; apply Fin.ext
  exact Pipeline.Window.rect_emb_val_of_index_zero win1_0 t a rfl y

/-- The same for input window 1. -/
theorem blk_read1 (c : Dev nD) (t : Fin cfg1.N) : iblk1 V c 1 t = (V c main_v1_1 : S512x1.Idx → EReal) := by
  funext y
  show (V c main_v1_1) (((cfg1.win 1).blk t).view.emb y) = V c main_v1_1 y
  refine congrArg _ ?_
  funext a; apply Fin.ext
  exact Pipeline.Window.rect_emb_val_of_index_zero win1_1 t a rfl y

/-- What the one point writes back through output window 2 is what the body left, read through the window's block
    (the block is the whole array at offset zero). -/
theorem flushed2_of (c : Dev nD) (t : Fin cfg1.N) (G : Vec Ideal S512x512 .f32) (h : (dat1 V c).after 2 t = G) :
    (dat1 V c).flushed 2 t = ((cfg1.win 2).blk t).view.read (Elt Ideal) G := by
  show (cfg1.win 2).cut (grid1.coords t) ((dat1 V c).after 2 t) = _
  rw [h]
  funext y
  show G y = G (((cfg1.win 2).blk t).view.emb y)
  refine congrArg G ?_
  funext a; apply Fin.ext
  exact (Pipeline.Window.rect_emb_val_of_index_zero win1_2 t a rfl y).symm

/-- The same for output window 3. -/
theorem flushed3_of (c : Dev nD) (t : Fin cfg1.N) (G : Vec Ideal S512x1 .f32) (h : (dat1 V c).after 3 t = G) :
    (dat1 V c).flushed 3 t = ((cfg1.win 3).blk t).view.read (Elt Ideal) G := by
  show (cfg1.win 3).cut (grid1.coords t) ((dat1 V c).after 3 t) = _
  rw [h]
  funext y
  show G y = G (((cfg1.win 3).blk t).view.emb y)
  refine congrArg G ?_
  funext a; apply Fin.ext
  exact (Pipeline.Window.rect_emb_val_of_index_zero win1_3 t a rfl y).symm

/-- The body's result for output window 2, of the whole input arrays. -/
theorem after2_eq (c : Dev nD) (t : Fin cfg1.N) : (dat1 V c).after 2 t = out1_2 (V c main_v1_0) (V c main_v1_1) := by
  rw [after1_2, blk_read0, blk_read1]

/-- The body's result for output window 3, of the whole input arrays. -/
theorem after3_eq (c : Dev nD) (t : Fin cfg1.N) : (dat1 V c).after 3 t = out1_3 (V c main_v1_0) (V c main_v1_1) := by
  rw [after1_3, blk_read0, blk_read1]

/-- The one point's block of output window 2 is the whole array. -/
theorem cover2 (i : S512x512.Idx) :
    ∃ t : Fin cfg1.N, (cfg1.win 2).flush t = true ∧ i ∈ ((cfg1.win 2).blk t).view.set := by
  refine ⟨t1_0, flush1_2 _, ?_⟩
  show i ∈ ((View.whole main_v2_0).slice (win1_2.rect t1_0)).set
  rw [View.set_slice_whole, Rect.mem_set_unit]
  have e : ∀ a, win1_2.index t1_0 a * win1_2.size a = 0 ∧ win1_2.xsize (grid1.coords t1_0) a = S512x512.size a := by
    decide +kernel
  intro a
  rw [(e a).1, (e a).2, Nat.zero_add]
  exact ⟨Nat.zero_le _, (i a).isLt⟩

/-- The one point's block of output window 3 is the whole array. -/
theorem cover3 (i : S512x1.Idx) :
    ∃ t : Fin cfg1.N, (cfg1.win 3).flush t = true ∧ i ∈ ((cfg1.win 3).blk t).view.set := by
  refine ⟨t1_0, flush1_3 _, ?_⟩
  show i ∈ ((View.whole main_v2_1).slice (win1_3.rect t1_0)).set
  rw [View.set_slice_whole, Rect.mem_set_unit]
  have e : ∀ a, win1_3.index t1_0 a * win1_3.size a = 0 ∧ win1_3.xsize (grid1.coords t1_0) a = S512x1.size a := by
    decide +kernel
  intro a
  rw [(e a).1, (e a).2, Nat.zero_add]
  exact ⟨Nat.zero_le _, (i a).isLt⟩

/-- The first output array after the region: the body's result of the whole input arrays. -/
theorem arr2 (c : Dev nD) : (dat1 V c).arrAt 2 cfg1.N = out1_2 (V c main_v1_0) (V c main_v1_1) :=
  (dat1 V c).arrAt_eq_of_cover 2 (out1_2 (V c main_v1_0) (V c main_v1_1)) (fun t _ => flushed2_of V c t _ (after2_eq V c t)) cover2

/-- The second output array after the region. -/
theorem arr3 (c : Dev nD) : (dat1 V c).arrAt 3 cfg1.N = out1_3 (V c main_v1_0) (V c main_v1_1) :=
  (dat1 V c).arrAt_eq_of_cover 3 (out1_3 (V c main_v1_0) (V c main_v1_1)) (fun t _ => flushed3_of V c t _ (after3_eq V c t)) cover3

/-- The one store of the whole buffer leaves its payload; the loads of the whole buffers read their contents. -/
theorem out2_eq (x0 : Vec Ideal S512x512 .f32) (x1 : Vec Ideal S512x1 .f32) :
    out1_2 x0 x1 = k1_pay1 (k1_pay6 x0 x1) (k1_pay7 x0 x1) (k1_pay8 x0 x1) (k1_pay9 x0 x1) (Scalar.ofBits .f32 0x3FC00000#32) := by
  unfold out1_2
  rw [View.canon_unit_zero offsets_zero]
  simp only [View.ld_unit_zero (S := S512x512) offsets_zero, View.ld_unit_zero (S := S512x1) offsets_zero]

theorem out3_eq (x0 : Vec Ideal S512x512 .f32) (x1 : Vec Ideal S512x1 .f32) :
    out1_3 x0 x1 = k1_pay2 (k1_pay3 x1) (k1_pay6 x0 x1) (k1_pay7 x0 x1) (k1_pay8 x0 x1) (k1_pay9 x0 x1) (Scalar.ofBits .f32 0x3FC00000#32) := by
  unfold out1_3
  rw [View.canon_unit_zero offsets_zero]
  simp only [View.ld_unit_zero (S := S512x512) offsets_zero, View.ld_unit_zero (S := S512x1) offsets_zero]

end Reg1

open Reg1

/-- If the two input arrays hold the reals A and s when the region is entered, and the trace formed from them is
    positive, the two output arrays hold the whitening matrix and its product with the means when it is left. -/
theorem reg1_value (c : Dev nD) (A : Mat 512 512) (s : Mat 512 1)
    (hA : IsM (V c main_v1_0 : S512x512.Idx → EReal) A) (hs : IsM (V c main_v1_1 : S512x1.Idx → EReal) s)
    (htr : 0 < trK A s) :
    IsM ((dat1 V c).arrAt 2 cfg1.N : S512x512.Idx → EReal) (wmK A s)
    ∧ IsM ((dat1 V c).arrAt 3 cfg1.N : S512x1.Idx → EReal) (wmmK A s) := by
  have h3 := pay3_isM (V c main_v1_1) s hs
  have h6 := pay6_isM (V c main_v1_0) (V c main_v1_1) A s hA hs htr
  have h7 := pay7_isM (V c main_v1_0) (V c main_v1_1) A s hA hs htr
  have h8 := pay8_isM (V c main_v1_0) (V c main_v1_1) A s hA hs htr
  have h9 := pay9_isM (V c main_v1_0) (V c main_v1_1) A s hA hs htr
  have hr : 0 ≤ 1 / trK A s := le_of_lt (one_div_pos.mpr htr)
  have h1 := isM_of_eq (B := wmK A s) (pay1_isM _ _ _ _ _ (1 / trK A s) (snK A s) (stepK (snK A s) (idm 512)) hr h6 h7 h8 h9
    ((scalar_ofBits _).trans lit_1p5)) (by unfold wmK; rfl)
  have h2 := pay2_isM _ _ _ _ _ _ _ _ h3 h1
  have e2 := (arr2 V c).trans (out2_eq (V c main_v1_0) (V c main_v1_1))
  have e3 := (arr3 V c).trans (out3_eq (V c main_v1_0) (V c main_v1_1))
  constructor
  · rw [e2]; exact h1
  · rw [e3]; exact h2

end Cert.KernelIdeal.Val

end
-- ==== Proof.KReg2.lean ====
/-
  Region 2: the projection, one batch per grid point: block n of the result is W x_n minus the column u.

  The body's arithmetic on one batch, over the reals: the 1 x 512 x 1024 block is read as a 512 x 1024 matrix X, the
  weights W are multiplied onto it, and the column u is subtracted along every column.  The grid's point n reads
  batch n of the input and the whole of W and u, and writes batch n of the result; the 64 blocks cover the result
  array, so the array ends holding, batch by batch, W x_n - u.
-/
import proofs.«129160_j16527034155453_1_alg».proof.Proof.Gen.KernelIdeal.Frame
import proofs.«129160_j16527034155453_1_alg».proof.Proof.Lift

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Cert.NS Cert.Lift

/-! ## The body's arithmetic over the reals -/

/-- A 1 x M x N vector recast to M x N reads the same rows and columns. -/
private theorem dropLead_isM {M N : ℕ} {x0 : (⟨3, ![1, M, N]⟩ : Shape).Idx → EReal} {X : Mat M N}
    (hx : ∀ k p, x0 (ix3 (0 : Fin 1) k p) = ((X k p : ℝ) : EReal))
    (h : (⟨3, ![1, M, N]⟩ : Shape).ShapeCasts ⟨2, ![M, N]⟩) :
    IsM (shapeCast ⟨2, ![M, N]⟩ x0 h) X := by
  intro k p
  refine (shapeCast_apply x0 h (ix2 k p) (ix3 (0 : Fin 1) k p) ?_).trans (hx k p)
  rw [Shape.rowMajor_val_two, Shape.rowMajor_val_three]
  show (0 * M + k.val) * N + p.val = k.val * N + p.val
  rw [Nat.zero_mul, Nat.zero_add]

/-- An M x N vector recast to 1 x M x N reads the same rows and columns. -/
private theorem addLead_apply {M N : ℕ} (v : (⟨2, ![M, N]⟩ : Shape).Idx → EReal)
    (h : (⟨2, ![M, N]⟩ : Shape).ShapeCasts ⟨3, ![1, M, N]⟩) (k : Fin M) (p : Fin N) :
    shapeCast ⟨3, ![1, M, N]⟩ v h (ix3 (0 : Fin 1) k p) = v (ix2 k p) := by
  refine shapeCast_apply v h (ix3 (0 : Fin 1) k p) (ix2 k p) ?_
  rw [Shape.rowMajor_val_two, Shape.rowMajor_val_three]
  show k.val * N + p.val = (0 * M + k.val) * N + p.val
  rw [Nat.zero_mul, Nat.zero_add]

/-- An M x 1 column broadcast along N columns reads its row's entry. -/
private theorem bcastCol_isM {M N : ℕ} {v : (⟨2, ![M, 1]⟩ : Shape).Idx → EReal} {u : Mat M 1} (hv : IsM v u)
    (h : (⟨2, ![M, 1]⟩ : Shape).Broadcasts ⟨2, ![M, N]⟩) :
    IsM (broadcastTo ⟨2, ![M, N]⟩ v h) (fun k _ => u k 0) := by
  intro k p
  refine (broadcastTo_apply v h (ix2 k p) (ix2 k (0 : Fin 1)) (fun a => ?_)).trans (hv k 0)
  match a with
  | ⟨0, _⟩ =>
      show k.val = if M = 1 then 0 else k.val
      by_cases hM : M = 1
      · rw [if_pos hM]; have := k.isLt; omega
      · rw [if_neg hM]
  | ⟨1, _⟩ => show (0 : ℕ) = if (1 : ℕ) = 1 then 0 else p.val; rw [if_pos rfl]

/-- The body's arithmetic over the reals: a block holding the M x N matrix X (behind a unit axis), the weights W and the
    column u give W X minus u along every column. -/
private theorem pay_holds (x0 : Vec Ideal S1x512x1024 .f32) (x1 : Vec Ideal S512x512 .f32) (x2 : Vec Ideal S512x1 .f32)
    (X : Mat 512 1024) (W : Mat 512 512) (u : Mat 512 1)
    (hx : ∀ k p, (x0 : S1x512x1024.Idx → EReal) (ix3 (0 : Fin 1) k p) = ((X k p : ℝ) : EReal))
    (hW : IsM (x1 : S512x512.Idx → EReal) W) (hu : IsM (x2 : S512x1.Idx → EReal) u) (k : Fin 512) (p : Fin 1024) :
    (k2_pay1 x0 x1 x2 : S1x512x1024.Idx → EReal) (ix3 (0 : Fin 1) k p)
      = (((∑ j, W k j * X j p) - u k 0 : ℝ) : EReal) := by
  have h1 : IsM (shapeCast S512x1024 x0 shapeCasts_S1x512x1024_S512x1024) X := dropLead_isM hx _
  have h3 : IsM (shapeCast S512x512 x1 shapeCasts_S512x512_S512x512) W := by rw [shapeCast_self]; exact hW
  have h4 := IsM.truncf h3
  have h5 := IsM.truncf h1
  have h6 := IsM.matmul_plain none h4 h5
  have h8 : IsM (shapeCast S512x1 x2 shapeCasts_S512x1_S512x1) u := by rw [shapeCast_self]; exact hu
  have h9 := bcastCol_isM (N := 1024) h8 broadcasts_S512x1_S512x1024
  have h10 := IsM.subf h6 h9
  unfold k2_pay1
  exact (addLead_apply _ shapeCasts_S512x1024_S1x512x1024 k p).trans (h10 k p)

/-! ## From the blocks to the array -/

variable (V : (c : Dev nD) → (b : Ref sig .tc) → Buf (Elt Ideal) ((c : Thread nD τ).loc b))

private theorem hz3 : (![0, 0, 0] : Fin 3 → Nat) = fun _ => 0 := funext fun a => by fin_cases a <;> rfl
private theorem hz2 : (![0, 0] : Fin 2 → Nat) = fun _ => 0 := funext fun a => by fin_cases a <;> rfl

/-- Batch n of the input array as a 1 x 512 x 1024 block. -/
private def blkOf (c : Dev nD) (n : Fin 64) : Vec Ideal S1x512x1024 .f32 :=
  fun y => (V c main_v0 : S64x512x1024.Idx → EReal) (ix3 n (y 1 : Fin 512) (y 2 : Fin 1024))

/-- The whole result array: at (n, k, p) the body's arithmetic on batch n, read at (0, k, p). -/
private def G (c : Dev nD) : S64x512x1024.Idx → EReal :=
  fun i => (k2_pay1 (blkOf V c (i 0 : Fin 64)) (V c main_v2_0) (V c main_v2_1) : S1x512x1024.Idx → EReal)
    (ix3 (0 : Fin 1) (i 1 : Fin 512) (i 2 : Fin 1024))

/-- The block index maps over the grid: windows 0 and 3 move along the batch axis with the point, windows 1 and 2 stay. -/
private theorem idx_facts : ∀ t : Fin cfg2.N,
    win2_0.index t (0 : Fin 3) = t.val ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) = t.val ∧ win2_3.index t (1 : Fin 3) = 0 ∧ win2_3.index t (2 : Fin 3) = 0 :=
  (by decide +kernel : ∀ t : Fin grid2.N, _)

/-- The body's arithmetic on batch n with the whole weight arrays, at a block index, is G at the array index with the
    same row and column in batch n. -/
private theorem G_blk (c : Dev nD) (n : Fin 64) (x0 : Vec Ideal S1x512x1024 .f32) (x1 : Vec Ideal S512x512 .f32)
    (x2 : Vec Ideal S512x1 .f32) (h0 : x0 = blkOf V c n) (h1 : x1 = V c main_v2_0) (h2 : x2 = V c main_v2_1)
    (j : S1x512x1024.Idx) (i : S64x512x1024.Idx)
    (hi0 : (i 0).val = n.val) (hi1 : (i 1).val = (j 1).val) (hi2 : (i 2).val = (j 2).val) :
    (k2_pay1 x0 x1 x2 : S1x512x1024.Idx → EReal) j = G V c i := by
  subst h0 h1 h2
  have e0 : (i 0 : Fin 64) = n := Fin.ext hi0
  have ej : j = ix3 (0 : Fin 1) (i 1 : Fin 512) (i 2 : Fin 1024) := by
    funext a
    match a with
    | ⟨0, _⟩ => exact Fin.ext (by have hj : (j 0).val < 1 := (j 0).isLt; show (j 0).val = 0; omega)
    | ⟨1, _⟩ => exact Fin.ext hi1.symm
    | ⟨2, _⟩ => exact Fin.ext hi2.symm
  unfold G
  rw [e0]
  exact congrArg (k2_pay1 (blkOf V c n) (V c main_v2_0) (V c main_v2_1) : S1x512x1024.Idx → EReal) ej

/-- What point t writes back is block t of G. -/
private theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz3]
  simp only [View.ld_unit_zero (S := S1x512x1024) hz3, View.ld_unit_zero (S := S512x512) hz2,
    View.ld_unit_zero (S := S512x1) hz2]
  obtain ⟨a0, a1, a2, b0, b1, d0, d1, o0, o1, o2⟩ := idx_facts t
  have ht : t.val < 64 := lt_of_lt_of_eq t.isLt N_2
  funext j
  show (k2_pay1 (iblk2 V c 0 t) (iblk2 V c 1 t) (iblk2 V c 2 t) : S1x512x1024.Idx → EReal) j
    = G V c (((cfg2.win 3).blk t).view.emb j)
  refine G_blk V c ⟨t.val, ht⟩ (iblk2 V c 0 t) (iblk2 V c 1 t) (iblk2 V c 2 t) ?_ ?_ ?_ j
    (((cfg2.win 3).blk t).view.emb j) ?_ ?_ ?_
  · funext y
    show V c main_v0 (((cfg2.win 0).blk t).view.emb y) = V c main_v0 (ix3 (⟨t.val, ht⟩ : Fin 64) (y 1 : Fin 512) (y 2 : Fin 1024))
    refine congrArg (V c main_v0) (funext fun a => Fin.ext ?_)
    match a with
    | ⟨0, _⟩ =>
        show win2_0.index t (0 : Fin 3) * 1 + 1 * (y 0).val = t.val
        have hy : (y 0).val < 1 := (y 0).isLt
        omega
    | ⟨1, _⟩ => show win2_0.index t (1 : Fin 3) * 512 + 1 * (y 1).val = (y 1).val; omega
    | ⟨2, _⟩ => show win2_0.index t (2 : Fin 3) * 1024 + 1 * (y 2).val = (y 2).val; omega
  · funext y
    show V c main_v2_0 (((cfg2.win 1).blk t).view.emb y) = V c main_v2_0 y
    refine congrArg (V c main_v2_0) (funext fun a => Fin.ext ?_)
    match a with
    | ⟨0, _⟩ => show win2_1.index t (0 : Fin 2) * 512 + 1 * (y 0).val = (y 0).val; omega
    | ⟨1, _⟩ => show win2_1.index t (1 : Fin 2) * 512 + 1 * (y 1).val = (y 1).val; omega
  · funext y
    show V c main_v2_1 (((cfg2.win 2).blk t).view.emb y) = V c main_v2_1 y
    refine congrArg (V c main_v2_1) (funext fun a => Fin.ext ?_)
    match a with
    | ⟨0, _⟩ => show win2_2.index t (0 : Fin 2) * 512 + 1 * (y 0).val = (y 0).val; omega
    | ⟨1, _⟩ => show win2_2.index t (1 : Fin 2) * 1 + 1 * (y 1).val = (y 1).val; omega
  · show win2_3.index t (0 : Fin 3) * 1 + 1 * (j 0).val = t.val
    have hj : (j 0).val < 1 := (j 0).isLt
    omega
  · show win2_3.index t (1 : Fin 3) * 512 + 1 * (j 1).val = (j 1).val; omega
  · show win2_3.index t (2 : Fin 3) * 1024 + 1 * (j 2).val = (j 2).val; omega

/-- An index of the result array is in point t's block iff each coordinate is in the block's range on its axis. -/
private theorem mem_blk (t : Fin cfg2.N) (i : S64x512x1024.Idx) :
    i ∈ ((cfg2.win 3).blk t).view.set ↔
      ∀ a : Fin 3, win2_3.index t a * S1x512x1024.size a ≤ (i a).val
        ∧ (i a).val < win2_3.index t a * S1x512x1024.size a + S1x512x1024.size a := by
  show i ∈ ((View.whole main_v3).slice (win2_3.rect t)).set ↔ _
  rw [View.set_slice_whole, Rect.mem_set_unit]
  exact Iff.rfl

/-- Batch n of the result array is point n's block: the blocks cover the array. -/
private theorem cover (i : S64x512x1024.Idx) :
    ∃ t : Fin cfg2.N, (cfg2.win 3).flush t = true ∧ i ∈ ((cfg2.win 3).blk t).view.set := by
  have hi0 : (i 0).val < 64 := (i 0).isLt
  have hi1 : (i 1).val < 512 := (i 1).isLt
  have hi2 : (i 2).val < 1024 := (i 2).isLt
  have hN : (i 0).val < cfg2.N := lt_of_lt_of_eq hi0 N_2.symm
  obtain ⟨a0, a1, a2, b0, b1, d0, d1, o0, o1, o2⟩ := idx_facts ⟨(i 0).val, hN⟩
  have o0' : win2_3.index ⟨(i 0).val, hN⟩ (0 : Fin 3) = (i 0).val := o0
  refine ⟨⟨(i 0).val, hN⟩, flush2_3 _, ?_⟩
  rw [mem_blk]
  intro a
  match a with
  | ⟨0, _⟩ =>
      show win2_3.index ⟨(i 0).val, hN⟩ (0 : Fin 3) * 1 ≤ (i 0).val
        ∧ (i 0).val < win2_3.index ⟨(i 0).val, hN⟩ (0 : Fin 3) * 1 + 1
      omega
  | ⟨1, _⟩ =>
      show win2_3.index ⟨(i 0).val, hN⟩ (1 : Fin 3) * 512 ≤ (i 1).val
        ∧ (i 1).val < win2_3.index ⟨(i 0).val, hN⟩ (1 : Fin 3) * 512 + 512
      omega
  | ⟨2, _⟩ =>
      show win2_3.index ⟨(i 0).val, hN⟩ (2 : Fin 3) * 1024 ≤ (i 2).val
        ∧ (i 2).val < win2_3.index ⟨(i 0).val, hN⟩ (2 : Fin 3) * 1024 + 1024
      omega

/-- So the result array ends holding G. -/
private theorem arr_eq (c : Dev nD) : (dat2 V c).arrAt 3 cfg2.N = G V c :=
  (dat2 V c).arrAt_eq_of_cover 3 (G V c) (fun t _ => flushed_eq V c t) cover

/-- If the three input arrays hold the reals x, W and u when the region is entered, the result array holds
    W x_n - u, batch by batch, when it is left. -/
theorem reg2_value (c : Dev nD) (x : Fin 64 → Fin 512 → Fin 1024 → ℝ) (W : Mat 512 512) (u : Mat 512 1)
    (hx : Is3 (V c main_v0 : S64x512x1024.Idx → EReal) x)
    (hW : IsM (V c main_v2_0 : S512x512.Idx → EReal) W) (hu : IsM (V c main_v2_1 : S512x1.Idx → EReal) u) :
    Is3 ((dat2 V c).arrAt 3 cfg2.N : S64x512x1024.Idx → EReal) (fun n k p => (∑ j, W k j * x n j p) - u k 0) := by
  intro n k p
  refine (congrFun (arr_eq V c) (ix3 n k p)).trans ?_
  show (k2_pay1 (blkOf V c n) (V c main_v2_0) (V c main_v2_1) : S1x512x1024.Idx → EReal) (ix3 (0 : Fin 1) k p) = _
  exact pay_holds (blkOf V c n) (V c main_v2_0) (V c main_v2_1) (fun k p => x n k p) W u
    (fun k p => hx n k p) hW hu k p

end Cert.KernelIdeal.Val

end
-- ==== Proof.KAsm.lean ====
/-
  The kernel's result array as a function of its argument: the three regions chained through the host reshapes.
-/
import proofs.«129160_j16527034155453_1_alg».proof.Proof.Gen.KernelIdeal.Frame
import proofs.«129160_j16527034155453_1_alg».proof.Proof.Lift
import proofs.«129160_j16527034155453_1_alg».proof.Proof.KReg0
import proofs.«129160_j16527034155453_1_alg».proof.Proof.KReg1
import proofs.«129160_j16527034155453_1_alg».proof.Proof.KReg2

set_option maxRecDepth 16384

noncomputable section

namespace Cert.KernelIdeal.Val

open Cert.KernelIdeal Cert.KernelIdeal.Gen
open Idealize.ShloMosaic Idealize.ShloMosaic.TcCoe Idealize.ShloMosaic.ValueIdx Idealize.SL.Sem
open Cert.NS Cert.Lift

variable (m : (ℓ : Loc nD τ sig) → Buf (Elt Ideal) ℓ) (ρ : Dev nD → PrngReg)

/-! ## The two host reshapes -/

/-- The batch array at the first region's entry is the argument recast. -/
private theorem entry_v0 (c : Dev nD) :
    (V1 m ρ c main_v0 : S64x512x1024.Idx → EReal)
      = shapeCast S64x512x1024 (m ((c.tc : Thread nD τ).loc main_arg0) : S64x512x32x32.Idx → EReal)
          shapeCasts_S64x512x32x32_S64x512x1024 := by
  dsimp only [V1, W1, hostOps0]; after_results; rfl

/-- The result array at the last boundary is the last region's output recast. -/
private theorem exit_v4 (c : Dev nD) :
    (W5 m ρ c (Proc.devRef .tc main_v4) : S64x512x32x32.Idx → EReal)
      = shapeCast S64x512x32x32 (W4 m ρ c (Proc.devRef .tc main_v3) : S64x512x1024.Idx → EReal)
          shapeCasts_S64x512x1024_S64x512x32x32 := by
  dsimp only [W5, hostOps3]; after_results; rfl

/-- Recasting 64 x 512 x 32 x 32 to 64 x 512 x 1024: position p of the image is row p / 32, column p % 32. -/
private theorem is3_cast (v : S64x512x32x32.Idx → EReal) (h : S64x512x32x32.ShapeCasts S64x512x1024)
    (x4 : Fin 64 → Fin 512 → Fin 32 → Fin 32 → ℝ) (hv : Is4 v x4) :
    Is3 (shapeCast S64x512x1024 v h) (xOf x4) := by
  intro n k p
  have hp := p.isLt
  refine (shapeCast_apply v h (ix3 n k p)
    (ix4 n k (⟨p.val / 32, by omega⟩ : Fin 32) (⟨p.val % 32, Nat.mod_lt _ (by norm_num)⟩ : Fin 32)) ?_).trans ?_
  · rw [Shape.rowMajor_val_four, Shape.rowMajor_val_three]
    show ((n.val * 512 + k.val) * 32 + p.val / 32) * 32 + p.val % 32 = (n.val * 512 + k.val) * 1024 + p.val
    omega
  · exact hv n k _ _

/-- Recasting 64 x 512 x 1024 back to 64 x 512 x 32 x 32: row h, column w of the image is position 32 h + w. -/
private theorem is4_cast (v : S64x512x1024.Idx → EReal) (h : S64x512x1024.ShapeCasts S64x512x32x32)
    (f : Fin 64 → Fin 512 → Fin 1024 → ℝ) (hv : Is3 v f) :
    Is4 (shapeCast S64x512x32x32 v h)
      (fun n k a b => f n k ⟨32 * a.val + b.val, by have := a.isLt; have := b.isLt; omega⟩) := by
  intro n k a b
  have ha := a.isLt
  have hb := b.isLt
  refine (shapeCast_apply v h (ix4 n k a b)
    (ix3 n k (⟨32 * a.val + b.val, by omega⟩ : Fin 1024)) ?_).trans ?_
  · rw [Shape.rowMajor_val_four, Shape.rowMajor_val_three]
    show (n.val * 512 + k.val) * 1024 + (32 * a.val + b.val) = ((n.val * 512 + k.val) * 32 + a.val) * 32 + b.val
    omega
  · exact hv n k _

/-! ## The regions' boundary contents -/

/-- The first region leaves its input array as it found it. -/
private theorem V2_v0 (c : Dev nD) : V2 m ρ c main_v0 = V1 m ρ c main_v0 := by
  have e : V2 m ρ c main_v0 = (dat0 (V1 m ρ) c).arrAt 0 cfg0.N := W2_arr m ρ c 0
  rw [e, (dat0 (V1 m ρ) c).arrAt_in 0 rfl cfg0.N]
  exact A_eq0 (V1 m ρ) c 0

/-- The second region does not touch the batch array. -/
private theorem V3_v0 (c : Dev nD) : V3 m ρ c main_v0 = V1 m ρ c main_v0 :=
  (W3_of_ne m ρ c main_v0 (by decide)).trans (V2_v0 m ρ c)

/-! ## The chain -/

/-- If the argument holds the reals x4 and the trace formed from them is positive, the result array at the last
    boundary holds the kernel's real result. -/
theorem kernel_value (c : Dev nD) (x4 : Fin 64 → Fin 512 → Fin 32 → Fin 32 → ℝ)
    (hx : Is4 (m ((c.tc : Thread nD τ).loc main_arg0) : S64x512x32x32.Idx → EReal) x4)
    (htr : 0 < trK (gram (xOf x4)) (rsum (xOf x4))) :
    Is4 (W5 m ρ c (Proc.devRef .tc main_v4) : S64x512x32x32.Idx → EReal)
      (fun n k h w => outK (xOf x4) n k ⟨32 * h.val + w.val, by have := h.isLt; have := w.isLt; omega⟩) := by
  -- the first region: the Gram matrix and the row sums of the recast argument
  have hx0 : Is3 (V1 m ρ c main_v0 : S64x512x1024.Idx → EReal) (xOf x4) := by
    rw [entry_v0]; exact is3_cast _ _ x4 hx
  obtain ⟨hA0, hs0⟩ := reg0_value (V1 m ρ) c (xOf x4) hx0
  -- the second region: the whitening matrix and its product with the means
  have hA : IsM (V2 m ρ c main_v1_0 : S512x512.Idx → EReal) (gram (xOf x4)) := by
    have e : V2 m ρ c main_v1_0 = (dat0 (V1 m ρ) c).arrAt 1 cfg0.N := W2_arr m ρ c 1
    rw [e]; exact hA0
  have hs : IsM (V2 m ρ c main_v1_1 : S512x1.Idx → EReal) (rsum (xOf x4)) := by
    have e : V2 m ρ c main_v1_1 = (dat0 (V1 m ρ) c).arrAt 2 cfg0.N := W2_arr m ρ c 2
    rw [e]; exact hs0
  obtain ⟨hW1, hu1⟩ := reg1_value (V2 m ρ) c _ _ hA hs htr
  -- the third region: the whitening matrix applied batch by batch
  have hx2 : Is3 (V3 m ρ c main_v0 : S64x512x1024.Idx → EReal) (xOf x4) := by
    rw [V3_v0]; exact hx0
  have hW : IsM (V3 m ρ c main_v2_0 : S512x512.Idx → EReal) (wmK (gram (xOf x4)) (rsum (xOf x4))) := by
    have e : V3 m ρ c main_v2_0 = (dat1 (V2 m ρ) c).arrAt 2 cfg1.N := W3_arr m ρ c 2
    rw [e]; exact hW1
  have hu : IsM (V3 m ρ c main_v2_1 : S512x1.Idx → EReal) (wmmK (gram (xOf x4)) (rsum (xOf x4))) := by
    have e : V3 m ρ c main_v2_1 = (dat1 (V2 m ρ) c).arrAt 3 cfg1.N := W3_arr m ρ c 3
    rw [e]; exact hu1
  have h2 := reg2_value (V3 m ρ) c (xOf x4) _ _ hx2 hW hu
  -- the result array, recast
  have h3 : Is3 (W4 m ρ c (Proc.devRef .tc main_v3) : S64x512x1024.Idx → EReal) (outK (xOf x4)) := by
    have e : W4 m ρ c (Proc.devRef .tc main_v3) = (dat2 (V3 m ρ) c).arrAt 3 cfg2.N := W4_arr m ρ c 3
    rw [e]; exact h2
  rw [exit_v4]; exact is4_cast _ _ _ h3

end Cert.KernelIdeal.Val

end
-- ==== Proof.RefTerm.lean ====
/-
  The reference's result as a pure term of its argument, stage by stage.

  Each definition is the value one named tensor of the reference holds, as the host operations compute it from the
  tensors before it: the channels-by-samples matrix, the channel means, the centred samples, the identity mask, Sigma,
  its trace, the normalised Sigma, one Newton-Schulz step, the whitening matrix, and the whitened samples laid back
  out as batch x channel x height x width.
-/
import proofs.«129160_j16527034155453_1_alg».proof.ReferenceIdeal

noncomputable section

namespace Cert.ReferenceIdeal.RefT

open Idealize.ShloMosaic Idealize.SL.Sem Cert.ReferenceIdeal
open Cert.ReferenceIdeal.Facts₀ Cert.ReferenceIdeal.Facts

variable {F : FTy → Type} [FloatOps F] [Facts]

/-- The argument as channels x samples (the value of %1). -/
def xr (x : FVec F S64x512x32x32 .f32) : FVec F S512x65536 .f32 :=
  shapeCast S512x65536 (transpose S512x64x32x32 [1, 0, 2, 3] x transposes_S64x512x32x32_S512x64x32x32_1_0_2_3) shapeCasts_S512x64x32x32_S512x65536

/-- The channel means, a column (the value of %5). -/
def mean (x : FVec F S64x512x32x32 .f32) : FVec F S512x1 .f32 :=
  Host.divf (broadcastInDim S512x1 ![0] bcast_S512_S512x1_0 (Host.reduceAdd (xr x) (constant S_ .f32 0x00000000#32) reducesTo_S512x65536_S512_d1 h_S_))
    (broadcastInDim S512x1 ![] bcast_S_S512x1 (constant S_ .f32 0x47800000#32))

/-- The centred samples (the value of %7). -/
def xc (x : FVec F S64x512x32x32 .f32) : FVec F S512x65536 .f32 :=
  subf (xr x) (broadcastInDim S512x65536 ![0, 1] bcast_S512x1_S512x65536_0_1 (mean x))

/-- The diagonal mask as booleans (the value of %12, and of @trace's %4). -/
def eyeB : IVec S512x512 1 :=
  cmpi .eq (addi (iotaInDim S512x512 32 0) (broadcastInDim S512x512 ![] bcast_S_S512x512 (constantI S_ 32 0#32))) (iotaInDim S512x512 32 1)

/-- The identity matrix (the value of %13). -/
def eye : FVec F S512x512 .f32 := uitofp (F := F) .f32 eyeB

/-- Sigma (the value of %20). -/
def sig (x : FVec F S64x512x32x32 .f32) : FVec F S512x512 .f32 :=
  addf (mulf (broadcastInDim S512x512 ![] bcast_S_S512x512 (constant S_ .f32 0x3727C5AC#32)) (eye (F := F)))
    (Host.divf (Host.dotGeneral dot_S512x65536_S65536x512_S512x512_1_0_0_1_n_n none (xc x) (transpose S65536x512 [1, 0] (xc x) transposes_S512x65536_S65536x512_1_0))
      (broadcastInDim S512x512 ![] bcast_S_S512x512 (constant S_ .f32 0x47800000#32)))

/-- The trace of a matrix as the reference takes it: entries off the diagonal replaced by zero, everything summed
    (the value of %21 from %20). -/
def tr (s : FVec F S512x512 .f32) : FVec F S_ .f32 :=
  Host.reduceAdd (select eyeB s (broadcastInDim S512x512 ![] bcast_S_S512x512 (constant S_ .f32 0x00000000#32)))
    (constant S_ .f32 0x00000000#32) reducesTo_S512x512_S_d0_1 h_S_

/-- One over the trace (the value of %22). -/
def rtr (x : FVec F S64x512x32x32 .f32) : FVec F S_ .f32 :=
  Host.divf (constant S_ .f32 0x3F800000#32) (tr (sig x))

/-- Sigma over its trace (the value of %24). -/
def sn (x : FVec F S64x512x32x32 .f32) : FVec F S512x512 .f32 :=
  mulf (sig x) (broadcastInDim S512x512 ![] bcast_S_S512x512 (rtr x))

/-- One Newton-Schulz step: 1.5 P - (0.5 ((P P) P)) S (the value of %32 from %13 and %24, of %40 from %32, ...). -/
def step (S P : FVec F S512x512 .f32) : FVec F S512x512 .f32 :=
  subf (mulf (broadcastInDim S512x512 ![] bcast_S_S512x512 (constant S_ .f32 0x3FC00000#32)) P)
    (Host.dotGeneral dot_S512x512_S512x512_S512x512_1_0_0_1_n_n none
      (mulf (broadcastInDim S512x512 ![] bcast_S_S512x512 (constant S_ .f32 0x3F000000#32))
        (Host.dotGeneral dot_S512x512_S512x512_S512x512_1_0_0_1_n_n none
          (Host.dotGeneral dot_S512x512_S512x512_S512x512_1_0_0_1_n_n none P P) P))
      S)

/-- The iterate after five steps from the identity (the value of %64). -/
def p5 (x : FVec F S64x512x32x32 .f32) : FVec F S512x512 .f32 :=
  step (sn x) (step (sn x) (step (sn x) (step (sn x) (step (sn x) (eye (F := F))))))

/-- The whitening matrix (the value of %67). -/
def wm (x : FVec F S64x512x32x32 .f32) : FVec F S512x512 .f32 :=
  mulf (p5 x) (broadcastInDim S512x512 ![] bcast_S_S512x512 (Host.sqrt (rtr x)))

/-- The whitened samples (the value of %68). -/
def out2 (x : FVec F S64x512x32x32 .f32) : FVec F S512x65536 .f32 :=
  Host.dotGeneral dot_S512x512_S512x65536_S512x65536_1_0_0_1_n_n none (wm x) (xc x)

/-- The result (the value of %70). -/
def out (x : FVec F S64x512x32x32 .f32) : FVec F S64x512x32x32 .f32 :=
  transpose S64x512x32x32 [1, 0, 2, 3] (shapeCast S512x64x32x32 (out2 x) shapeCasts_S512x65536_S512x64x32x32) transposes_S512x64x32x32_S64x512x32x32_1_0_2_3

end Cert.ReferenceIdeal.RefT

end
-- ==== Proof.RRun.lean ====
/-
  The reference's run read back: @main is a list of host operations (the outlined trace and where inlined at their
  call sites), every weakly fair execution of it terminates, and the result buffer then holds the staged term
  RefT.out of the argument, the argument unchanged.

  The line is read in ten stretches. Each stretch is stated from arbitrary contents: the buffer of the stage it ends
  in holds that stage's term of what the stretch reads, and every buffer a later stretch reads is kept. The whole
  line is then the stretches in turn, with the contents between two of them left unopened, so no term larger than
  one stage is ever formed.
-/
import proofs.«129160_j16527034155453_1_alg».proof.Proof.RefTerm
import proofs.«129160_j16527034155453_1_alg».proof.Proof.Gen.ReferenceIdeal
import Idealize.ShloMosaic.Lib.StableHlo.Run

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The first window's operations, in order: the outlined trace's (and in it where's) stand where the call stands, over the call's buffers. -/
private abbrev ops0 : List (HloOp τ sig (Elt F)) :=
  [ unary main_arg0 main_v0 ((transpose S512x64x32x32 [1, 0, 2, 3] · transposes_S64x512x32x32_S512x64x32x32_1_0_2_3) : (⟨S64x512x32x32, .f32⟩ : BufTy).Contents (Elt F) → (⟨S512x64x32x32, .f32⟩ : BufTy).Contents (Elt F)),
    reshape main_v0 main_v1 rfl shapeCasts_S512x64x32x32_S512x65536,
    nullary main_cst (constant S_ .f32 0x00000000#32),
    binary main_v1 main_cst main_v2 ((fun x v => Host.reduceAdd x v reducesTo_S512x65536_S512_d1 h_S_) : (⟨S512x65536, .f32⟩ : BufTy).Contents (Elt F) → (⟨S_, .f32⟩ : BufTy).Contents (Elt F) → (⟨S512, .f32⟩ : BufTy).Contents (Elt F)),
    unary main_v2 main_v3 (broadcastInDim S512x1 ![0] bcast_S512_S512x1_0 : (⟨S512, .f32⟩ : BufTy).Contents (Elt F) → (⟨S512x1, .f32⟩ : BufTy).Contents (Elt F)),
    nullary main_cst_0 (constant S_ .f32 0x47800000#32),
    unary main_cst_0 main_v4 (broadcastInDim S512x1 ![] bcast_S_S512x1 : (⟨S_, .f32⟩ : BufTy).Contents (Elt F) → (⟨S512x1, .f32⟩ : BufTy).Contents (Elt F)),
    binary main_v3 main_v4 main_v5 (Host.divf : (⟨S512x1, .f32⟩ : BufTy).Contents (Elt F) → (⟨S512x1, .f32⟩ : BufTy).Contents (Elt F) → (⟨S512x1, .f32⟩ : BufTy).Contents (Elt F)),
    unary main_v5 main_v6 (broadcastInDim S512x65536 ![0, 1] bcast_S512x1_S512x65536_0_1 : (⟨S512x1, .f32⟩ : BufTy).Contents (Elt F) → (⟨S512x65536, .f32⟩ : BufTy).Contents (Elt F)),
    binary main_v1 main_v6 main_v7 (subf : (⟨S512x65536, .f32⟩ : BufTy).Contents (Elt F) → (⟨S512x65536, .f32⟩ : BufTy).Contents (Elt F) → (⟨S512x65536, .f32⟩ : BufTy).Contents (Elt F)),
    nullary main_v8 (iotaInDim S512x512 32 0),
    nullary main_v9 (iotaInDim S512x512 32 1),
    nullary main_c (constantI S_ 32 0#32),
    unary main_c main_v10 (broadcastInDim S512x512 ![] bcast_S_S512x512 : (⟨S_, .i32⟩ : BufTy).Contents (Elt F) → (⟨S512x512, .i32⟩ : BufTy).Contents (Elt F)),
    binary main_v8 main_v10 main_v11 (addi : (⟨S512x512, .i32⟩ : BufTy).Contents (Elt F) → (⟨S512x512, .i32⟩ : BufTy).Contents (Elt F) → (⟨S512x512, .i32⟩ : BufTy).Contents (Elt F)),
    binary main_v11 main_v9 main_v12 (cmpi .eq : (⟨S512x512, .i32⟩ : BufTy).Contents (Elt F) → (⟨S512x512, .i32⟩ : BufTy).Contents (Elt F) → (⟨S512x512, .i1⟩ : BufTy).Contents (Elt F)),
    unary main_v12 main_v13 (uitofp .f32 : (⟨S512x512, .i1⟩ : BufTy).Contents (Elt F) → (⟨S512x512, .f32⟩ : BufTy).Contents (Elt F)),
    nullary main_cst_1 (constant S_ .f32 0x3727C5AC#32),
    unary main_cst_1 main_v14 (broadcastInDim S512x512 ![] bcast_S_S512x512 : (⟨S_, .f32⟩ : BufTy).Contents (Elt F) → (⟨S512x512, .f32⟩ : BufTy).Contents (Elt F)),
    binary main_v14 main_v13 main_v15 (mulf : (⟨S512x512, .f32⟩ : BufTy).Contents (Elt F) → (⟨S512x512, .f32⟩ : BufTy).Contents (Elt F) → (⟨S512x512, .f32⟩ : BufTy).Contents (Elt F)),
    unary main_v7 main_v16 ((transpose S65536x512 [1, 0] · transposes_S512x65536_S65536x512_1_0) : (⟨S512x65536, .f32⟩ : BufTy).Contents (Elt F) → (⟨S65536x512, .f32⟩ : BufTy).Contents (Elt F)),
    binary main_v7 main_v16 main_v17 ((fun l r => Host.dotGeneral dot_S512x65536_S65536x512_S512x512_1_0_0_1_n_n none l r) : (⟨S512x65536, .f32⟩ : BufTy).Contents (Elt F) → (⟨S65536x512, .f32⟩ : BufTy).Contents (Elt F) → (⟨S512x512, .f32⟩ : BufTy).Contents (Elt F)),
    nullary main_cst_2 (constant S_ .f32 0x47800000#32),
    unary main_cst_2 main_v18 (broadcastInDim S512x512 ![] bcast_S_S512x512 : (⟨S_, .f32⟩ : BufTy).Contents (Elt F) → (⟨S512x512, .f32⟩ : BufTy).Contents (Elt F)),
    binary main_v17 main_v18 main_v19 (Host.divf : (⟨S512x512, .f32⟩ : BufTy).Contents (Elt F) → (⟨S512x512, .f32⟩ : BufTy).Contents (Elt F) → (⟨S512x512, .f32⟩ : BufTy).Contents (Elt F)),
    binary main_v15 main_v19 main_v20 (addf : (⟨S512x512, .f32⟩ : BufTy).Contents (Elt F) → (⟨S512x512, .f32⟩ : BufTy).Contents (Elt F) → (⟨S512x512, .f32⟩ : BufTy).Contents (Elt F)),
    TRef.nullary main_call0.v0 (iotaInDim S512x512 32 0),
    TRef.nullary main_call0.v1 (iotaInDim S512x512 32 1),
    TRef.nullary main_call0.c (constantI S_ 32 0#32),
    TRef.unary main_call0.c main_call0.v2 (broadcastInDim S512x512 ![] bcast_S_S512x512),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S512x512 ![] bcast_S_S512x512),
    TRef.ternary main_call0.v4 (.of main_v20) main_call0.v5 main_call0.call0.v0 select,
    TRef.nullary main_call0.cst_0 (constant S_ .f32 0x00000000#32),
    TRef.binary main_call0.call0.v0 main_call0.cst_0 main_call0.v7 (fun x v => Host.reduceAdd x v reducesTo_S512x512_S_d0_1 h_S_),
    nullary main_cst_3 (constant S_ .f32 0x3F800000#32),
    binary main_cst_3 main_v21 main_v22 (Host.divf : (⟨S_, .f32⟩ : BufTy).Contents (Elt F) → (⟨S_, .f32⟩ : BufTy).Contents (Elt F) → (⟨S_, .f32⟩ : BufTy).Contents (Elt F)),
    unary main_v22 main_v23 (broadcastInDim S512x512 ![] bcast_S_S512x512 : (⟨S_, .f32⟩ : BufTy).Contents (Elt F) → (⟨S512x512, .f32⟩ : BufTy).Contents (Elt F)),
    binary main_v20 main_v23 main_v24 (mulf : (⟨S512x512, .f32⟩ : BufTy).Contents (Elt F) → (⟨S512x512, .f32⟩ : BufTy).Contents (Elt F) → (⟨S512x512, .f32⟩ : BufTy).Contents (Elt F)),
    nullary main_cst_4 (constant S_ .f32 0x3FC00000#32),
    unary main_cst_4 main_v25 (broadcastInDim S512x512 ![] bcast_S_S512x512 : (⟨S_, .f32⟩ : BufTy).Contents (Elt F) → (⟨S512x512, .f32⟩ : BufTy).Contents (Elt F)),
    binary main_v25 main_v13 main_v26 (mulf : (⟨S512x512, .f32⟩ : BufTy).Contents (Elt F) → (⟨S512x512, .f32⟩ : BufTy).Contents (Elt F) → (⟨S512x512, .f32⟩ : BufTy).Contents (Elt F)),
    binary main_v13 main_v13 main_v27 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v27 main_v13 main_v28 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    nullary main_cst_5 (constant S_ .f32 0x3F000000#32),
    unary main_cst_5 main_v29 (broadcastInDim S512x512 ![] bcast_S_S512x512 : (⟨S_, .f32⟩ : BufTy).Contents (Elt F) → (⟨S512x512, .f32⟩ : BufTy).Contents (Elt F)),
    binary main_v29 main_v28 main_v30 (mulf : (⟨S512x512, .f32⟩ : BufTy).Contents (Elt F) → (⟨S512x512, .f32⟩ : BufTy).Contents (Elt F) → (⟨S512x512, .f32⟩ : BufTy).Contents (Elt F)),
    binary main_v30 main_v24 main_v31 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v26 main_v31 main_v32 (subf : (⟨S512x512, .f32⟩ : BufTy).Contents (Elt F) → (⟨S512x512, .f32⟩ : BufTy).Contents (Elt F) → (⟨S512x512, .f32⟩ : BufTy).Contents (Elt F)),
    nullary main_cst_6 (constant S_ .f32 0x3FC00000#32),
    unary main_cst_6 main_v33 (broadcastInDim S512x512 ![] bcast_S_S512x512 : (⟨S_, .f32⟩ : BufTy).Contents (Elt F) → (⟨S512x512, .f32⟩ : BufTy).Contents (Elt F)),
    binary main_v33 main_v32 main_v34 (mulf : (⟨S512x512, .f32⟩ : BufTy).Contents (Elt F) → (⟨S512x512, .f32⟩ : BufTy).Contents (Elt F) → (⟨S512x512, .f32⟩ : BufTy).Contents (Elt F)),
    binary main_v32 main_v32 main_v35 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v35 main_v32 main_v36 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    nullary main_cst_7 (constant S_ .f32 0x3F000000#32),
    unary main_cst_7 main_v37 (broadcastInDim S512x512 ![] bcast_S_S512x512 : (⟨S_, .f32⟩ : BufTy).Contents (Elt F) → (⟨S512x512, .f32⟩ : BufTy).Contents (Elt F)),
    binary main_v37 main_v36 main_v38 (mulf : (⟨S512x512, .f32⟩ : BufTy).Contents (Elt F) → (⟨S512x512, .f32⟩ : BufTy).Contents (Elt F) → (⟨S512x512, .f32⟩ : BufTy).Contents (Elt F)),
    binary main_v38 main_v24 main_v39 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v34 main_v39 main_v40 (subf : (⟨S512x512, .f32⟩ : BufTy).Contents (Elt F) → (⟨S512x512, .f32⟩ : BufTy).Contents (Elt F) → (⟨S512x512, .f32⟩ : BufTy).Contents (Elt F)),
    nullary main_cst_8 (constant S_ .f32 0x3FC00000#32),
    unary main_cst_8 main_v41 (broadcastInDim S512x512 ![] bcast_S_S512x512 : (⟨S_, .f32⟩ : BufTy).Contents (Elt F) → (⟨S512x512, .f32⟩ : BufTy).Contents (Elt F)),
    binary main_v41 main_v40 main_v42 (mulf : (⟨S512x512, .f32⟩ : BufTy).Contents (Elt F) → (⟨S512x512, .f32⟩ : BufTy).Contents (Elt F) → (⟨S512x512, .f32⟩ : BufTy).Contents (Elt F)),
    binary main_v40 main_v40 main_v43 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v43 main_v40 main_v44 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    nullary main_cst_9 (constant S_ .f32 0x3F000000#32),
    unary main_cst_9 main_v45 (broadcastInDim S512x512 ![] bcast_S_S512x512 : (⟨S_, .f32⟩ : BufTy).Contents (Elt F) → (⟨S512x512, .f32⟩ : BufTy).Contents (Elt F)),
    binary main_v45 main_v44 main_v46 (mulf : (⟨S512x512, .f32⟩ : BufTy).Contents (Elt F) → (⟨S512x512, .f32⟩ : BufTy).Contents (Elt F) → (⟨S512x512, .f32⟩ : BufTy).Contents (Elt F)),
    binary main_v46 main_v24 main_v47 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)) ]

/-- The second window's operations, in order. -/
private abbrev ops1 : List (HloOp τ sig (Elt F)) :=
  [ binary main_v42 main_v47 main_v48 (subf : (⟨S512x512, .f32⟩ : BufTy).Contents (Elt F) → (⟨S512x512, .f32⟩ : BufTy).Contents (Elt F) → (⟨S512x512, .f32⟩ : BufTy).Contents (Elt F)),
    nullary main_cst_10 (constant S_ .f32 0x3FC00000#32),
    unary main_cst_10 main_v49 (broadcastInDim S512x512 ![] bcast_S_S512x512 : (⟨S_, .f32⟩ : BufTy).Contents (Elt F) → (⟨S512x512, .f32⟩ : BufTy).Contents (Elt F)),
    binary main_v49 main_v48 main_v50 (mulf : (⟨S512x512, .f32⟩ : BufTy).Contents (Elt F) → (⟨S512x512, .f32⟩ : BufTy).Contents (Elt F) → (⟨S512x512, .f32⟩ : BufTy).Contents (Elt F)),
    binary main_v48 main_v48 main_v51 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v51 main_v48 main_v52 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    nullary main_cst_11 (constant S_ .f32 0x3F000000#32),
    unary main_cst_11 main_v53 (broadcastInDim S512x512 ![] bcast_S_S512x512 : (⟨S_, .f32⟩ : BufTy).Contents (Elt F) → (⟨S512x512, .f32⟩ : BufTy).Contents (Elt F)),
    binary main_v53 main_v52 main_v54 (mulf : (⟨S512x512, .f32⟩ : BufTy).Contents (Elt F) → (⟨S512x512, .f32⟩ : BufTy).Contents (Elt F) → (⟨S512x512, .f32⟩ : BufTy).Contents (Elt F)),
    binary main_v54 main_v24 main_v55 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v50 main_v55 main_v56 (subf : (⟨S512x512, .f32⟩ : BufTy).Contents (Elt F) → (⟨S512x512, .f32⟩ : BufTy).Contents (Elt F) → (⟨S512x512, .f32⟩ : BufTy).Contents (Elt F)),
    nullary main_cst_12 (constant S_ .f32 0x3FC00000#32),
    unary main_cst_12 main_v57 (broadcastInDim S512x512 ![] bcast_S_S512x512 : (⟨S_, .f32⟩ : BufTy).Contents (Elt F) → (⟨S512x512, .f32⟩ : BufTy).Contents (Elt F)),
    binary main_v57 main_v56 main_v58 (mulf : (⟨S512x512, .f32⟩ : BufTy).Contents (Elt F) → (⟨S512x512, .f32⟩ : BufTy).Contents (Elt F) → (⟨S512x512, .f32⟩ : BufTy).Contents (Elt F)),
    binary main_v56 main_v56 main_v59 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v59 main_v56 main_v60 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    nullary main_cst_13 (constant S_ .f32 0x3F000000#32),
    unary main_cst_13 main_v61 (broadcastInDim S512x512 ![] bcast_S_S512x512 : (⟨S_, .f32⟩ : BufTy).Contents (Elt F) → (⟨S512x512, .f32⟩ : BufTy).Contents (Elt F)),
    binary main_v61 main_v60 main_v62 (mulf : (⟨S512x512, .f32⟩ : BufTy).Contents (Elt F) → (⟨S512x512, .f32⟩ : BufTy).Contents (Elt F) → (⟨S512x512, .f32⟩ : BufTy).Contents (Elt F)),
    binary main_v62 main_v24 main_v63 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v58 main_v63 main_v64 (subf : (⟨S512x512, .f32⟩ : BufTy).Contents (Elt F) → (⟨S512x512, .f32⟩ : BufTy).Contents (Elt F) → (⟨S512x512, .f32⟩ : BufTy).Contents (Elt F)),
    unary main_v22 main_v65 (Host.sqrt : (⟨S_, .f32⟩ : BufTy).Contents (Elt F) → (⟨S_, .f32⟩ : BufTy).Contents (Elt F)),
    unary main_v65 main_v66 (broadcastInDim S512x512 ![] bcast_S_S512x512 : (⟨S_, .f32⟩ : BufTy).Contents (Elt F) → (⟨S512x512, .f32⟩ : BufTy).Contents (Elt F)),
    binary main_v64 main_v66 main_v67 (mulf : (⟨S512x512, .f32⟩ : BufTy).Contents (Elt F) → (⟨S512x512, .f32⟩ : BufTy).Contents (Elt F) → (⟨S512x512, .f32⟩ : BufTy).Contents (Elt F)),
    binary main_v67 main_v7 main_v68 ((fun l r => Host.dotGeneral dot_S512x512_S512x65536_S512x65536_1_0_0_1_n_n none l r) : (⟨S512x512, .f32⟩ : BufTy).Contents (Elt F) → (⟨S512x65536, .f32⟩ : BufTy).Contents (Elt F) → (⟨S512x65536, .f32⟩ : BufTy).Contents (Elt F)),
    reshape main_v68 main_v69 rfl shapeCasts_S512x65536_S512x64x32x32,
    unary main_v69 main_v70 ((transpose S64x512x32x32 [1, 0, 2, 3] · transposes_S512x64x32x32_S64x512x32x32_1_0_2_3) : (⟨S512x64x32x32, .f32⟩ : BufTy).Contents (Elt F) → (⟨S64x512x32x32, .f32⟩ : BufTy).Contents (Elt F)) ]

/-- @main's operations, in order. -/
private abbrev ops : List (HloOp τ sig (Elt F)) := ops0 ++ ops1

/-- Stretch 1 of the operations: the argument as channels by samples, the channel means, the centred samples. -/
private abbrev c1 : List (HloOp τ sig (Elt F)) :=
  [ unary main_arg0 main_v0 ((transpose S512x64x32x32 [1, 0, 2, 3] · transposes_S64x512x32x32_S512x64x32x32_1_0_2_3) : (⟨S64x512x32x32, .f32⟩ : BufTy).Contents (Elt F) → (⟨S512x64x32x32, .f32⟩ : BufTy).Contents (Elt F)),
    reshape main_v0 main_v1 rfl shapeCasts_S512x64x32x32_S512x65536,
    nullary main_cst (constant S_ .f32 0x00000000#32),
    binary main_v1 main_cst main_v2 ((fun x v => Host.reduceAdd x v reducesTo_S512x65536_S512_d1 h_S_) : (⟨S512x65536, .f32⟩ : BufTy).Contents (Elt F) → (⟨S_, .f32⟩ : BufTy).Contents (Elt F) → (⟨S512, .f32⟩ : BufTy).Contents (Elt F)),
    unary main_v2 main_v3 (broadcastInDim S512x1 ![0] bcast_S512_S512x1_0 : (⟨S512, .f32⟩ : BufTy).Contents (Elt F) → (⟨S512x1, .f32⟩ : BufTy).Contents (Elt F)),
    nullary main_cst_0 (constant S_ .f32 0x47800000#32),
    unary main_cst_0 main_v4 (broadcastInDim S512x1 ![] bcast_S_S512x1 : (⟨S_, .f32⟩ : BufTy).Contents (Elt F) → (⟨S512x1, .f32⟩ : BufTy).Contents (Elt F)),
    binary main_v3 main_v4 main_v5 (Host.divf : (⟨S512x1, .f32⟩ : BufTy).Contents (Elt F) → (⟨S512x1, .f32⟩ : BufTy).Contents (Elt F) → (⟨S512x1, .f32⟩ : BufTy).Contents (Elt F)),
    unary main_v5 main_v6 (broadcastInDim S512x65536 ![0, 1] bcast_S512x1_S512x65536_0_1 : (⟨S512x1, .f32⟩ : BufTy).Contents (Elt F) → (⟨S512x65536, .f32⟩ : BufTy).Contents (Elt F)),
    binary main_v1 main_v6 main_v7 (subf : (⟨S512x65536, .f32⟩ : BufTy).Contents (Elt F) → (⟨S512x65536, .f32⟩ : BufTy).Contents (Elt F) → (⟨S512x65536, .f32⟩ : BufTy).Contents (Elt F)) ]

/-- Stretch 2 of the operations: the diagonal mask and the identity matrix. -/
private abbrev c2 : List (HloOp τ sig (Elt F)) :=
  [ nullary main_v8 (iotaInDim S512x512 32 0),
    nullary main_v9 (iotaInDim S512x512 32 1),
    nullary main_c (constantI S_ 32 0#32),
    unary main_c main_v10 (broadcastInDim S512x512 ![] bcast_S_S512x512 : (⟨S_, .i32⟩ : BufTy).Contents (Elt F) → (⟨S512x512, .i32⟩ : BufTy).Contents (Elt F)),
    binary main_v8 main_v10 main_v11 (addi : (⟨S512x512, .i32⟩ : BufTy).Contents (Elt F) → (⟨S512x512, .i32⟩ : BufTy).Contents (Elt F) → (⟨S512x512, .i32⟩ : BufTy).Contents (Elt F)),
    binary main_v11 main_v9 main_v12 (cmpi .eq : (⟨S512x512, .i32⟩ : BufTy).Contents (Elt F) → (⟨S512x512, .i32⟩ : BufTy).Contents (Elt F) → (⟨S512x512, .i1⟩ : BufTy).Contents (Elt F)),
    unary main_v12 main_v13 (uitofp .f32 : (⟨S512x512, .i1⟩ : BufTy).Contents (Elt F) → (⟨S512x512, .f32⟩ : BufTy).Contents (Elt F)) ]

/-- Stretch 3 of the operations: Sigma. -/
private abbrev c3 : List (HloOp τ sig (Elt F)) :=
  [ nullary main_cst_1 (constant S_ .f32 0x3727C5AC#32),
    unary main_cst_1 main_v14 (broadcastInDim S512x512 ![] bcast_S_S512x512 : (⟨S_, .f32⟩ : BufTy).Contents (Elt F) → (⟨S512x512, .f32⟩ : BufTy).Contents (Elt F)),
    binary main_v14 main_v13 main_v15 (mulf : (⟨S512x512, .f32⟩ : BufTy).Contents (Elt F) → (⟨S512x512, .f32⟩ : BufTy).Contents (Elt F) → (⟨S512x512, .f32⟩ : BufTy).Contents (Elt F)),
    unary main_v7 main_v16 ((transpose S65536x512 [1, 0] · transposes_S512x65536_S65536x512_1_0) : (⟨S512x65536, .f32⟩ : BufTy).Contents (Elt F) → (⟨S65536x512, .f32⟩ : BufTy).Contents (Elt F)),
    binary main_v7 main_v16 main_v17 ((fun l r => Host.dotGeneral dot_S512x65536_S65536x512_S512x512_1_0_0_1_n_n none l r) : (⟨S512x65536, .f32⟩ : BufTy).Contents (Elt F) → (⟨S65536x512, .f32⟩ : BufTy).Contents (Elt F) → (⟨S512x512, .f32⟩ : BufTy).Contents (Elt F)),
    nullary main_cst_2 (constant S_ .f32 0x47800000#32),
    unary main_cst_2 main_v18 (broadcastInDim S512x512 ![] bcast_S_S512x512 : (⟨S_, .f32⟩ : BufTy).Contents (Elt F) → (⟨S512x512, .f32⟩ : BufTy).Contents (Elt F)),
    binary main_v17 main_v18 main_v19 (Host.divf : (⟨S512x512, .f32⟩ : BufTy).Contents (Elt F) → (⟨S512x512, .f32⟩ : BufTy).Contents (Elt F) → (⟨S512x512, .f32⟩ : BufTy).Contents (Elt F)),
    binary main_v15 main_v19 main_v20 (addf : (⟨S512x512, .f32⟩ : BufTy).Contents (Elt F) → (⟨S512x512, .f32⟩ : BufTy).Contents (Elt F) → (⟨S512x512, .f32⟩ : BufTy).Contents (Elt F)) ]

/-- Stretch 4 of the operations: the trace of Sigma as the outlined function takes it, one over it, Sigma over it. -/
private abbrev c4 : List (HloOp τ sig (Elt F)) :=
  [ TRef.nullary main_call0.v0 (iotaInDim S512x512 32 0),
    TRef.nullary main_call0.v1 (iotaInDim S512x512 32 1),
    TRef.nullary main_call0.c (constantI S_ 32 0#32),
    TRef.unary main_call0.c main_call0.v2 (broadcastInDim S512x512 ![] bcast_S_S512x512),
    TRef.binary main_call0.v0 main_call0.v2 main_call0.v3 addi,
    TRef.binary main_call0.v3 main_call0.v1 main_call0.v4 (cmpi .eq),
    TRef.nullary main_call0.cst (constant S_ .f32 0x00000000#32),
    TRef.unary main_call0.cst main_call0.v5 (broadcastInDim S512x512 ![] bcast_S_S512x512),
    TRef.ternary main_call0.v4 (.of main_v20) main_call0.v5 main_call0.call0.v0 select,
    TRef.nullary main_call0.cst_0 (constant S_ .f32 0x00000000#32),
    TRef.binary main_call0.call0.v0 main_call0.cst_0 main_call0.v7 (fun x v => Host.reduceAdd x v reducesTo_S512x512_S_d0_1 h_S_),
    nullary main_cst_3 (constant S_ .f32 0x3F800000#32),
    binary main_cst_3 main_v21 main_v22 (Host.divf : (⟨S_, .f32⟩ : BufTy).Contents (Elt F) → (⟨S_, .f32⟩ : BufTy).Contents (Elt F) → (⟨S_, .f32⟩ : BufTy).Contents (Elt F)),
    unary main_v22 main_v23 (broadcastInDim S512x512 ![] bcast_S_S512x512 : (⟨S_, .f32⟩ : BufTy).Contents (Elt F) → (⟨S512x512, .f32⟩ : BufTy).Contents (Elt F)),
    binary main_v20 main_v23 main_v24 (mulf : (⟨S512x512, .f32⟩ : BufTy).Contents (Elt F) → (⟨S512x512, .f32⟩ : BufTy).Contents (Elt F) → (⟨S512x512, .f32⟩ : BufTy).Contents (Elt F)) ]

/-- Stretch 5 of the operations: the first Newton-Schulz step. -/
private abbrev c5 : List (HloOp τ sig (Elt F)) :=
  [ nullary main_cst_4 (constant S_ .f32 0x3FC00000#32),
    unary main_cst_4 main_v25 (broadcastInDim S512x512 ![] bcast_S_S512x512 : (⟨S_, .f32⟩ : BufTy).Contents (Elt F) → (⟨S512x512, .f32⟩ : BufTy).Contents (Elt F)),
    binary main_v25 main_v13 main_v26 (mulf : (⟨S512x512, .f32⟩ : BufTy).Contents (Elt F) → (⟨S512x512, .f32⟩ : BufTy).Contents (Elt F) → (⟨S512x512, .f32⟩ : BufTy).Contents (Elt F)),
    binary main_v13 main_v13 main_v27 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v27 main_v13 main_v28 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    nullary main_cst_5 (constant S_ .f32 0x3F000000#32),
    unary main_cst_5 main_v29 (broadcastInDim S512x512 ![] bcast_S_S512x512 : (⟨S_, .f32⟩ : BufTy).Contents (Elt F) → (⟨S512x512, .f32⟩ : BufTy).Contents (Elt F)),
    binary main_v29 main_v28 main_v30 (mulf : (⟨S512x512, .f32⟩ : BufTy).Contents (Elt F) → (⟨S512x512, .f32⟩ : BufTy).Contents (Elt F) → (⟨S512x512, .f32⟩ : BufTy).Contents (Elt F)),
    binary main_v30 main_v24 main_v31 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v26 main_v31 main_v32 (subf : (⟨S512x512, .f32⟩ : BufTy).Contents (Elt F) → (⟨S512x512, .f32⟩ : BufTy).Contents (Elt F) → (⟨S512x512, .f32⟩ : BufTy).Contents (Elt F)) ]

/-- Stretch 6 of the operations: the second Newton-Schulz step. -/
private abbrev c6 : List (HloOp τ sig (Elt F)) :=
  [ nullary main_cst_6 (constant S_ .f32 0x3FC00000#32),
    unary main_cst_6 main_v33 (broadcastInDim S512x512 ![] bcast_S_S512x512 : (⟨S_, .f32⟩ : BufTy).Contents (Elt F) → (⟨S512x512, .f32⟩ : BufTy).Contents (Elt F)),
    binary main_v33 main_v32 main_v34 (mulf : (⟨S512x512, .f32⟩ : BufTy).Contents (Elt F) → (⟨S512x512, .f32⟩ : BufTy).Contents (Elt F) → (⟨S512x512, .f32⟩ : BufTy).Contents (Elt F)),
    binary main_v32 main_v32 main_v35 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v35 main_v32 main_v36 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    nullary main_cst_7 (constant S_ .f32 0x3F000000#32),
    unary main_cst_7 main_v37 (broadcastInDim S512x512 ![] bcast_S_S512x512 : (⟨S_, .f32⟩ : BufTy).Contents (Elt F) → (⟨S512x512, .f32⟩ : BufTy).Contents (Elt F)),
    binary main_v37 main_v36 main_v38 (mulf : (⟨S512x512, .f32⟩ : BufTy).Contents (Elt F) → (⟨S512x512, .f32⟩ : BufTy).Contents (Elt F) → (⟨S512x512, .f32⟩ : BufTy).Contents (Elt F)),
    binary main_v38 main_v24 main_v39 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v34 main_v39 main_v40 (subf : (⟨S512x512, .f32⟩ : BufTy).Contents (Elt F) → (⟨S512x512, .f32⟩ : BufTy).Contents (Elt F) → (⟨S512x512, .f32⟩ : BufTy).Contents (Elt F)) ]

/-- Stretch 7 of the operations: the third Newton-Schulz step. -/
private abbrev c7 : List (HloOp τ sig (Elt F)) :=
  [ nullary main_cst_8 (constant S_ .f32 0x3FC00000#32),
    unary main_cst_8 main_v41 (broadcastInDim S512x512 ![] bcast_S_S512x512 : (⟨S_, .f32⟩ : BufTy).Contents (Elt F) → (⟨S512x512, .f32⟩ : BufTy).Contents (Elt F)),
    binary main_v41 main_v40 main_v42 (mulf : (⟨S512x512, .f32⟩ : BufTy).Contents (Elt F) → (⟨S512x512, .f32⟩ : BufTy).Contents (Elt F) → (⟨S512x512, .f32⟩ : BufTy).Contents (Elt F)),
    binary main_v40 main_v40 main_v43 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v43 main_v40 main_v44 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    nullary main_cst_9 (constant S_ .f32 0x3F000000#32),
    unary main_cst_9 main_v45 (broadcastInDim S512x512 ![] bcast_S_S512x512 : (⟨S_, .f32⟩ : BufTy).Contents (Elt F) → (⟨S512x512, .f32⟩ : BufTy).Contents (Elt F)),
    binary main_v45 main_v44 main_v46 (mulf : (⟨S512x512, .f32⟩ : BufTy).Contents (Elt F) → (⟨S512x512, .f32⟩ : BufTy).Contents (Elt F) → (⟨S512x512, .f32⟩ : BufTy).Contents (Elt F)),
    binary main_v46 main_v24 main_v47 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v42 main_v47 main_v48 (subf : (⟨S512x512, .f32⟩ : BufTy).Contents (Elt F) → (⟨S512x512, .f32⟩ : BufTy).Contents (Elt F) → (⟨S512x512, .f32⟩ : BufTy).Contents (Elt F)) ]

/-- Stretch 8 of the operations: the fourth Newton-Schulz step. -/
private abbrev c8 : List (HloOp τ sig (Elt F)) :=
  [ nullary main_cst_10 (constant S_ .f32 0x3FC00000#32),
    unary main_cst_10 main_v49 (broadcastInDim S512x512 ![] bcast_S_S512x512 : (⟨S_, .f32⟩ : BufTy).Contents (Elt F) → (⟨S512x512, .f32⟩ : BufTy).Contents (Elt F)),
    binary main_v49 main_v48 main_v50 (mulf : (⟨S512x512, .f32⟩ : BufTy).Contents (Elt F) → (⟨S512x512, .f32⟩ : BufTy).Contents (Elt F) → (⟨S512x512, .f32⟩ : BufTy).Contents (Elt F)),
    binary main_v48 main_v48 main_v51 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v51 main_v48 main_v52 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    nullary main_cst_11 (constant S_ .f32 0x3F000000#32),
    unary main_cst_11 main_v53 (broadcastInDim S512x512 ![] bcast_S_S512x512 : (⟨S_, .f32⟩ : BufTy).Contents (Elt F) → (⟨S512x512, .f32⟩ : BufTy).Contents (Elt F)),
    binary main_v53 main_v52 main_v54 (mulf : (⟨S512x512, .f32⟩ : BufTy).Contents (Elt F) → (⟨S512x512, .f32⟩ : BufTy).Contents (Elt F) → (⟨S512x512, .f32⟩ : BufTy).Contents (Elt F)),
    binary main_v54 main_v24 main_v55 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v50 main_v55 main_v56 (subf : (⟨S512x512, .f32⟩ : BufTy).Contents (Elt F) → (⟨S512x512, .f32⟩ : BufTy).Contents (Elt F) → (⟨S512x512, .f32⟩ : BufTy).Contents (Elt F)) ]

/-- Stretch 9 of the operations: the fifth Newton-Schulz step. -/
private abbrev c9 : List (HloOp τ sig (Elt F)) :=
  [ nullary main_cst_12 (constant S_ .f32 0x3FC00000#32),
    unary main_cst_12 main_v57 (broadcastInDim S512x512 ![] bcast_S_S512x512 : (⟨S_, .f32⟩ : BufTy).Contents (Elt F) → (⟨S512x512, .f32⟩ : BufTy).Contents (Elt F)),
    binary main_v57 main_v56 main_v58 (mulf : (⟨S512x512, .f32⟩ : BufTy).Contents (Elt F) → (⟨S512x512, .f32⟩ : BufTy).Contents (Elt F) → (⟨S512x512, .f32⟩ : BufTy).Contents (Elt F)),
    binary main_v56 main_v56 main_v59 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v59 main_v56 main_v60 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    nullary main_cst_13 (constant S_ .f32 0x3F000000#32),
    unary main_cst_13 main_v61 (broadcastInDim S512x512 ![] bcast_S_S512x512 : (⟨S_, .f32⟩ : BufTy).Contents (Elt F) → (⟨S512x512, .f32⟩ : BufTy).Contents (Elt F)),
    binary main_v61 main_v60 main_v62 (mulf : (⟨S512x512, .f32⟩ : BufTy).Contents (Elt F) → (⟨S512x512, .f32⟩ : BufTy).Contents (Elt F) → (⟨S512x512, .f32⟩ : BufTy).Contents (Elt F)),
    binary main_v62 main_v24 main_v63 ((fun l r => Host.dotGeneral dot_S512x512_S512x512_S512x512_1_0_0_1_n_n none l r) : (⟨S512x512, .f32⟩ : BufTy).Contents (Elt F) → (⟨S512x512, .f32⟩ : BufTy).Contents (Elt F) → (⟨S512x512, .f32⟩ : BufTy).Contents (Elt F)),
    binary main_v58 main_v63 main_v64 (subf : (⟨S512x512, .f32⟩ : BufTy).Contents (Elt F) → (⟨S512x512, .f32⟩ : BufTy).Contents (Elt F) → (⟨S512x512, .f32⟩ : BufTy).Contents (Elt F)) ]

/-- Stretch 10 of the operations: the whitening matrix, the whitened samples, the result laid back out. -/
private abbrev c10 : List (HloOp τ sig (Elt F)) :=
  [ unary main_v22 main_v65 (Host.sqrt : (⟨S_, .f32⟩ : BufTy).Contents (Elt F) → (⟨S_, .f32⟩ : BufTy).Contents (Elt F)),
    unary main_v65 main_v66 (broadcastInDim S512x512 ![] bcast_S_S512x512 : (⟨S_, .f32⟩ : BufTy).Contents (Elt F) → (⟨S512x512, .f32⟩ : BufTy).Contents (Elt F)),
    binary main_v64 main_v66 main_v67 (mulf : (⟨S512x512, .f32⟩ : BufTy).Contents (Elt F) → (⟨S512x512, .f32⟩ : BufTy).Contents (Elt F) → (⟨S512x512, .f32⟩ : BufTy).Contents (Elt F)),
    binary main_v67 main_v7 main_v68 ((fun l r => Host.dotGeneral dot_S512x512_S512x65536_S512x65536_1_0_0_1_n_n none l r) : (⟨S512x512, .f32⟩ : BufTy).Contents (Elt F) → (⟨S512x65536, .f32⟩ : BufTy).Contents (Elt F) → (⟨S512x65536, .f32⟩ : BufTy).Contents (Elt F)),
    reshape main_v68 main_v69 rfl shapeCasts_S512x65536_S512x64x32x32,
    unary main_v69 main_v70 ((transpose S64x512x32x32 [1, 0, 2, 3] · transposes_S512x64x32x32_S64x512x32x32_1_0_2_3) : (⟨S512x64x32x32, .f32⟩ : BufTy).Contents (Elt F) → (⟨S64x512x32x32, .f32⟩ : BufTy).Contents (Elt F)) ]

set_option maxRecDepth 8192 in
set_option maxHeartbeats 4000000 in
/-- The first window is that straight line: the two functions' definitions unfolded at their calls, sequencing reassociated. -/
private theorem main_part0_eq (c : Dev nD) : main_part0 (F := F) c = seq ops0 := by
  simp only [main_part0, fn_trace.body, fn_where.body, seq, bind_assoc, pure_bind]
  rfl

set_option maxRecDepth 8192 in
set_option maxHeartbeats 4000000 in
private theorem main_part1_eq (c : Dev nD) : main_part1 (F := F) c = seq ops1 := rfl

private theorem main_eq (c : Dev nD) : main (F := F) c = seq ops := by
  simp only [main, ops, seq_append, main_part0_eq, main_part1_eq]

private theorem scopedRefs_eq : (Finset.univ.filter fun b : Ref sig .tc => b.isScoped) = ∅ := by decide
private theorem scopedSems_eq : (Finset.univ.filter fun sm : SemLoc sig => sm.isScoped .tc) = ∅ := by decide

set_option maxRecDepth 8192 in
private theorem ops0_sub : (ops0 : List (HloOp τ sig (Elt F))).Forall fun op => op.bufs ⊆ tcRefs τ sig :=
  ⟨unary_bufs_sub .., reshape_bufs_sub .., nullary_bufs_sub .., binary_bufs_sub .., unary_bufs_sub .., nullary_bufs_sub .., unary_bufs_sub .., binary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., unary_bufs_sub .., binary_bufs_sub .., binary_bufs_sub .., nullary_bufs_sub .., unary_bufs_sub .., ternary_bufs_sub .., nullary_bufs_sub .., binary_bufs_sub .., nullary_bufs_sub .., binary_bufs_sub .., unary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub ..⟩

set_option maxRecDepth 8192 in
private theorem ops1_sub : (ops1 : List (HloOp τ sig (Elt F))).Forall fun op => op.bufs ⊆ tcRefs τ sig :=
  ⟨binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., nullary_bufs_sub .., unary_bufs_sub .., binary_bufs_sub .., binary_bufs_sub .., binary_bufs_sub .., unary_bufs_sub .., unary_bufs_sub .., binary_bufs_sub .., binary_bufs_sub .., reshape_bufs_sub .., unary_bufs_sub ..⟩

private theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

set_option maxRecDepth 8192 in
/-- Every operation of the first window determines its results. -/
private theorem ops0_fresh : ∀ op ∈ (ops0 : List (HloOp τ sig (Elt F))), op.fresh = ∅ := by
  intro _ h; (repeat (cases h with | head => rfl | tail _ h => ?_)); exact nomatch h

set_option maxRecDepth 8192 in
/-- Every operation of the second window determines its results. -/
private theorem ops1_fresh : ∀ op ∈ (ops1 : List (HloOp τ sig (Elt F))), op.fresh = ∅ := by
  intro _ h; (repeat (cases h with | head => rfl | tail _ h => ?_)); exact nomatch h

private theorem ops_fresh : ∀ op ∈ (ops : List (HloOp τ sig (Elt F))), op.fresh = ∅ :=
  fun op h => (List.mem_append.mp h).elim (ops0_fresh op) (ops1_fresh op)

set_option maxRecDepth 8192 in
/-- The line is its ten stretches in a row. -/
private theorem ops_chunks : (ops : List (HloOp τ sig (Elt F))) = c1 ++ (c2 ++ (c3 ++ (c4 ++ (c5 ++ (c6 ++ (c7 ++ (c8 ++ (c9 ++ c10)))))))) := rfl

/-- The contents after two stretches in a row. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Stretch 1: the centred samples of the argument, the argument kept. -/
private theorem c1_spec (W : Valuation τ sig (Elt F)) :
    after c1 W (Proc.devRef .tc main_v7 : DevRef τ sig) = RefT.xc (W (Proc.devRef .tc main_arg0 : DevRef τ sig))
    ∧ after c1 W (Proc.devRef .tc main_arg0 : DevRef τ sig) = W (Proc.devRef .tc main_arg0 : DevRef τ sig) :=
  ⟨by after_results_simp <;> rfl, by after_results_simp <;> rfl⟩

/-- Stretch 2: the identity matrix, the centred samples and the argument kept. -/
private theorem c2_spec (W : Valuation τ sig (Elt F)) :
    after c2 W (Proc.devRef .tc main_v13 : DevRef τ sig) = RefT.eye (F := F)
    ∧ after c2 W (Proc.devRef .tc main_v7 : DevRef τ sig) = W (Proc.devRef .tc main_v7 : DevRef τ sig)
    ∧ after c2 W (Proc.devRef .tc main_arg0 : DevRef τ sig) = W (Proc.devRef .tc main_arg0 : DevRef τ sig) :=
  ⟨by after_results_simp <;> rfl, by after_results_simp <;> rfl, by after_results_simp <;> rfl⟩

/-- Stretch 3: Sigma from the centred samples and the identity, those and the argument kept. -/
private theorem c3_spec (W : Valuation τ sig (Elt F)) (x : FVec F S64x512x32x32 .f32)
    (h7 : W (Proc.devRef .tc main_v7 : DevRef τ sig) = RefT.xc x) (h13 : W (Proc.devRef .tc main_v13 : DevRef τ sig) = RefT.eye (F := F)) :
    after c3 W (Proc.devRef .tc main_v20 : DevRef τ sig) = RefT.sig x
    ∧ after c3 W (Proc.devRef .tc main_v7 : DevRef τ sig) = W (Proc.devRef .tc main_v7 : DevRef τ sig)
    ∧ after c3 W (Proc.devRef .tc main_v13 : DevRef τ sig) = W (Proc.devRef .tc main_v13 : DevRef τ sig)
    ∧ after c3 W (Proc.devRef .tc main_arg0 : DevRef τ sig) = W (Proc.devRef .tc main_arg0 : DevRef τ sig) :=
  ⟨by after_results_simp; rw [h7, h13]; rfl, by after_results_simp <;> rfl, by after_results_simp <;> rfl, by after_results_simp <;> rfl⟩

/-- Stretch 4: one over Sigma's trace and Sigma over its trace, the centred samples, the identity and the argument kept. -/
private theorem c4_spec (W : Valuation τ sig (Elt F)) (x : FVec F S64x512x32x32 .f32)
    (h20 : W (Proc.devRef .tc main_v20 : DevRef τ sig) = RefT.sig x) :
    after c4 W (Proc.devRef .tc main_v22 : DevRef τ sig) = RefT.rtr x
    ∧ after c4 W (Proc.devRef .tc main_v24 : DevRef τ sig) = RefT.sn x
    ∧ after c4 W (Proc.devRef .tc main_v7 : DevRef τ sig) = W (Proc.devRef .tc main_v7 : DevRef τ sig)
    ∧ after c4 W (Proc.devRef .tc main_v13 : DevRef τ sig) = W (Proc.devRef .tc main_v13 : DevRef τ sig)
    ∧ after c4 W (Proc.devRef .tc main_arg0 : DevRef τ sig) = W (Proc.devRef .tc main_arg0 : DevRef τ sig) :=
  ⟨by after_results_simp; simp only [TRef.ofBuf, TRef.toBuf, cast_eq, h20]; rfl,
   by after_results_simp; simp only [TRef.ofBuf, TRef.toBuf, cast_eq, h20]; rfl,
   by after_results_simp <;> rfl, by after_results_simp <;> rfl, by after_results_simp <;> rfl⟩

/-- Stretch 5: one Newton-Schulz step from the iterate it finds, the normalised Sigma, one over the trace, the centred samples and the argument kept. -/
private theorem c5_spec (W : Valuation τ sig (Elt F)) :
    after c5 W (Proc.devRef .tc main_v32 : DevRef τ sig) = RefT.step (W (Proc.devRef .tc main_v24 : DevRef τ sig)) (W (Proc.devRef .tc main_v13 : DevRef τ sig))
    ∧ after c5 W (Proc.devRef .tc main_v24 : DevRef τ sig) = W (Proc.devRef .tc main_v24 : DevRef τ sig)
    ∧ after c5 W (Proc.devRef .tc main_v22 : DevRef τ sig) = W (Proc.devRef .tc main_v22 : DevRef τ sig)
    ∧ after c5 W (Proc.devRef .tc main_v7 : DevRef τ sig) = W (Proc.devRef .tc main_v7 : DevRef τ sig)
    ∧ after c5 W (Proc.devRef .tc main_arg0 : DevRef τ sig) = W (Proc.devRef .tc main_arg0 : DevRef τ sig) :=
  ⟨by after_results_simp <;> rfl, by after_results_simp <;> rfl, by after_results_simp <;> rfl, by after_results_simp <;> rfl, by after_results_simp <;> rfl⟩

/-- Stretch 6: one Newton-Schulz step from the iterate it finds, the normalised Sigma, one over the trace, the centred samples and the argument kept. -/
private theorem c6_spec (W : Valuation τ sig (Elt F)) :
    after c6 W (Proc.devRef .tc main_v40 : DevRef τ sig) = RefT.step (W (Proc.devRef .tc main_v24 : DevRef τ sig)) (W (Proc.devRef .tc main_v32 : DevRef τ sig))
    ∧ after c6 W (Proc.devRef .tc main_v24 : DevRef τ sig) = W (Proc.devRef .tc main_v24 : DevRef τ sig)
    ∧ after c6 W (Proc.devRef .tc main_v22 : DevRef τ sig) = W (Proc.devRef .tc main_v22 : DevRef τ sig)
    ∧ after c6 W (Proc.devRef .tc main_v7 : DevRef τ sig) = W (Proc.devRef .tc main_v7 : DevRef τ sig)
    ∧ after c6 W (Proc.devRef .tc main_arg0 : DevRef τ sig) = W (Proc.devRef .tc main_arg0 : DevRef τ sig) :=
  ⟨by after_results_simp <;> rfl, by after_results_simp <;> rfl, by after_results_simp <;> rfl, by after_results_simp <;> rfl, by after_results_simp <;> rfl⟩

/-- Stretch 7: one Newton-Schulz step from the iterate it finds, the normalised Sigma, one over the trace, the centred samples and the argument kept. -/
private theorem c7_spec (W : Valuation τ sig (Elt F)) :
    after c7 W (Proc.devRef .tc main_v48 : DevRef τ sig) = RefT.step (W (Proc.devRef .tc main_v24 : DevRef τ sig)) (W (Proc.devRef .tc main_v40 : DevRef τ sig))
    ∧ after c7 W (Proc.devRef .tc main_v24 : DevRef τ sig) = W (Proc.devRef .tc main_v24 : DevRef τ sig)
    ∧ after c7 W (Proc.devRef .tc main_v22 : DevRef τ sig) = W (Proc.devRef .tc main_v22 : DevRef τ sig)
    ∧ after c7 W (Proc.devRef .tc main_v7 : DevRef τ sig) = W (Proc.devRef .tc main_v7 : DevRef τ sig)
    ∧ after c7 W (Proc.devRef .tc main_arg0 : DevRef τ sig) = W (Proc.devRef .tc main_arg0 : DevRef τ sig) :=
  ⟨by after_results_simp <;> rfl, by after_results_simp <;> rfl, by after_results_simp <;> rfl, by after_results_simp <;> rfl, by after_results_simp <;> rfl⟩

/-- Stretch 8: one Newton-Schulz step from the iterate it finds, the normalised Sigma, one over the trace, the centred samples and the argument kept. -/
private theorem c8_spec (W : Valuation τ sig (Elt F)) :
    after c8 W (Proc.devRef .tc main_v56 : DevRef τ sig) = RefT.step (W (Proc.devRef .tc main_v24 : DevRef τ sig)) (W (Proc.devRef .tc main_v48 : DevRef τ sig))
    ∧ after c8 W (Proc.devRef .tc main_v24 : DevRef τ sig) = W (Proc.devRef .tc main_v24 : DevRef τ sig)
    ∧ after c8 W (Proc.devRef .tc main_v22 : DevRef τ sig) = W (Proc.devRef .tc main_v22 : DevRef τ sig)
    ∧ after c8 W (Proc.devRef .tc main_v7 : DevRef τ sig) = W (Proc.devRef .tc main_v7 : DevRef τ sig)
    ∧ after c8 W (Proc.devRef .tc main_arg0 : DevRef τ sig) = W (Proc.devRef .tc main_arg0 : DevRef τ sig) :=
  ⟨by after_results_simp <;> rfl, by after_results_simp <;> rfl, by after_results_simp <;> rfl, by after_results_simp <;> rfl, by after_results_simp <;> rfl⟩

/-- Stretch 9: one Newton-Schulz step from the iterate it finds, the normalised Sigma, one over the trace, the centred samples and the argument kept. -/
private theorem c9_spec (W : Valuation τ sig (Elt F)) :
    after c9 W (Proc.devRef .tc main_v64 : DevRef τ sig) = RefT.step (W (Proc.devRef .tc main_v24 : DevRef τ sig)) (W (Proc.devRef .tc main_v56 : DevRef τ sig))
    ∧ after c9 W (Proc.devRef .tc main_v24 : DevRef τ sig) = W (Proc.devRef .tc main_v24 : DevRef τ sig)
    ∧ after c9 W (Proc.devRef .tc main_v22 : DevRef τ sig) = W (Proc.devRef .tc main_v22 : DevRef τ sig)
    ∧ after c9 W (Proc.devRef .tc main_v7 : DevRef τ sig) = W (Proc.devRef .tc main_v7 : DevRef τ sig)
    ∧ after c9 W (Proc.devRef .tc main_arg0 : DevRef τ sig) = W (Proc.devRef .tc main_arg0 : DevRef τ sig) :=
  ⟨by after_results_simp <;> rfl, by after_results_simp <;> rfl, by after_results_simp <;> rfl, by after_results_simp <;> rfl, by after_results_simp <;> rfl⟩

/-- Stretch 10: the result from the fifth iterate, one over the trace and the centred samples, the argument kept. -/
private theorem c10_spec (W : Valuation τ sig (Elt F)) (x : FVec F S64x512x32x32 .f32)
    (h64 : W (Proc.devRef .tc main_v64 : DevRef τ sig) = RefT.p5 x) (h22 : W (Proc.devRef .tc main_v22 : DevRef τ sig) = RefT.rtr x) (h7 : W (Proc.devRef .tc main_v7 : DevRef τ sig) = RefT.xc x) :
    after c10 W (Proc.devRef .tc main_v70 : DevRef τ sig) = RefT.out x
    ∧ after c10 W (Proc.devRef .tc main_arg0 : DevRef τ sig) = W (Proc.devRef .tc main_arg0 : DevRef τ sig) :=
  ⟨by after_results_simp; rw [h64, h22, h7]; rfl, by after_results_simp <;> rfl⟩

/-- The whole line at the result buffer and at the argument's, from any contents: the stretches in turn, each
    read at the buffers the later ones read, the contents between two stretches never opened. -/
private theorem ops_val (V : Valuation τ sig (Elt F)) :
    after ops V (Proc.devRef .tc main_v70 : DevRef τ sig) = RefT.out (V (Proc.devRef .tc main_arg0 : DevRef τ sig))
    ∧ after ops V (Proc.devRef .tc main_arg0 : DevRef τ sig) = V (Proc.devRef .tc main_arg0 : DevRef τ sig) := by
  rw [ops_chunks]
  simp only [after_app]
  obtain ⟨a7, a0⟩ := c1_spec V
  generalize after c1 V = W1 at a7 a0 ⊢
  obtain ⟨b13, b7, b0⟩ := c2_spec W1
  have B7 := b7.trans a7
  have B0 := b0.trans a0
  generalize after c2 W1 = W2 at b13 B7 B0 ⊢
  clear b7 b0 a7 a0
  obtain ⟨d20, d7, d13, d0⟩ := c3_spec W2 (V (Proc.devRef .tc main_arg0 : DevRef τ sig)) B7 b13
  have D7 := d7.trans B7
  have D13 := d13.trans b13
  have D0 := d0.trans B0
  generalize after c3 W2 = W3 at d20 D7 D13 D0 ⊢
  clear d7 d13 d0 B7 B0 b13
  obtain ⟨e22, e24, e7, e13, e0⟩ := c4_spec W3 (V (Proc.devRef .tc main_arg0 : DevRef τ sig)) d20
  have E7 := e7.trans D7
  have E13 := e13.trans D13
  have E0 := e0.trans D0
  generalize after c4 W3 = W4 at e22 e24 E7 E13 E0 ⊢
  clear e7 e13 e0 D7 D13 D0 d20
  obtain ⟨f32, f24, f22, f7, f0⟩ := c5_spec W4
  rw [e24, E13] at f32
  have F24 := f24.trans e24
  have F22 := f22.trans e22
  have F7 := f7.trans E7
  have F0 := f0.trans E0
  generalize after c5 W4 = W5 at f32 F24 F22 F7 F0 ⊢
  clear f24 f22 f7 f0 e22 e24 E7 E13 E0
  obtain ⟨g40, g24, g22, g7, g0⟩ := c6_spec W5
  rw [F24, f32] at g40
  have G24 := g24.trans F24
  have G22 := g22.trans F22
  have G7 := g7.trans F7
  have G0 := g0.trans F0
  generalize after c6 W5 = W6 at g40 G24 G22 G7 G0 ⊢
  clear g24 g22 g7 g0 f32 F24 F22 F7 F0
  obtain ⟨h48, h24, h22, h7, h0⟩ := c7_spec W6
  rw [G24, g40] at h48
  have H24 := h24.trans G24
  have H22 := h22.trans G22
  have H7 := h7.trans G7
  have H0 := h0.trans G0
  generalize after c7 W6 = W7 at h48 H24 H22 H7 H0 ⊢
  clear h24 h22 h7 h0 g40 G24 G22 G7 G0
  obtain ⟨i56, i24, i22, i7, i0⟩ := c8_spec W7
  rw [H24, h48] at i56
  have I24 := i24.trans H24
  have I22 := i22.trans H22
  have I7 := i7.trans H7
  have I0 := i0.trans H0
  generalize after c8 W7 = W8 at i56 I24 I22 I7 I0 ⊢
  clear i24 i22 i7 i0 h48 H24 H22 H7 H0
  obtain ⟨j64, _, j22, j7, j0⟩ := c9_spec W8
  rw [I24, i56] at j64
  have J22 := j22.trans I22
  have J7 := j7.trans I7
  have J0 := j0.trans I0
  generalize after c9 W8 = W9 at j64 J22 J7 J0 ⊢
  clear j22 j7 j0 i56 I24 I22 I7 I0
  obtain ⟨k70, k0⟩ := c10_spec W9 (V (Proc.devRef .tc main_arg0 : DevRef τ sig)) j64 J22 J7
  exact ⟨k70, k0.trans J0⟩

/-- On every device, for any float values, from any memory with zero counters: every weakly fair execution of
    @main terminates with the result at the staged term of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = RefT.out (F := F) (m ((c.tc : Thread nD τ).loc main_arg0))
      ∧ r.2.mem ((c.tc : Thread nD τ).loc main_arg0) = m ((c.tc : Thread nD τ).loc main_arg0) :=
  (θ_run defs _ _).mono (fun _ h c => ⟨(h c main_v70).trans (ops_val _).1, (h c main_arg0).trans (ops_val _).2⟩)
    (run_seq scopedRefs_eq scopedSems_eq defs main (fun _ => ops) main_eq (fun _ => ops_sub) m ρ (fun _ => ops_fresh))

end Cert.ReferenceIdeal.Value

end
-- ==== Proof.RLiftA.lean ====
/-
  The reference's layout stages over the reals: the argument transposed and flattened to channels x samples, the
  channel means, the centred samples; and the whitened samples unflattened and transposed back.
-/
import Idealize.ShloMosaic.Lib.IdealHost
import proofs.«129160_j16527034155453_1_alg».proof.Proof.RefTerm
import proofs.«129160_j16527034155453_1_alg».proof.Proof.Gen.ReferenceIdeal
import proofs.«129160_j16527034155453_1_alg».proof.Proof.Lift

noncomputable section

namespace Cert.ReferenceIdeal.RefValue

open Cert.ReferenceIdeal Cert.ReferenceIdeal.Gen Idealize.ShloMosaic Idealize.ShloMosaic.ValueIdx
open Cert.NS Cert.Lift

/-- The channels-by-samples stage at (c, k) is the argument at batch k / 1024, channel c, row (k % 1024) / 32,
    column k % 32: the flattening puts sample k of channel c at row-major position ((c 64 + n) 32 + h) 32 + w. -/
private theorem xr_apply (x : FVec Ideal S64x512x32x32 .f32) (c : Fin 512) (k : Fin 65536) :
    RefT.xr (F := Ideal) x (ix2 c k)
      = x (ix4 (⟨k.val / 1024, by have := k.isLt; omega⟩ : Fin 64) c
            (⟨k.val % 1024 / 32, by have := k.isLt; omega⟩ : Fin 32) (⟨k.val % 32, Nat.mod_lt _ (by norm_num)⟩ : Fin 32)) := by
  have hk := k.isLt
  unfold RefT.xr
  refine (shapeCast_apply _ _ (ix2 c k)
    (ix4 c (⟨k.val / 1024, by omega⟩ : Fin 64) (⟨k.val % 1024 / 32, by omega⟩ : Fin 32) (⟨k.val % 32, by omega⟩ : Fin 32))
    (by rw [Shape.rowMajor_val_four, Shape.rowMajor_val_two]
        show ((c.val * 64 + k.val / 1024) * 32 + k.val % 1024 / 32) * 32 + k.val % 32 = c.val * 65536 + k.val
        omega)).trans ?_
  exact transpose_apply _ _ _ _ _ (fun b => match b with
    | ⟨0, _⟩ => rfl
    | ⟨1, _⟩ => rfl
    | ⟨2, _⟩ => rfl
    | ⟨3, _⟩ => rfl)

/-- The channels-by-samples stage holds the real channels-by-samples matrix. -/
private theorem xr_value (x : FVec Ideal S64x512x32x32 .f32) (x4 : Fin 64 → Fin 512 → Fin 32 → Fin 32 → ℝ)
    (hx : Is4 (x : S64x512x32x32.Idx → EReal) x4) :
    IsM (RefT.xr (F := Ideal) x : S512x65536.Idx → EReal) (Cert.NS.xr (xOf x4)) := by
  intro c k
  refine (xr_apply x c k).trans ((hx _ _ _ _).trans ?_)
  have e : k.val % 1024 % 32 = k.val % 32 := by omega
  unfold Cert.NS.xr Cert.NS.xOf
  simp only [e]

/-- The row sums' shape fact in the form that names the summed coordinate. -/
private theorem reduces_rows : S512x65536.Reduces [1] S512 := by decide

/-- The channel-means stage holds the real channel means. -/
private theorem mean_value (x : FVec Ideal S64x512x32x32 .f32) (x4 : Fin 64 → Fin 512 → Fin 32 → Fin 32 → ℝ)
    (hx : Is4 (x : S64x512x32x32.Idx → EReal) x4) :
    IsM (RefT.mean (F := Ideal) x : S512x1.Idx → EReal) (meanR (xOf x4)) := by
  have hxr := xr_value x x4 hx
  -- the numerator: zero plus the row sum, on every (one-column) entry
  have hnum : IsM (broadcastInDim S512x1 ![0] Facts₀.bcast_S512_S512x1_0
      (Host.reduceAdd (RefT.xr (F := Ideal) x) (constant S_ .f32 0x00000000#32) Facts₀.reducesTo_S512x65536_S512_d1 Facts₀.h_S_)
        : S512x1.Idx → EReal)
      (fun c _ => 0 + ∑ k, Cert.NS.xr (xOf x4) c k) := by
    intro c z
    refine (broadcastInDim_apply _ _ _ (ix2 c z) (ix1 c) (fun a => match a with
      | ⟨0, _⟩ => by show c.val = if (512 : Nat) = 1 then 0 else c.val; rfl)).trans ?_
    refine (Ideal.hostReduceAdd_single Facts₀.reducesTo_S512x65536_S512_d1 reduces_rows _ _ (ix1 c)).trans ?_
    have hs : (∑ k : Fin (S512x65536.size 1), RefT.xr (F := Ideal) x (reduces_rows.lift (ix1 c) k))
        = ∑ k : Fin 65536, ((Cert.NS.xr (xOf x4) c k : ℝ) : EReal) := by
      refine Finset.sum_congr rfl fun k _ => ?_
      have el : reduces_rows.lift (ix1 c) k = ix2 c k := funext fun a => Fin.ext (by
        match a with
        | ⟨0, _⟩ => rfl
        | ⟨1, _⟩ => rfl)
      rw [el]
      exact hxr c k
    rw [hs, coe_sum]
    show Ideal.ofBits .f32 0x00000000#32 + _ = _
    rw [lit_zero, ← EReal.coe_add]
  -- the denominator: the number of samples
  have hden : IsM (broadcastInDim S512x1 ![] Facts₀.bcast_S_S512x1 (constant (F := Ideal) S_ .f32 0x47800000#32) : S512x1.Idx → EReal)
      (fun _ _ => r65536) := by
    intro c z
    refine (broadcastInDim_scalar_apply _ _ _).trans ?_
    show Ideal.ofBits .f32 0x47800000#32 = _
    exact lit_65536
  have h := IsM.hostDivf hnum hden (fun _ _ => by unfold r65536; norm_num)
  exact h

/-- If the argument holds the reals x4, the centred-samples stage holds the real centred samples. -/
theorem xc_value (x : FVec Ideal S64x512x32x32 .f32) (x4 : Fin 64 → Fin 512 → Fin 32 → Fin 32 → ℝ)
    (hx : Is4 (x : S64x512x32x32.Idx → EReal) x4) :
    IsM (RefT.xc (F := Ideal) x : S512x65536.Idx → EReal) (xcR (xOf x4)) := by
  have hm := mean_value x x4 hx
  have hb : IsM (broadcastInDim S512x65536 ![0, 1] Facts₀.bcast_S512x1_S512x65536_0_1 (RefT.mean (F := Ideal) x)
      : S512x65536.Idx → EReal) (fun c _ => meanR (xOf x4) c 0) := by
    intro c k
    refine (broadcastInDim_apply _ _ _ (ix2 c k) (ix2 c (0 : Fin 1)) (fun a => match a with
      | ⟨0, _⟩ => by show c.val = if (512 : Nat) = 1 then 0 else c.val; rfl
      | ⟨1, _⟩ => by show (0 : Nat) = if (1 : Nat) = 1 then 0 else k.val; rfl)).trans ?_
    exact hm c 0
  exact IsM.subf (xr_value x x4 hx) hb

/-- If the whitened-samples stage holds the real matrix O, the result holds O laid out as batch x channel x height x
    width: entry (n, k, h, w) is sample 1024 n + 32 h + w of channel k. -/
theorem out_layout (x : FVec Ideal S64x512x32x32 .f32) (O : Mat 512 65536)
    (hO : IsM (RefT.out2 (F := Ideal) x : S512x65536.Idx → EReal) O) :
    Is4 (RefT.out (F := Ideal) x : S64x512x32x32.Idx → EReal)
      (fun n k h w => O k ⟨1024 * n.val + 32 * h.val + w.val, by have := n.isLt; have := h.isLt; have := w.isLt; omega⟩) := by
  intro n k h w
  have hn := n.isLt
  have hh := h.isLt
  have hw := w.isLt
  unfold RefT.out
  refine (transpose_apply _ _ _ (ix4 n k h w) (ix4 k n h w) (fun b => match b with
    | ⟨0, _⟩ => rfl
    | ⟨1, _⟩ => rfl
    | ⟨2, _⟩ => rfl
    | ⟨3, _⟩ => rfl)).trans ?_
  refine (shapeCast_apply _ _ (ix4 k n h w)
    (ix2 k (⟨1024 * n.val + 32 * h.val + w.val, by omega⟩ : Fin 65536))
    (by rw [Shape.rowMajor_val_four, Shape.rowMajor_val_two]
        show k.val * 65536 + (1024 * n.val + 32 * h.val + w.val) = ((k.val * 64 + n.val) * 32 + h.val) * 32 + w.val
        omega)).trans ?_
  exact hO k _

end Cert.ReferenceIdeal.RefValue

end
-- ==== Proof.RLiftB.lean ====
/-
  The reference's algebraic stages over the reals: from the centred samples to Sigma, its trace, the five
  Newton-Schulz steps, the whitening matrix and the whitened samples.
-/
import Idealize.ShloMosaic.Lib.StableHlo.Predicate
import proofs.«129160_j16527034155453_1_alg».proof.Proof.RefTerm
import proofs.«129160_j16527034155453_1_alg».proof.Proof.Gen.ReferenceIdeal
import proofs.«129160_j16527034155453_1_alg».proof.Proof.Lift

noncomputable section

namespace Cert.ReferenceIdeal.RefValue

open Cert.ReferenceIdeal Cert.ReferenceIdeal.Gen Idealize.ShloMosaic Idealize.ShloMosaic.ValueIdx
open Cert.NS Cert.Lift

/-- A scalar laid out over a matrix holds that scalar everywhere. -/
private theorem IsM.bcastS {M N : ℕ} {v : FVec Ideal ⟨0, ![]⟩ .f32} {r : ℝ} (hv : IsS v r)
    (dims : Fin 0 → Fin 2) (h : (⟨0, ![]⟩ : Shape).BroadcastsInDim ⟨2, ![M, N]⟩ dims) :
    IsM (broadcastInDim ⟨2, ![M, N]⟩ dims h v) (fun _ _ => r) := by
  intro i j
  exact (broadcastInDim_apply dims h v (ix2 i j) ix0 (fun a => a.elim0)).trans hv

/-- The diagonal mask at (i, j): set exactly when i = j. -/
private theorem eyeB_apply (i j : Fin 512) : RefT.eyeB (ix2 i j) = if i = j then 1#1 else 0#1 := by
  show IntOp.cmpi .eq (IntOp.addi (BitVec.ofNat 32 i.val) (0#32)) (BitVec.ofNat 32 j.val) = _
  have hi := i.isLt
  have hj := j.isLt
  by_cases h : i = j
  · subst h
    rw [if_pos rfl]
    simp [IntOp.cmpi, IntOp.addi]
  · rw [if_neg h]
    have hne : ¬ (IntOp.addi (BitVec.ofNat 32 i.val) (0#32) = BitVec.ofNat 32 j.val) := by
      intro e
      apply h
      apply Fin.ext
      have := congrArg BitVec.toNat e
      simp [IntOp.addi, BitVec.toNat_ofNat] at this
      omega
    exact eq_zero_of_ne_one (fun e => hne (StableHlo.Predicate.cmpi_eq_iff.mp e))

/-- The identity matrix. -/
private theorem eye_value : IsM (RefT.eye (F := Ideal) : S512x512.Idx → EReal) (idm 512) := by
  intro i j
  show (((RefT.eyeB (ix2 i j)).toNat : ℝ) : EReal) = _
  rw [eyeB_apply]
  unfold idm
  by_cases h : i = j
  · rw [if_pos h, if_pos h]; simp
  · rw [if_neg h, if_neg h]; simp

/-- The transpose of a matrix. -/
private theorem IsM.transpose {M N : ℕ} {v : (⟨2, ![M, N]⟩ : Shape).Idx → EReal} {A : Mat M N} (hv : IsM v A)
    (h : (⟨2, ![M, N]⟩ : Shape).Transposes [1, 0] ⟨2, ![N, M]⟩) :
    IsM (transpose ⟨2, ![N, M]⟩ [1, 0] v h) (fun k j => A j k) := by
  intro k j
  refine (transpose_apply [1, 0] v h (ix2 k j) (ix2 j k) (fun b => ?_)).trans (hv j k)
  match b with
  | ⟨0, _⟩ => rfl
  | ⟨1, _⟩ => rfl

/-- Sigma = eps I + xc xc^T / 65536. -/
private theorem sig_value (x : FVec Ideal S64x512x32x32 .f32) (X : Fin 64 → Fin 512 → Fin 1024 → ℝ)
    (hxc : IsM (RefT.xc (F := Ideal) x : S512x65536.Idx → EReal) (xcR X)) :
    IsM (RefT.sig (F := Ideal) x : S512x512.Idx → EReal) (sigR X) := by
  have h1 := (IsM.bcastS (M := 512) (N := 512) (IsS.const lit_eps) _ bcast_S_S512x512).mulf eye_value
  have h2 := IsM.dotGeneral_plain hxc (IsM.transpose hxc transposes_S512x65536_S65536x512_1_0)
  have h3 := IsM.hostDivf h2 (IsM.bcastS (M := 512) (N := 512) (IsS.const lit_65536) _ bcast_S_S512x512)
    (fun _ _ => by unfold r65536; norm_num)
  exact h1.addf h3

/-- The masked matrix at (a, b): the entry on the diagonal, zero off it. -/
private theorem select_eye_apply {s Z : FVec Ideal S512x512 .f32} {A : Mat 512 512} (hs : IsM s A)
    (hZ : IsM Z (fun _ _ => (0 : ℝ))) (a b : Fin 512) :
    select RefT.eyeB s Z (ix2 a b) = (((if a = b then A a b else 0 : ℝ)) : EReal) := by
  rw [select_apply, eyeB_apply, hs a b, hZ a b]
  by_cases h : a = b
  · rw [if_pos h, if_pos h, select_one]
  · rw [if_neg h, if_neg h, select_zero]

/-- The trace as the reference takes it: 0 + the sum over all entries kept on the diagonal. -/
private theorem tr_value {s : FVec Ideal S512x512 .f32} {A : Mat 512 512} (hs : IsM s A) :
    IsS (RefT.tr (F := Ideal) s) (0 + ∑ i, ∑ j, if i = j then A i j else 0) := by
  have hZ := IsM.bcastS (M := 512) (N := 512) (IsS.const lit_zero) _ bcast_S_S512x512
  unfold IsS
  refine (Ideal.hostReduceAdd_total _ (fun b => b.elim0) _ _ _).trans ?_
  rw [sum_idx2]
  have e1 : ∀ a : Fin 512, (∑ b : Fin 512, select RefT.eyeB s
        (broadcastInDim S512x512 ![] bcast_S_S512x512 (constant S_ .f32 0x00000000#32)) (ix2 a b))
      = ((∑ b : Fin 512, (if a = b then A a b else 0) : ℝ) : EReal) := by
    intro a
    rw [← coe_sum]
    exact Finset.sum_congr rfl fun b _ => select_eye_apply hs hZ a b
  rw [Finset.sum_congr rfl fun a _ => e1 a, coe_sum]
  have e0 : (constant (F := Ideal) S_ .f32 0x00000000#32 (Shape.Idx.first h_S_)) = ((0 : ℝ) : EReal) := lit_zero
  rw [e0, ← EReal.coe_add]

/-- One over the trace. -/
private theorem rtr_value (x : FVec Ideal S64x512x32x32 .f32) (X : Fin 64 → Fin 512 → Fin 1024 → ℝ)
    (hxc : IsM (RefT.xc (F := Ideal) x : S512x65536.Idx → EReal) (xcR X)) (htr : 0 < trR X) :
    IsS (RefT.rtr (F := Ideal) x) (1 / trR X) :=
  IsS.hostDivf (IsS.const lit_one) (tr_value (sig_value x X hxc)) htr.ne'

/-- Sigma over its trace. -/
private theorem sn_value (x : FVec Ideal S64x512x32x32 .f32) (X : Fin 64 → Fin 512 → Fin 1024 → ℝ)
    (hxc : IsM (RefT.xc (F := Ideal) x : S512x65536.Idx → EReal) (xcR X)) (htr : 0 < trR X) :
    IsM (RefT.sn (F := Ideal) x : S512x512.Idx → EReal) (snR X) :=
  (sig_value x X hxc).mulf (IsM.bcastS (rtr_value x X hxc htr) _ bcast_S_S512x512)

/-- One Newton-Schulz step in the reference's grouping. -/
private theorem step_value {S P : FVec Ideal S512x512 .f32} {q p : Mat 512 512} (hP : IsM P p) (hS : IsM S q) :
    IsM (RefT.step S P : S512x512.Idx → EReal) (stepR q p) := by
  have h15 := (IsM.bcastS (M := 512) (N := 512) (IsS.const lit_1p5) _ bcast_S_S512x512).mulf hP
  have hPP := IsM.dotGeneral_plain hP hP
  have hPPP := IsM.dotGeneral_plain hPP hP
  have h05 := (IsM.bcastS (M := 512) (N := 512) (IsS.const lit_half) _ bcast_S_S512x512).mulf hPPP
  have hd := IsM.dotGeneral_plain h05 hS
  exact h15.subf hd

/-- The iterate after five steps from the identity. -/
private theorem p5_value (x : FVec Ideal S64x512x32x32 .f32) (X : Fin 64 → Fin 512 → Fin 1024 → ℝ)
    (hxc : IsM (RefT.xc (F := Ideal) x : S512x65536.Idx → EReal) (xcR X)) (htr : 0 < trR X) :
    IsM (RefT.p5 (F := Ideal) x : S512x512.Idx → EReal) ((stepR (snR X))^[5] (idm 512)) := by
  have hS := sn_value x X hxc htr
  have h1 := step_value eye_value hS
  have h2 := step_value h1 hS
  have h3 := step_value h2 hS
  have h4 := step_value h3 hS
  have h5 := step_value h4 hS
  exact h5

/-- The whitening matrix. -/
private theorem wm_value (x : FVec Ideal S64x512x32x32 .f32) (X : Fin 64 → Fin 512 → Fin 1024 → ℝ)
    (hxc : IsM (RefT.xc (F := Ideal) x : S512x65536.Idx → EReal) (xcR X)) (htr : 0 < trR X) :
    IsM (RefT.wm (F := Ideal) x : S512x512.Idx → EReal) (wmR X) :=
  (p5_value x X hxc htr).mulf
    (IsM.bcastS (IsS.hostSqrt (rtr_value x X hxc htr) (div_nonneg zero_le_one htr.le)) _ bcast_S_S512x512)

/-- If the centred-samples stage holds the real centred samples of X and the reference's trace of X is positive,
    the whitened-samples stage holds the reference's real result. -/
theorem out2_value (x : FVec Ideal S64x512x32x32 .f32) (X : Fin 64 → Fin 512 → Fin 1024 → ℝ)
    (hxc : IsM (RefT.xc (F := Ideal) x : S512x65536.Idx → EReal) (xcR X)) (htr : 0 < trR X) :
    IsM (RefT.out2 (F := Ideal) x : S512x65536.Idx → EReal) (outR X) := by
  exact IsM.dotGeneral_plain (wm_value x X hxc htr) hxc

end Cert.ReferenceIdeal.RefValue

end
-- ==== Proof.RLift.lean ====
/-
  The reference's staged term over the reals: if the argument holds reals and the trace is positive, the result holds
  the whitened samples laid back out.
-/
import proofs.«129160_j16527034155453_1_alg».proof.Proof.RefTerm
import proofs.«129160_j16527034155453_1_alg».proof.Proof.Gen.ReferenceIdeal
import proofs.«129160_j16527034155453_1_alg».proof.Proof.Lift
import proofs.«129160_j16527034155453_1_alg».proof.Proof.RLiftA
import proofs.«129160_j16527034155453_1_alg».proof.Proof.RLiftB

noncomputable section

namespace Cert.ReferenceIdeal.RefValue

open Cert.ReferenceIdeal Cert.ReferenceIdeal.Gen Idealize.ShloMosaic Idealize.ShloMosaic.ValueIdx
open Cert.NS Cert.Lift

/-- If the argument holds the reals x4 and the reference's trace of them is positive, the reference's result holds
    its real result: entry (n, k, h, w) is sample 1024 n + 32 h + w of channel k. -/
theorem ref_value (x : FVec Ideal S64x512x32x32 .f32) (x4 : Fin 64 → Fin 512 → Fin 32 → Fin 32 → ℝ)
    (hx : Is4 (x : S64x512x32x32.Idx → EReal) x4) (htr : 0 < trR (xOf x4)) :
    Is4 (RefT.out (F := Ideal) x : S64x512x32x32.Idx → EReal)
      (fun n k h w => outR (xOf x4) k ⟨1024 * n.val + 32 * h.val + w.val, by have := n.isLt; have := h.isLt; have := w.isLt; omega⟩) :=
  out_layout x (outR (xOf x4)) (out2_value x (xOf x4) (xc_value x x4 hx) htr)

end Cert.ReferenceIdeal.RefValue

end
-- ==== Proof.Math.lean ====
/-
  The two real programs agree, and the trace is positive.

  Sigma: with m = 65536 samples per channel and mean_i = (sum_k x_ik) / m,
    (1/m) sum_k (x_ik - mean_i) (x_jk - mean_j) = (1/m) sum_k x_ik x_jk - mean_i mean_j,
  so the reference's eps I + xc xc^T / m is the kernel's A / m - mean mean^T + eps I, the sums over the 65536 samples
  split as batch and position.  The traces are then the same sum of diagonal entries, each at least eps > 0.  One
  Newton-Schulz step is the same in both groupings, a scalar passing through a matrix product.  Last,
    sum_j wm_cj (x_jk - mean_j) = sum_j wm_cj x_jk - sum_j wm_cj mean_j.
-/
import proofs.«129160_j16527034155453_1_alg».proof.Proof.RealSpec
import Mathlib.Algebra.BigOperators.Fin
import Mathlib.Algebra.BigOperators.Ring.Finset
import Mathlib.Algebra.Order.BigOperators.Group.Finset
import Mathlib.Data.Fintype.BigOperators
import Mathlib.Logic.Equiv.Fin.Basic
import Mathlib.Tactic.Ring
import Mathlib.Tactic.FieldSimp
import Mathlib.Tactic.Linarith
import Mathlib.Tactic.NormNum
import Mathlib.Tactic.Positivity

noncomputable section

namespace Cert.NS

/-! ## The 65536 samples are the pairs (batch, position) -/

/-- The pair (n, p) is sample 1024 n + p; sample k is the pair (k / 1024, k % 1024). -/
private def splitEquiv : Fin 64 × Fin 1024 ≃ Fin 65536 where
  toFun x := ⟨1024 * x.1.val + x.2.val, by have := x.1.isLt; have := x.2.isLt; omega⟩
  invFun k := (⟨k.val / 1024, by have := k.isLt; omega⟩, ⟨k.val % 1024, Nat.mod_lt _ (by norm_num)⟩)
  left_inv := fun ⟨n, p⟩ => Prod.ext
    (Fin.ext (show (1024 * n.val + p.val) / 1024 = n.val by have := p.isLt; omega))
    (Fin.ext (show (1024 * n.val + p.val) % 1024 = p.val by have := p.isLt; omega))
  right_inv := fun k => Fin.ext (show 1024 * (k.val / 1024) + k.val % 1024 = k.val by omega)

/-- A sum over the samples is the double sum over batch and position. -/
private theorem sum_split (g : Fin 64 → Fin 1024 → ℝ) :
    ∑ k : Fin 65536, g ⟨k.val / 1024, by have := k.isLt; omega⟩ ⟨k.val % 1024, Nat.mod_lt _ (by norm_num)⟩
      = ∑ n : Fin 64, ∑ p : Fin 1024, g n p := by
  rw [← Fintype.sum_prod_type']
  exact Fintype.sum_equiv splitEquiv.symm _ _ (fun _ => rfl)

/-- Sample 1024 n + p of channel j is x n j p. -/
private theorem xr_at (x : Fin 64 → Fin 512 → Fin 1024 → ℝ) (j : Fin 512) (n : Fin 64) (p : Fin 1024)
    (h : 1024 * n.val + p.val < 65536) : xr x j ⟨1024 * n.val + p.val, h⟩ = x n j p := by
  have e : splitEquiv.symm (splitEquiv (n, p)) = (n, p) := splitEquiv.symm_apply_apply _
  have h2 : xr x j ⟨1024 * n.val + p.val, h⟩
      = x (splitEquiv.symm (splitEquiv (n, p))).1 j (splitEquiv.symm (splitEquiv (n, p))).2 := rfl
  rw [h2, e]

/-- The Gram matrix is the sum over samples. -/
private theorem gram_eq (x : Fin 64 → Fin 512 → Fin 1024 → ℝ) (i j : Fin 512) :
    gram x i j = ∑ k, xr x i k * xr x j k :=
  (sum_split (fun n p => x n i p * x n j p)).symm

/-- The row sums are the sums over samples. -/
private theorem rsum_eq (x : Fin 64 → Fin 512 → Fin 1024 → ℝ) (i : Fin 512) (z : Fin 1) :
    rsum x i z = ∑ k, xr x i k :=
  (sum_split (fun n p => x n i p)).symm

/-! ## Sigma -/

/-- The covariance identity: the mean of products of centred values is the mean of products less the product of
means. -/
private theorem cov_identity {ι : Type} [Fintype ι] (a b : ι → ℝ) (r : ℝ) (hr : (Fintype.card ι : ℝ) = r)
    (hr0 : r ≠ 0) :
    (∑ k, (a k - (∑ k, a k) / r) * (b k - (∑ k, b k) / r)) / r
      = (∑ k, a k * b k) / r - ((∑ k, a k) / r) * ((∑ k, b k) / r) := by
  have h : ∀ k, (a k - (∑ k, a k) / r) * (b k - (∑ k, b k) / r)
      = a k * b k - ((∑ k, b k) / r) * a k - ((∑ k, a k) / r) * b k + ((∑ k, a k) / r) * ((∑ k, b k) / r) := by
    intro k; ring
  simp only [h]
  rw [Finset.sum_add_distrib, Finset.sum_sub_distrib, Finset.sum_sub_distrib, ← Finset.mul_sum, ← Finset.mul_sum,
    Finset.sum_const, Finset.card_univ, nsmul_eq_mul, hr]
  field_simp
  ring

/-- The two channel means are one number. -/
private theorem mean_eq (x : Fin 64 → Fin 512 → Fin 1024 → ℝ) (k : Fin 512) (z : Fin 1) :
    meanK (rsum x) k z = meanR x k z := by
  simp only [meanK, meanR, rsum_eq, inv65536, r65536, zero_add]
  ring

/-- The two covariance matrices agree entry by entry. -/
private theorem sig_eq (x : Fin 64 → Fin 512 → Fin 1024 → ℝ) (i j : Fin 512) :
    sigK (gram x) (rsum x) i j = sigR x i j := by
  have hc := cov_identity (fun k => xr x i k) (fun k => xr x j k) 65536 (by simp) (by norm_num)
  have hK : sigK (gram x) (rsum x) i j
      = ((∑ k, xr x i k * xr x j k) / 65536 - ((∑ k, xr x i k) / 65536) * ((∑ k, xr x j k) / 65536))
        + epsR * idm 512 i j := by
    simp only [sigK, mm, meanK, inv65536, Fin.sum_univ_one, gram_eq, rsum_eq]
    ring
  have hR : sigR x i j = epsR * idm 512 i j
      + (∑ k, (xr x i k - (∑ k, xr x i k) / 65536) * (xr x j k - (∑ k, xr x j k) / 65536)) / 65536 := by
    simp only [sigR, mm, xcR, meanR, r65536, zero_add]
  rw [hK, hR, hc]
  ring

/-! ## The trace -/

/-- The kernel's trace is the sum of the diagonal of its Sigma. -/
private theorem trK_diag (A : Mat 512 512) (s : Mat 512 1) : trK A s = ∑ k, sigK A s k k := by
  simp only [trK, mm, diagK, idm, one_mul, mul_ite, mul_one, mul_zero, Finset.sum_ite_eq, Finset.mem_univ,
    if_true]

/-- The reference's trace is the sum of the diagonal of its Sigma. -/
private theorem trR_diag (x : Fin 64 → Fin 512 → Fin 1024 → ℝ) : trR x = ∑ i, sigR x i i := by
  simp only [trR, zero_add, Finset.sum_ite_eq, Finset.mem_univ, if_true]

private theorem tr_eq (x : Fin 64 → Fin 512 → Fin 1024 → ℝ) : trK (gram x) (rsum x) = trR x := by
  rw [trK_diag, trR_diag]
  exact Finset.sum_congr rfl (fun i _ => sig_eq x i i)

/-- Each diagonal entry of the reference's Sigma is eps plus a mean of squares. -/
private theorem sigR_diag_pos (x : Fin 64 → Fin 512 → Fin 1024 → ℝ) (i : Fin 512) : 0 < sigR x i i := by
  have h1 : 0 < epsR := by unfold epsR; positivity
  have h2 : 0 ≤ ∑ k, xcR x i k * xcR x i k := Finset.sum_nonneg (fun k _ => mul_self_nonneg _)
  have h3 : 0 ≤ (∑ k, xcR x i k * xcR x i k) / 65536 := div_nonneg h2 (by norm_num)
  have h4 : sigR x i i = epsR * 1 + (∑ k, xcR x i k * xcR x i k) / 65536 := by
    simp only [sigR, mm, idm, r65536, if_true]
  rw [h4]
  linarith

/-! ## The Newton-Schulz steps -/

/-- A scalar passes through a matrix product. -/
private theorem mm_smul_left {a b c : ℕ} (t : ℝ) (M : Mat a b) (S : Mat b c) (i : Fin a) (j : Fin c) :
    mm (fun i j => t * M i j) S i j = t * mm M S i j := by
  simp only [mm, Finset.mul_sum, mul_assoc]

private theorem step_eq (S P : Mat 512 512) : stepK S P = stepR S P := by
  funext i j
  show 1.5 * P i j - 0.5 * mm (mm (mm P P) P) S i j
    = 1.5 * P i j - mm (fun i j => 0.5 * mm (mm P P) P i j) S i j
  rw [mm_smul_left]

private theorem sn_eq (x : Fin 64 → Fin 512 → Fin 1024 → ℝ) : snK (gram x) (rsum x) = snR x := by
  funext i j
  simp only [snK, snR, sig_eq, tr_eq]

private theorem wm_eq (x : Fin 64 → Fin 512 → Fin 1024 → ℝ) : wmK (gram x) (rsum x) = wmR x := by
  funext i j
  have hs : stepK (snR x) = stepR (snR x) := funext (step_eq _)
  simp only [wmK, wmR, sn_eq, hs, tr_eq]

/-- The trace the kernel forms is positive: each diagonal entry of Sigma is eps plus a mean of squares. -/
theorem trK_pos (x : Fin 64 → Fin 512 → Fin 1024 → ℝ) : 0 < trK (gram x) (rsum x) := by
  rw [tr_eq, trR_diag]
  exact Finset.sum_pos (fun i _ => sigR_diag_pos x i) Finset.univ_nonempty

/-- The two traces are one number. -/
theorem trK_eq_trR (x : Fin 64 → Fin 512 → Fin 1024 → ℝ) : trK (gram x) (rsum x) = trR x := by
  exact tr_eq x

/-- The two results are one number: batch n, position p of the kernel is sample 1024 n + p of the reference. -/
theorem outK_eq_outR (x : Fin 64 → Fin 512 → Fin 1024 → ℝ) (n : Fin 64) (c : Fin 512) (p : Fin 1024) :
    outK x n c p = outR x c ⟨1024 * n.val + p.val, by have := n.isLt; have := p.isLt; omega⟩ := by
  have hL : outK x n c p = (∑ k, wmR x c k * x n k p) - ∑ k, wmR x c k * meanR x k 0 := by
    simp only [outK, wmmK, mm, wm_eq, mean_eq]
  have hR : outR x c ⟨1024 * n.val + p.val, by have := n.isLt; have := p.isLt; omega⟩
      = ∑ k, wmR x c k * (x n k p - meanR x k 0) := by
    simp only [outR, mm, xcR, xr_at]
  rw [hL, hR, ← Finset.sum_sub_distrib]
  exact Finset.sum_congr rfl (fun k _ => (mul_sub _ _ _).symm)

end Cert.NS

end
-- ==== Proof.FiniteInputs.lean ====
/-
  The precondition read: every entry of a finite input is a real number.
-/
import proofs.«129160_j16527034155453_1_alg».proof.Pre_finite_inputs
import proofs.«129160_j16527034155453_1_alg».proof.Proof.Gen.Pre_finite_inputs
import proofs.«129160_j16527034155453_1_alg».proof.Proof.Lift
import Idealize.ShloMosaic.Lib.ReduceAll
import Idealize.ShloMosaic.Lib.IdealHost

noncomputable section

namespace Cert.FiniteInputs

open Idealize.ShloMosaic Idealize.ShloMosaic.ValueIdx Cert.Lift

/-- The rank-zero shape has one index. -/
private instance subsingleton_scalar_idx : Subsingleton Cert.Pre_finite_inputs.S_.Idx :=
  ⟨fun a b => funext fun d => d.elim0⟩

/-- The word 0x7F800000 is plus infinity. -/
private theorem lit_inf : Ideal.ofBits .f32 0x7F800000#32 = (⊤ : EReal) := by
  simp [Ideal.ofBits, Ideal.ieee]

/-- An extended real whose absolute value is below plus infinity is a real. -/
private theorem real_of_abs_lt_top (e : EReal) (h : Ideal.cmp .olt (max e (-e)) ⊤ = 1#1) :
    ∃ r : ℝ, e = (r : EReal) := by
  induction e using EReal.rec with
  | bot => simp [Ideal.cmp] at h
  | coe r => exact ⟨r, rfl⟩
  | top => simp [Ideal.cmp] at h

/-- Under the precondition every entry is a real. -/
private theorem entry_real (x : FVec Ideal Cert.Pre_finite_inputs.S64x512x32x32 .f32)
    (h : Cert.Pre_finite_inputs.fn (F := Ideal) x = fun _ => 1#1)
    (i : Cert.Pre_finite_inputs.S64x512x32x32.Idx) : ∃ r : ℝ, x i = (r : EReal) := by
  have h0 := congrFun h ValueIdx.ix0
  dsimp only [Cert.Pre_finite_inputs.fn] at h0
  have h1 := Host.reduce_andi_all _ _ _ _ _ h0 i
  rw [cmpf_apply, broadcastInDim_scalar_apply, constant_apply, lit_inf] at h1
  exact real_of_abs_lt_top (x i) h1

/-- If the finiteness predicate is all ones on x, every entry of x is the coercion of a real. -/
theorem finite_of_pre (x : FVec Ideal Cert.Pre_finite_inputs.S64x512x32x32 .f32)
    (h : Cert.Pre_finite_inputs.fn (F := Ideal) x = fun _ => 1#1) :
    ∃ x4 : Fin 64 → Fin 512 → Fin 32 → Fin 32 → ℝ, Is4 (x : (⟨4, ![64, 512, 32, 32]⟩ : Shape).Idx → EReal) x4 := by
  choose f hf using entry_real x h
  exact ⟨fun a b c d => f (ix4 a b c d), fun a b c d => hf (ix4 a b c d)⟩

end Cert.FiniteInputs

end
-- ==== Proof.lean ====
/-
  The certificate of the whitening kernel against its reference.

  The three frames: the two kernel programs by their generated frame certificates, the reference by its run.  The
  idealization rewrote nothing, so there is nothing to preserve.  The value claim: under the precondition the argument
  holds real numbers; the kernel's three regions then hold, in turn, the Gram matrix and row sums, the whitening
  matrix and its product with the means, and wm x_n - wm mean; the reference's host chain holds wm (x - mean); over
  the reals the two are one function, the trace being positive.
-/
import proofs.«129160_j16527034155453_1_alg».proof.Defs
import proofs.«129160_j16527034155453_1_alg».proof.Proof.Gen.Kernel
import proofs.«129160_j16527034155453_1_alg».proof.Proof.Gen.Kernel.Frame
import proofs.«129160_j16527034155453_1_alg».proof.Proof.Gen.KernelIdeal
import proofs.«129160_j16527034155453_1_alg».proof.Proof.Gen.KernelIdeal.Frame
import proofs.«129160_j16527034155453_1_alg».proof.Proof.Gen.ReferenceIdeal
import proofs.«129160_j16527034155453_1_alg».proof.Proof.Gen.Pre_finite_inputs
import proofs.«129160_j16527034155453_1_alg».proof.Proof.KRun
import proofs.«129160_j16527034155453_1_alg».proof.Proof.KAsm
import proofs.«129160_j16527034155453_1_alg».proof.Proof.RRun
import proofs.«129160_j16527034155453_1_alg».proof.Proof.RLift
import proofs.«129160_j16527034155453_1_alg».proof.Proof.Math
import proofs.«129160_j16527034155453_1_alg».proof.Proof.FiniteInputs
import Idealize.ShloMosaic.Adequacy
import Idealize.ShloMosaic.Init

noncomputable section

namespace Cert.Proof

open Idealize.ShloMosaic Idealize.ShloMosaic.TcCoe Idealize.ShloMosaic.ValueIdx Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the same array: entry (n, k, h, w) of each is the real number
    sum_j wm_kj (x_{n,j,32h+w} - mean_j), the kernel's as a difference of two sums. -/
theorem algebraic : Cert.algebraic_KernelIdeal_ReferenceIdeal := by
  intro m ρ m' ρ' hpre hagree
  refine ⟨fun c => Cert.KernelIdeal.Gen.W5 m ρ c (Proc.devRef .tc Cert.KernelIdeal.main_v4), Cert.KernelIdeal.GenV.run_v4 m ρ, ?_⟩
  refine (θ_run Cert.ReferenceIdeal.defs _ _).mono (fun _ h c => ⟨(h c).1.trans ?_, (h c).2⟩)
    (Cert.ReferenceIdeal.Value.run (F := Ideal) m' ρ')
  rw [hagree c]
  obtain ⟨x4, hx4⟩ := Cert.FiniteInputs.finite_of_pre _ (hpre c)
  have hpos := Cert.NS.trK_pos (Cert.NS.xOf x4)
  have hposR : 0 < Cert.NS.trR (Cert.NS.xOf x4) := by rw [← Cert.NS.trK_eq_trR]; exact hpos
  funext idx
  obtain ⟨n, k, h', w, rfl⟩ : ∃ (n : Fin 64) (k : Fin 512) (h' : Fin 32) (w : Fin 32), idx = ix4 n k h' w :=
    ⟨idx 0, idx 1, idx 2, idx 3, eq_ix4 idx⟩
  refine (Cert.ReferenceIdeal.RefValue.ref_value _ x4 hx4 hposR n k h' w).trans ?_
  refine Eq.trans ?_ (Cert.KernelIdeal.Val.kernel_value m ρ c x4 hx4 hpos n k h' w).symm
  show ((Cert.NS.outR (Cert.NS.xOf x4) k ⟨1024 * n.val + 32 * h'.val + w.val, _⟩ : ℝ) : EReal)
    = ((Cert.NS.outK (Cert.NS.xOf x4) n k ⟨32 * h'.val + w.val, _⟩ : ℝ) : EReal)
  rw [Cert.NS.outK_eq_outR]
  refine congrArg (fun q : Fin 65536 => ((Cert.NS.outR (Cert.NS.xOf x4) k q : ℝ) : EReal)) (Fin.ext ?_)
  show 1024 * n.val + 32 * h'.val + w.val = 1024 * n.val + (32 * h'.val + w.val)
  omega

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
